-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x8 .f32) (main_arg12 : FVec F S8 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8 .f32 := Host.absf main_arg11
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x8 .f32) (main_arg12 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x8 .f32) (main_arg12 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S256x128 : Shape := ⟨2, ![256, 128]⟩
abbrev S256x1 : Shape := ⟨2, ![256, 1]⟩
abbrev S2000x128 : Shape := ⟨2, ![2000, 128]⟩
abbrev S2000x1 : Shape := ⟨2, ![2000, 1]⟩
abbrev S2000x256 : Shape := ⟨2, ![2000, 256]⟩
abbrev S1x64 : Shape := ⟨2, ![1, 64]⟩
abbrev S1x8 : Shape := ⟨2, ![1, 8]⟩
abbrev S256x8 : Shape := ⟨2, ![256, 8]⟩
abbrev S256x64 : Shape := ⟨2, ![256, 64]⟩

abbrev nBuf : Space → Nat
  | .hbm => 80
  | .vmem => 49
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x8, .f32⟩
  | .hbm, ⟨12, _⟩ => ⟨S8, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x1, .i32⟩
  | .hbm, ⟨75, _⟩ => ⟨S256x128, .f32⟩
  | .hbm, ⟨76, _⟩ => ⟨S256x1, .f32⟩
  | .hbm, ⟨77, _⟩ => ⟨S1x64, .f32⟩
  | .hbm, ⟨78, _⟩ => ⟨S1x8, .f32⟩
  | .hbm, ⟨79, _⟩ => ⟨S256x8, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S128x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x1, .f32⟩
  | .local _ .vmem, ⟨22, _⟩ => ⟨S4000x1, .f32⟩
  | .local _ .vmem, ⟨23, _⟩ => ⟨S1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x1, .f32⟩
  | .local _ .vmem, ⟨32, _⟩ => ⟨S4000x1, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .i32⟩
  | .local _ .vmem, ⟨39, _⟩ => ⟨S2000x1, .i32⟩
  | .local _ .vmem, ⟨40, _⟩ => ⟨S256x128, .f32⟩
  | .local _ .vmem, ⟨41, _⟩ => ⟨S256x1, .f32⟩
  | .local _ .vmem, ⟨42, _⟩ => ⟨S256x128, .f32⟩
  | .local _ .vmem, ⟨43, _⟩ => ⟨S256x1, .f32⟩
  | .local _ .vmem, ⟨44, _⟩ => ⟨S128x64, .f32⟩
  | .local _ .vmem, ⟨45, _⟩ => ⟨S1x64, .f32⟩
  | .local _ .vmem, ⟨46, _⟩ => ⟨S64x8, .f32⟩
  | .local _ .vmem, ⟨47, _⟩ => ⟨S1x8, .f32⟩
  | .local _ .vmem, ⟨48, _⟩ => ⟨S256x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc5_sem0_0 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem5_0 : DmaSem sig := 47
abbrev cc5_sem6_0 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x8 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  shapeCasts_S256x128_S256x128 : S256x128.ShapeCasts S256x128
  shapeCasts_S256x1_S256x1 : S256x1.ShapeCasts S256x1
  shapeCasts_S64_S1x64 : S64.ShapeCasts S1x64
  shapeCasts_S8_S1x8 : S8.ShapeCasts S1x8
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S256x8_S256x8_0_0 : ∀ a, (![0, 0] : Fin 2 → Nat) a + S256x8.size a ≤ S256x8.size a
  h_S256x8 : 0 < S256x8.numel
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S2000x128_S256x128_0_0_1_1_n_n_wf : DotDims.WF S2000x256 S2000x128 S256x128 [0] [0] [1] [1] [] []
  dot_S2000x256_S2000x1_S256x1_0_0_1_1_n_n_wf : DotDims.WF S2000x256 S2000x1 S256x1 [0] [0] [1] [1] [] []
  dot_S256x128_S128x64_S256x64_1_0_0_1_n_n_wf : DotDims.WF S256x128 S128x64 S256x64 [1] [0] [0] [1] [] []
  dot_S256x64_S64x8_S256x8_1_0_0_1_n_n_wf : DotDims.WF S256x64 S64x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x1.size a ≤ S256x1.size a
  hwx5_1 : ∀ i : grid5.Coords, EltTy.bits .f32 = 32 ∨ (Rect.block (s := S256x1) S256x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x8.size a ≤ S64x8.size a
  hwx5_4 : ∀ i : grid5.Coords, EltTy.bits .f32 = 32 ∨ (Rect.block (s := S64x8) S64x8.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x8.size a ≤ S1x8.size a
  hwx5_5 : ∀ i : grid5.Coords, EltTy.bits .f32 = 32 ∨ (Rect.block (s := S1x8) S1x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x8.size a ≤ S256x8.size a
  hwx5_6 : ∀ i : grid5.Coords, EltTy.bits .f32 = 32 ∨ (Rect.block (s := S256x8) S256x8.size (cc5_transform_6 i) (hinb5_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50_0) S256x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50_1) S256x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v50_0) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v50_1) S256x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S64x8.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v52) S1x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v53) S256x8.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S256x8 : Shape := ⟨2, ![256, 8]⟩
abbrev S1x8 : Shape := ⟨2, ![1, 8]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x8, .f32⟩
  | 12 => ⟨S8, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .f32⟩
  | 47 => ⟨S100000, .f32⟩
  | 48 => ⟨S100000, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x1, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x1, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x1, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S256x128, .f32⟩
  | 4 => ⟨S100000x1, .i32⟩
  | 5 => ⟨S256x128, .f32⟩
  | 6 => ⟨S_, .f32⟩
  | 7 => ⟨S100000, .f32⟩
  | 8 => ⟨S_, .f32⟩
  | 9 => ⟨S256, .f32⟩
  | 10 => ⟨S100000x1, .i32⟩
  | 11 => ⟨S256, .f32⟩
  | 12 => ⟨S_, .f32⟩
  | 13 => ⟨S256, .f32⟩
  | 14 => ⟨S256, .f32⟩
  | 15 => ⟨S256x1, .f32⟩
  | 16 => ⟨S256x128, .f32⟩
  | 17 => ⟨S256x128, .f32⟩
  | 18 => ⟨S256x64, .f32⟩
  | 19 => ⟨S1x64, .f32⟩
  | 20 => ⟨S256x64, .f32⟩
  | 21 => ⟨S256x64, .f32⟩
  | 22 => ⟨S_, .f32⟩
  | 23 => ⟨S256x64, .f32⟩
  | 24 => ⟨S256x64, .f32⟩
  | 25 => ⟨S256x8, .f32⟩
  | 26 => ⟨S1x8, .f32⟩
  | 27 => ⟨S256x8, .f32⟩
  | 28 => ⟨S256x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call0_cst : Ref sig .tc := ⟨.hbm, 73, rfl⟩
abbrev main_call0_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_v72 : Ref sig .tc := ⟨.hbm, 103, rfl⟩
abbrev main_c_12 : Ref sig .tc := ⟨.hbm, 104, rfl⟩
abbrev main_v73 : Ref sig .tc := ⟨.hbm, 105, rfl⟩
abbrev main_v74 : Ref sig .tc := ⟨.hbm, 106, rfl⟩
abbrev main_c_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_cst_15 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_16 : Ref sig .tc := ⟨.hbm, 134, rfl⟩
abbrev main_v97 : Ref sig .tc := ⟨.hbm, 135, rfl⟩
abbrev main_cst_17 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x8_S256x8_1_0_0_1_n_n_wf : DotDims.WF S256x64 S64x8 S256x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

class Facts : Prop extends Facts₀ where

variable [Facts]
-- ==== Proof.KSpec.lean ====
/-
  What each of the six kernel launches computes, as ONE function of the whole arrays it reads, index by index, on the
  extended reals. A graph-convolution layer here is  out = D^(-1/2) (A + I) D^(-1/2) (X W) + b ; the program keeps the
  table  T = (X W) scaled row by row by d = deg^(-1/2)  and forms  (scatter-sum of gathered rows of T + T) scaled by d
  again, so the launches are: the scaled linear step (launch 0), the epilogue of one layer fused with the next
  layer's scaled linear step (launches 1 and 2), the last epilogue alone (launch 3), the per-graph sums and counts
  by an indicator product accumulated over fifty row blocks (launch 4), and the two-layer classifier on the per-graph
  means (launch 5).
-/
import proofs.«429220_j1795296329975_3_alg».proof.KernelIdeal
import Idealize.ShloMosaic.Lib.ValueIdx

noncomputable section

namespace Cert.KernelIdeal.KV

open Idealize.ShloMosaic Idealize.ShloMosaic.ValueIdx Cert.KernelIdeal

/-- An array of extended reals over a shape. -/
abbrev Arr (S : Shape) : Type := S.Idx → EReal

/-- Launch 0: row n of x·w, scaled by d n. -/
def lin (x : Arr S100000x128) (w : Arr S128x128) (d : Arr S100000x1) : Arr S100000x128 :=
  fun i => (∑ k : Fin 128, x (ix2 (i 0) k) * w (ix2 k (i 1))) * d (ix2 (i 0) 0)

/-- The epilogue of a layer at (n, k): (aggregate + own scaled row) scaled by d n, plus the bias, clipped at 0. -/
def act (agg hs : Arr S100000x128) (d : Arr S100000x1) (b : Arr S1x128) (n : Fin 100000) (k : Fin 128) : EReal :=
  max ((agg (ix2 n k) + hs (ix2 n k)) * d (ix2 n 0) + b (ix2 0 k)) 0

/-- Launches 1 and 2: the epilogue, then the next layer's scaled linear step. -/
def finLin (agg hs : Arr S100000x128) (d : Arr S100000x1) (b : Arr S1x128) (w : Arr S128x128) : Arr S100000x128 :=
  fun i => (∑ k : Fin 128, act agg hs d b (i 0) k * w (ix2 k (i 1))) * d (ix2 (i 0) 0)

/-- Launch 3: the epilogue alone. -/
def fin (agg hs : Arr S100000x128) (d : Arr S100000x1) (b : Arr S1x128) : Arr S100000x128 :=
  fun i => act agg hs d b (i 0) (i 1)

/-- Row r of row block t of a 100000-row array cut in fifty blocks of 2000 rows. -/
def rowOf (t : Fin 50) (r : Fin 2000) : Fin 100000 := ⟨t.val * 2000 + r.val, by have := t.isLt; have := r.isLt; omega⟩

/-- The indicator that a 32-bit graph id is the graph g. -/
def ind (b : BitVec 32) (g : Fin 256) : EReal := if BitVec.ofNat 32 g.val = b then 1 else 0

/-- Launch 4, first output: per graph, the sum over all rows of indicator × row, block by block. -/
def poolSum (h : Arr S100000x128) (bt : IVec S100000x1 32) : Arr S256x128 :=
  fun i => ∑ t : Fin 50, ∑ r : Fin 2000, ind (bt (ix2 (rowOf t r) 0)) (i 0) * h (ix2 (rowOf t r) (i 1))

/-- Launch 4, second output: per graph, the number of its rows, block by block. -/
def poolCnt (bt : IVec S100000x1 32) : Arr S256x1 :=
  fun i => ∑ t : Fin 50, ∑ r : Fin 2000, ind (bt (ix2 (rowOf t r) 0)) (i 0)

/-- The per-graph mean feature (sum over max(count, 1)) at (g, k). -/
def mean (s : Arr S256x128) (cn : Arr S256x1) (g : Fin 256) (k : Fin 128) : EReal :=
  Ideal.div (s (ix2 g k)) (max (cn (ix2 g 0)) 1)

/-- Launch 5: the classifier, relu(mean·w1 + b1)·w2 + b2. -/
def cls (s : Arr S256x128) (cn : Arr S256x1) (w1 : Arr S128x64) (b1 : Arr S1x64) (w2 : Arr S64x8) (b2 : Arr S1x8) :
    Arr S256x8 :=
  fun i => (∑ q : Fin 64, max ((∑ k : Fin 128, mean s cn (i 0) k * w1 (ix2 k q)) + b1 (ix2 0 q)) 0 * w2 (ix2 q (i 1)))
    + b2 (ix2 0 (i 1))

end Cert.KernelIdeal.KV

end
-- ==== Proof.KHost.lean ====
/-
  The host operations around the kernel's six launches, as functions of the argument arrays: the edge list split into
  source and destination ids; a negative id wrapped by the number of nodes (what a lookup does before it reads); the
  degree deg n = 1 + the number of edges into n, as a scatter-sum of ones; d = deg^(-1/2) as a column; the aggregate of
  a table, the scatter-sum by destination of the rows gathered by source; the bias vectors as rows and the graph ids
  as a column. And the kernel program's result as ONE function of its thirteen arguments: three layers in which a
  table T = (X W) scaled by d is aggregated, added to itself, scaled by d again, shifted and clipped, then per-graph
  means and a two-layer classifier.
-/
import proofs.«429220_j1795296329975_3_alg».proof.Proof.Gen.KernelIdeal
import proofs.«429220_j1795296329975_3_alg».proof.Proof.KSpec

noncomputable section

namespace Cert.KernelIdeal.KH

open Idealize.ShloMosaic Cert.KernelIdeal Cert.KernelIdeal.Facts₀ Cert.KernelIdeal.Facts

section Host
variable {F : FTy → Type} [FloatOps F]

/-- An array of 32-bit integers over a shape. -/
abbrev I32 (S : Shape) : Type := (⟨S, .i32⟩ : BufTy).Contents (Elt F)
/-- An array of floats over a shape. -/
abbrev F32 (S : Shape) : Type := (⟨S, .f32⟩ : BufTy).Contents (Elt F)

/-- The source node of each edge: row 0 of the edge list. -/
def srcOf (a1 : I32 (F := F) S2x1600000) : I32 (F := F) S1600000 :=
  shapeCast S1600000 (extractStridedSlice S1x1600000 ![0, 0] a1 slices_S2x1600000_S1x1600000_0_0) shapeCasts_S1x1600000_S1600000

/-- The destination node of each edge: row 1 of the edge list. -/
def dstOf (a1 : I32 (F := F) S2x1600000) : I32 (F := F) S1600000 :=
  shapeCast S1600000 (extractStridedSlice S1x1600000 ![1, 0] a1 slices_S2x1600000_S1x1600000_1_0) shapeCasts_S1x1600000_S1600000

/-- A node id with the number of nodes added when it is negative. -/
def wrapOf (v : I32 (F := F) S1600000) : I32 (F := F) S1600000 :=
  select (cmpi .slt v (broadcastInDim S1600000 ![] bcast_S_S1600000 (constantI S_ 32 0#32)))
    (addi v (broadcastInDim S1600000 ![] bcast_S_S1600000 (constantI S_ 32 100000#32))) v

/-- Per-edge ids as a column of start indices. -/
def colOf (v : I32 (F := F) S1600000) : I32 (F := F) S1600000x1 :=
  broadcastInDim S1600000x1 ![0] bcast_S1600000_S1600000x1_0 v

/-- deg n = (the sum over the edges into n of 1) + 1. -/
def degOf (a1 : I32 (F := F) S2x1600000) : F32 (F := F) S100000 :=
  addf (Host.scatterAdd scatter_S100000_S1600000x1_S1600000_n_0_0_1
      (broadcastInDim S100000 ![] bcast_S_S100000 (constant (F := F) S_ .f32 0x00000000#32))
      (colOf (dstOf a1))
      (broadcastInDim S1600000 ![] bcast_S_S1600000 (constant (F := F) S_ .f32 0x3F800000#32)))
    (broadcastInDim S100000 ![] bcast_S_S100000 (constant (F := F) S_ .f32 0x3F800000#32))

/-- d = deg^(-1/2). -/
def dinvOf (a1 : I32 (F := F) S2x1600000) : F32 (F := F) S100000 := Host.rsqrt (degOf a1)

/-- d as a column. -/
def dcolOf (a1 : I32 (F := F) S2x1600000) : F32 (F := F) S100000x1 :=
  shapeCast S100000x1 (dinvOf a1) shapeCasts_S100000_S100000x1

/-- The aggregate of a table by given source and destination ids: into row n, the sum over the edges whose
    destination is n of the table's row at the edge's (wrapped) source. -/
def aggSD (T : F32 (F := F) S100000x128) (src dst : I32 (F := F) S1600000) : F32 (F := F) S100000x128 :=
  Host.scatterAdd scatter_S100000x128_S1600000x1_S1600000x128_1_0_0_1
    (broadcastInDim S100000x128 ![] bcast_S_S100000x128 (constant (F := F) S_ .f32 0x00000000#32))
    (colOf dst)
    (Host.gather gather_S100000x128_S1600000x1_S1600000x128_1_0_n_n_0_1_1128 T (colOf (wrapOf src)))

/-- The aggregate of a table along the edge list. -/
def aggOf (T : F32 (F := F) S100000x128) (a1 : I32 (F := F) S2x1600000) : F32 (F := F) S100000x128 :=
  aggSD T (srcOf a1) (dstOf a1)

/-- A bias vector as a row. -/
def row128 (b : F32 (F := F) S128) : F32 (F := F) S1x128 := shapeCast S1x128 b shapeCasts_S128_S1x128
def row64 (b : F32 (F := F) S64) : F32 (F := F) S1x64 := shapeCast S1x64 b shapeCasts_S64_S1x64
def row8 (b : F32 (F := F) S8) : F32 (F := F) S1x8 := shapeCast S1x8 b shapeCasts_S8_S1x8

/-- The graph ids as a column. -/
def bcolOf (a2 : I32 (F := F) S100000) : I32 (F := F) S100000x1 := shapeCast S100000x1 a2 shapeCasts_S100000_S100000x1

end Host

/-! ## The kernel program's result, on the extended reals -/

section Value
variable (a0 : F32 (F := Ideal) S100000x128) (a1 : I32 (F := Ideal) S2x1600000) (a2 : I32 (F := Ideal) S100000)
  (a3 : F32 (F := Ideal) S128x128) (a4 : F32 (F := Ideal) S128) (a5 : F32 (F := Ideal) S128x128) (a6 : F32 (F := Ideal) S128)
  (a7 : F32 (F := Ideal) S128x128) (a8 : F32 (F := Ideal) S128) (a9 : F32 (F := Ideal) S128x64) (a10 : F32 (F := Ideal) S64)
  (a11 : F32 (F := Ideal) S64x8) (a12 : F32 (F := Ideal) S8)

/-- Layer 1's scaled table. -/
def T1 : KV.Arr S100000x128 := KV.lin a0 a3 (dcolOf a1)
/-- Layer 2's scaled table. -/
def T2 : KV.Arr S100000x128 := KV.finLin (aggOf (T1 a0 a1 a3) a1) (T1 a0 a1 a3) (dcolOf a1) (row128 a4) a5
/-- Layer 3's scaled table. -/
def T3 : KV.Arr S100000x128 :=
  KV.finLin (aggOf (T2 a0 a1 a3 a4 a5) a1) (T2 a0 a1 a3 a4 a5) (dcolOf a1) (row128 a6) a7
/-- The node features after the third layer. -/
def feat : KV.Arr S100000x128 :=
  KV.fin (aggOf (T3 a0 a1 a3 a4 a5 a6 a7) a1) (T3 a0 a1 a3 a4 a5 a6 a7) (dcolOf a1) (row128 a8)
/-- The program's result. -/
def out : KV.Arr S256x8 :=
  KV.cls (KV.poolSum (feat a0 a1 a3 a4 a5 a6 a7 a8) (bcolOf a2)) (KV.poolCnt (bcolOf a2)) a9 (row64 a10) a11 (row8 a12)

end Value

end Cert.KernelIdeal.KH

end
-- ==== Proof.KReg0.lean ====
/-
  Launch 0 over the whole arrays: twenty-five row blocks of 4000 rows; block t of the output is the product of block t
  of x with the whole of w, each row scaled by that row's entry of d. Read together, the output array is
  (x·w) scaled row by row by d.
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

/-! ## The block product at an index -/

/-- The left factor is read at the output's row … -/
theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … and at the contraction position as its column; -/
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right factor at the contraction position as its row … -/
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and at the output's column. -/
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The block product into a zero accumulator, at row p and column q: the sum over k of a(p,k)·b(k,q). -/
theorem blockProduct_apply {φ₁ φ₂ : FTy} (a : FVec Ideal S4000x128 φ₁) (b : FVec Ideal S128x128 φ₂) (p : Fin 4000) (q : Fin 128) :
    matmul (F := Ideal) dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun ax => Fin.ext (by
      match ax with
      | ⟨0, _⟩ => exact lhs_axis0 _ _
      | ⟨1, _⟩ => exact (lhs_axis1 _ _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun ax => Fin.ext (by
      match ax with
      | ⟨0, _⟩ => exact (rhs_axis0 _ _).trans hk
      | ⟨1, _⟩ => exact rhs_axis1 _ _)
  rw [el, er]

/-- A column of 4000 entries spread over 128 columns reads, at (p, q), the column's entry p. -/
theorem spreadColumn_apply {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- What the body stores, at row p and column q of the block: row p of x times column q of w, scaled by d's entry p. -/
theorem stored_apply (x0 : Vec Ideal S4000x128 .f32) (x1 : Vec Ideal S128x128 .f32) (x2 : Vec Ideal S4000x1 .f32)
    (p : Fin 4000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, blockProduct_apply, spreadColumn_apply, shapeCast_self]
  rfl

/-- If row p of a block x0 is row r of x, the block x1 is w, and entry p of the block x2 is entry r of d, then the scaled
    product of the blocks at (p, q) is the scaled product of the whole arrays at (r, q). -/
theorem scaled_of_rows (x0 : Vec Ideal S4000x128 .f32) (x1 : Vec Ideal S128x128 .f32) (x2 : Vec Ideal S4000x1 .f32)
    (x : KV.Arr S100000x128) (w : KV.Arr S128x128) (d : KV.Arr S100000x1) (p : Fin 4000) (q : Fin 128) (r : Fin 100000)
    (hx : ∀ k : Fin 128, x0 (ix2 p k) = x (ix2 r k)) (hw : ∀ k : Fin 128, x1 (ix2 k q) = w (ix2 k q))
    (hd : x2 (ix2 p (0 : Fin 1)) = d (ix2 r (0 : Fin 1))) :
    (∑ k : Fin 128, x0 (ix2 p k) * x1 (ix2 k q)) * x2 (ix2 p (0 : Fin 1)) = KV.lin x w d (ix2 r q) := by
  show _ = (∑ k : Fin 128, x (ix2 r k) * w (ix2 k q)) * d (ix2 r (0 : Fin 1))
  rw [hd]
  congr 1
  exact Finset.sum_congr rfl fun k _ => by rw [hx k, hw k]

/-! ## The blocks of a point, read off the whole arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices of the four windows at a point, decided over the twenty-five points: x, d and the output move
    with the point along the rows; w stays. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ t.val < 25 :=
  (by decide +kernel : ∀ t : Fin grid0.N, _)

/-- Row p of block t of a 100000-row array cut in twenty-five blocks of 4000 rows. -/
def rowOf (t : Fin cfg0.N) (p : Fin 4000) : Fin 100000 :=
  ⟨t.val * 4000 + p.val, by have := (blockIndex t).2.2.2.2.2.2.2.2; have := p.isLt; omega⟩

/-- Block t of x is rows 4000 t … 4000 t + 3999 of x. -/
theorem xBlock_apply (c : Dev nD) (t : Fin cfg0.N) (p : Fin 4000) (k : Fin 128) :
    (iblk0 V c 0 t : Vec Ideal S4000x128 .f32) (ix2 p k) = (V c main_arg0 : S100000x128.Idx → EReal) (ix2 (rowOf t p) k) := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Every point's block of w is the whole of w. -/
theorem wBlock_apply (c : Dev nD) (t : Fin cfg0.N) (k q : Fin 128) :
    (iblk0 V c 1 t : Vec Ideal S128x128 .f32) (ix2 k q) = (V c main_arg3 : S128x128.Idx → EReal) (ix2 k q) := by
  obtain ⟨-, -, e0, e1, -⟩ := blockIndex t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Block t of d is entries 4000 t … 4000 t + 3999 of d. -/
theorem dBlock_apply (c : Dev nD) (t : Fin cfg0.N) (p : Fin 4000) :
    (iblk0 V c 2 t : Vec Ideal S4000x1 .f32) (ix2 p (0 : Fin 1)) = (V c main_v11 : S100000x1.Idx → EReal) (ix2 (rowOf t p) (0 : Fin 1)) := by
  obtain ⟨-, -, -, -, e0, e1, -⟩ := blockIndex t
  unfold iblk0
  rw [View.read_apply]
  show V c main_v11 _ = V c main_v11 _
  congr 1
  funext a
  apply Fin.ext
  match a with
  | ⟨0, _⟩ => show win0_2.index t (0 : Fin 2) * 4000 + 1 * p.val = t.val * 4000 + p.val; rw [e0]; omega
  | ⟨1, _⟩ => show win0_2.index t (1 : Fin 2) * 1 + 1 * (0 : Fin 1).val = (0 : Fin 1).val; rw [e1]; rfl

/-- The place of entry (p, q) of the output's block t in the output array. -/
theorem outPlace (t : Fin cfg0.N) (p : Fin 4000) (q : Fin 128) :
    ((cfg0.win 3).blk t).view.emb (ix2 p q : S4000x128.Idx) = (ix2 (rowOf t p) q : S100000x128.Idx) := by
  obtain ⟨-, -, -, -, -, -, e0, e1, -⟩ := blockIndex t
  funext a
  apply Fin.ext
  match a with
  | ⟨0, _⟩ => show win0_3.index t (0 : Fin 2) * 4000 + 1 * p.val = t.val * 4000 + p.val; rw [e0]; omega
  | ⟨1, _⟩ => show win0_3.index t (1 : Fin 2) * 128 + 1 * q.val = q.val; rw [e1]; omega

/-- What point t stores at (p, q) of its block is the scaled product at the entry's place in the whole arrays. -/
theorem stored_at_point (c : Dev nD) (t : Fin cfg0.N) (p : Fin 4000) (q : Fin 128) :
    k0_pay1 (F := Ideal) (iblk0 V c 0 t) (iblk0 V c 1 t) (iblk0 V c 2 t) (ix2 p q)
      = KV.lin (V c main_arg0) (V c main_arg3) (V c main_v11) (ix2 (rowOf t p) q) := by
  exact (stored_apply _ _ _ p q).trans
    (scaled_of_rows _ _ _ _ _ _ p q (rowOf t p) (xBlock_apply V c t p) (fun k => wBlock_apply V c t k q) (dBlock_apply V c t p))

/-- What point t writes back is block t of the scaled product of the whole arrays. -/
theorem flushed_eq (c : Dev nD) (t : Fin cfg0.N) :
    (dat0 (F := Ideal) V c).flushed 3 t
      = ((cfg0.win 3).blk t).view.read (Elt Ideal) (KV.lin (V c main_arg0) (V c main_arg3) (V c main_v11)) := by
  show (cfg0.win 3).cut (grid0.coords t) ((dat0 V c).after 3 t) = _
  rw [after0_3]
  unfold out0_3
  rw [View.canon_unit_zero zeroOffsets]
  simp only [View.ld_unit_zero (S := S4000x128) zeroOffsets, View.ld_unit_zero (S := S128x128) zeroOffsets,
    View.ld_unit_zero (S := S4000x1) zeroOffsets]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = KV.lin (V c main_arg0) (V c main_arg3) (V c main_v11) (((cfg0.win 3).blk t).view.emb (ix2 p q : S4000x128.Idx))
  rw [outPlace]
  exact stored_at_point V c t p q

/-! ## The twenty-five blocks tile the output array -/

/-- Every row block of the output array is some point's. -/
theorem block_of_some_point : ∀ b : Fin 25, ∃ t : Fin cfg0.N, win0_3.index t = ![b.val, 0] :=
  (by decide +kernel : ∀ b : Fin 25, ∃ t : Fin grid0.N, win0_3.index t = ![b.val, 0])

/-- An index of the output array is in point t's block iff each coordinate is in the block's range on its axis. -/
theorem mem_block (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12).slice (win0_3.rect t)).set ↔ _
  rw [View.set_slice_whole, Rect.mem_set_unit]
  exact Iff.rfl

/-- Row r of the output array lies in the block of the point whose block index is r / 4000, and that point writes back. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_of_some_point ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- The output array of launch 0 after its last point, as one function of the arrays the launch found. -/
theorem final0 (c : Dev nD) :
    (dat0 (F := Ideal) V c).arrAt 3 cfg0.N = KV.lin (V c main_arg0) (V c main_arg3) (V c main_v11) :=
  (dat0 (F := Ideal) V c).arrAt_eq_of_cover 3 (KV.lin (V c main_arg0) (V c main_arg3) (V c main_v11))
    (fun t _ => flushed_eq V c t) covered

end Cert.KernelIdeal.Reg0

end
-- ==== Proof.KReg1.lean ====
/-
  Launch 1 over the whole arrays: twenty-five row blocks of 4000 rows; in block t the rows of the aggregate and of the
  scaled table are added, scaled by that row's entry of d, shifted by the bias row and clipped at 0, then multiplied
  with the whole of w and scaled by d again. Read together, the output array is the epilogue of the layer followed by
  the next layer's scaled linear step.
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-! ## The body's value at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output `(r, c)` and contraction position `q`: row `r` … -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … column `q`; -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand's: row `q` … -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … column `c`. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, read at `(p, q)`: the sum over the 128 inner positions of row `p` of the
    left factor times column `q` of the right one. -/
theorem matmul_zero_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's one stored value at `(p, q)`, from the five loaded blocks: the clipped, shifted, scaled sum of the two row
    blocks, multiplied with the whole of the weight block and scaled by the row's entry of the column block. -/
theorem pay_apply (x0 x1 : Vec Ideal S4000x128 .f32) (x2 : Vec Ideal S4000x1 .f32) (x3 : Vec Ideal S1x128 .f32)
    (x4 : Vec Ideal S128x128 .f32) (p : Fin 4000) (q : Fin 128) :
    k1_pay1 x0 x1 x2 x3 x4 (ix2 p q)
      = (∑ k : Fin 128, max ((x0 (ix2 p k) + x1 (ix2 p k)) * x2 (ix2 p 0) + x3 (ix2 0 k)) 0 * x4 (ix2 k q)) * x2 (ix2 p 0) := by
  unfold k1_pay1
  simp only [shapeCast_self]
  rw [mulf_apply, broadcastTo_a1_ab_apply, matmul_zero_apply]
  refine congrArg (· * x2 (ix2 p 0)) (Finset.sum_congr rfl fun k _ => ?_)
  rw [truncf_apply, truncf_apply, maximumf_apply, addf_apply, mulf_apply, addf_apply, broadcastTo_a1_ab_apply,
    broadcastTo_1b_ab_apply, broadcast_apply]
  show max _ (Ideal.ofBits .f32 0x00000000#32) * _ = _
  rw [Ideal.ofBits_zero_f32]

/-! ## From the row blocks to the whole array -/

/-- The zero offsets of a whole-block access, as the constant function. -/
theorem zero_offsets : (![0, 0] : Fin 2 → Nat) = fun _ => 0 := funext fun a => by fin_cases a <;> rfl

/-- The index maps over the grid: at point `t` the three row-block inputs and the output sit at row block `t`, column block
    0; the bias row and the weight matrix are their one block throughout. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregate's block at point `t` is row `4000 t + p` of the aggregate. -/
theorem agg_block (c : Dev nD) (t : Fin cfg1.N) (p : Fin 4000) (k : Fin 128) (r : Fin 100000)
    (hr : r.val = t.val * 4000 + p.val) : iblk1 V c 0 t (ix2 p k) = V c main_v22 (ix2 r k) := by
  obtain ⟨e0, e1, -⟩ := block_indices t
  show V c main_v22 (((cfg1.win 0).blk t).view.emb (ix2 p k)) = _
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row `p` of the scaled table's block at point `t` is row `4000 t + p` of the table. -/
theorem table_block (c : Dev nD) (t : Fin cfg1.N) (p : Fin 4000) (k : Fin 128) (r : Fin 100000)
    (hr : r.val = t.val * 4000 + p.val) : iblk1 V c 1 t (ix2 p k) = V c main_v12 (ix2 r k) := by
  obtain ⟨-, -, e0, e1, -⟩ := block_indices t
  show V c main_v12 (((cfg1.win 1).blk t).view.emb (ix2 p k)) = _
  refine congrArg _ (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Entry `p` of the scaling column's block at point `t` is entry `4000 t + p` of the column. -/
theorem scale_block (c : Dev nD) (t : Fin cfg1.N) (p : Fin 4000) (r : Fin 100000)
    (hr : r.val = t.val * 4000 + p.val) : iblk1 V c 2 t (ix2 p (0 : Fin 1)) = V c main_v11 (ix2 r (0 : Fin 1)) := by
  obtain ⟨-, -, -, -, e0, e1, -⟩ := block_indices t
  show V c main_v11 (((cfg1.win 2).blk t).view.emb (ix2 p (0 : Fin 1))) = _
  refine congrArg _ (funext fun a => Fin.ext ?_)
  match a with
  | ⟨0, _⟩ => show win1_2.index t (0 : Fin 2) * 4000 + 1 * p.val = r.val; omega
  | ⟨1, _⟩ => show win1_2.index t (1 : Fin 2) * 1 + 1 * 0 = 0; omega

/-- The bias row's block is the bias row at every point. -/
theorem bias_block (c : Dev nD) (t : Fin cfg1.N) (k : Fin 128) :
    iblk1 V c 3 t (ix2 (0 : Fin 1) k) = V c main_v23 (ix2 (0 : Fin 1) k) := by
  obtain ⟨-, -, -, -, -, -, e0, e1, -⟩ := block_indices t
  show V c main_v23 (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The weight matrix's block is the weight matrix at every point. -/
theorem weight_block (c : Dev nD) (t : Fin cfg1.N) (k q : Fin 128) :
    iblk1 V c 4 t (ix2 k q) = V c main_arg5 (ix2 k q) := by
  obtain ⟨-, -, -, -, -, -, -, -, e0, e1, -⟩ := block_indices t
  show V c main_arg5 (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- What point `t` writes back is row block `t` of the layer's epilogue followed by the scaled linear step, taken of
    the whole arrays the launch found. -/
theorem flushed_eq (c : Dev nD) (t : Fin cfg1.N) :
    (dat1 (F := Ideal) V c).flushed 5 t = ((cfg1.win 5).blk t).view.read (Elt Ideal)
      (KV.finLin (V c main_v22) (V c main_v12) (V c main_v11) (V c main_v23) (V c main_arg5)) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S4000x1) zero_offsets,
    View.ld_unit_zero (S := S1x128) zero_offsets, View.ld_unit_zero (S := S128x128) zero_offsets]
  funext j
  obtain ⟨p, q, rfl⟩ : ∃ (p : Fin 4000) (q : Fin 128), j = ix2 p q := ⟨j 0, j 1, eq_ix2 j⟩
  have ht : t.val < 25 := Nat.lt_of_lt_of_eq t.isLt (show cfg1.N = 25 from N_1)
  have hp : p.val < 4000 := p.isLt
  obtain ⟨r, hr⟩ : ∃ r : Fin 100000, r.val = t.val * 4000 + p.val := ⟨⟨t.val * 4000 + p.val, by omega⟩, rfl⟩
  refine (pay_apply _ _ _ _ _ p q).trans ?_
  have e5 : ((cfg1.win 5).blk t).view.emb (ix2 p q) = ix2 r q := by
    obtain ⟨-, -, -, -, -, -, -, -, -, -, e0, e1⟩ := block_indices t
    refine funext fun a => Fin.ext ?_
    match a with
    | ⟨0, _⟩ => show win1_5.index t (0 : Fin 2) * 4000 + 1 * p.val = r.val; omega
    | ⟨1, _⟩ => show win1_5.index t (1 : Fin 2) * 128 + 1 * q.val = q.val; omega
  show _ = KV.finLin (V c main_v22) (V c main_v12) (V c main_v11) (V c main_v23) (V c main_arg5) (((cfg1.win 5).blk t).view.emb (ix2 p q))
  rw [e5, scale_block V c t p r hr]
  show _ = (∑ k : Fin 128, KV.act (V c main_v22) (V c main_v12) (V c main_v11) (V c main_v23) r k * V c main_arg5 (ix2 k q)) * V c main_v11 (ix2 r 0)
  refine congrArg (· * V c main_v11 (ix2 r 0)) (Finset.sum_congr rfl fun k _ => ?_)
  rw [agg_block V c t p k r hr, table_block V c t p k r hr, bias_block V c t k, weight_block V c t k q]
  rfl

/-- An index of the output array is in point `t`'s block iff each coordinate is in the block's range on its axis. -/
theorem mem_block (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v24).slice (win1_5.rect t)).set ↔ _
  rw [View.set_slice_whole, Rect.mem_set_unit]
  exact Iff.rfl

/-- Row `r` of the output array is written back by point `r / 4000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, -, -, e0, e1⟩ := block_indices t
  refine ⟨t, flush1_5 t, ?_⟩
  rw [mem_block]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The output array of launch 1 after its last point, as one function of the arrays the launch found. -/
theorem final1 (c : Dev nD) :
    (dat1 (F := Ideal) V c).arrAt 5 cfg1.N
      = KV.finLin (V c main_v22) (V c main_v12) (V c main_v11) (V c main_v23) (V c main_arg5) :=
  (dat1 (F := Ideal) V c).arrAt_eq_of_cover 5 _ (fun t _ => flushed_eq V c t) covered

end Cert.KernelIdeal.Reg1

end
-- ==== Proof.KReg2.lean ====
/-
  Launch 2 over the whole arrays: twenty-five row blocks of 4000 rows; in block t the rows of the aggregate and of the
  scaled table are added, scaled by that row's entry of d, shifted by the bias row and clipped at 0, then multiplied
  with the whole of w and scaled by d again. Read together, the output array is the epilogue of the layer followed by
  the next layer's scaled linear step.
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-! ## The body's value at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at output `(r, c)` and contraction position `q`: row `r` … -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … column `q`; -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand's: row `q` … -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … column `c`. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, read at `(p, q)`: the sum over the 128 inner positions of row `p` of the
    left factor times column `q` of the right one. -/
theorem matmul_zero_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's one stored value at `(p, q)`, from the five loaded blocks: the clipped, shifted, scaled sum of the two row
    blocks, multiplied with the whole of the weight block and scaled by the row's entry of the column block. -/
theorem pay_apply (x0 x1 : Vec Ideal S4000x128 .f32) (x2 : Vec Ideal S4000x1 .f32) (x3 : Vec Ideal S1x128 .f32)
    (x4 : Vec Ideal S128x128 .f32) (p : Fin 4000) (q : Fin 128) :
    k2_pay1 x0 x1 x2 x3 x4 (ix2 p q)
      = (∑ k : Fin 128, max ((x0 (ix2 p k) + x1 (ix2 p k)) * x2 (ix2 p 0) + x3 (ix2 0 k)) 0 * x4 (ix2 k q)) * x2 (ix2 p 0) := by
  unfold k2_pay1
  simp only [shapeCast_self]
  rw [mulf_apply, broadcastTo_a1_ab_apply, matmul_zero_apply]
  refine congrArg (· * x2 (ix2 p 0)) (Finset.sum_congr rfl fun k _ => ?_)
  rw [truncf_apply, truncf_apply, maximumf_apply, addf_apply, mulf_apply, addf_apply, broadcastTo_a1_ab_apply,
    broadcastTo_1b_ab_apply, broadcast_apply]
  show max _ (Ideal.ofBits .f32 0x00000000#32) * _ = _
  rw [Ideal.ofBits_zero_f32]

/-! ## From the row blocks to the whole array -/

/-- The zero offsets of a whole-block access, as the constant function. -/
theorem zero_offsets : (![0, 0] : Fin 2 → Nat) = fun _ => 0 := funext fun a => by fin_cases a <;> rfl

/-- The index maps over the grid: at point `t` the three row-block inputs and the output sit at row block `t`, column block
    0; the bias row and the weight matrix are their one block throughout. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregate's block at point `t` is row `4000 t + p` of the aggregate. -/
theorem agg_block (c : Dev nD) (t : Fin cfg2.N) (p : Fin 4000) (k : Fin 128) (r : Fin 100000)
    (hr : r.val = t.val * 4000 + p.val) : iblk2 V c 0 t (ix2 p k) = V c main_v34 (ix2 r k) := by
  obtain ⟨e0, e1, -⟩ := block_indices t
  show V c main_v34 (((cfg2.win 0).blk t).view.emb (ix2 p k)) = _
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row `p` of the scaled table's block at point `t` is row `4000 t + p` of the table. -/
theorem table_block (c : Dev nD) (t : Fin cfg2.N) (p : Fin 4000) (k : Fin 128) (r : Fin 100000)
    (hr : r.val = t.val * 4000 + p.val) : iblk2 V c 1 t (ix2 p k) = V c main_v24 (ix2 r k) := by
  obtain ⟨-, -, e0, e1, -⟩ := block_indices t
  show V c main_v24 (((cfg2.win 1).blk t).view.emb (ix2 p k)) = _
  refine congrArg _ (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- Entry `p` of the scaling column's block at point `t` is entry `4000 t + p` of the column. -/
theorem scale_block (c : Dev nD) (t : Fin cfg2.N) (p : Fin 4000) (r : Fin 100000)
    (hr : r.val = t.val * 4000 + p.val) : iblk2 V c 2 t (ix2 p (0 : Fin 1)) = V c main_v11 (ix2 r (0 : Fin 1)) := by
  obtain ⟨-, -, -, -, e0, e1, -⟩ := block_indices t
  show V c main_v11 (((cfg2.win 2).blk t).view.emb (ix2 p (0 : Fin 1))) = _
  refine congrArg _ (funext fun a => Fin.ext ?_)
  match a with
  | ⟨0, _⟩ => show win2_2.index t (0 : Fin 2) * 4000 + 1 * p.val = r.val; omega
  | ⟨1, _⟩ => show win2_2.index t (1 : Fin 2) * 1 + 1 * 0 = 0; omega

/-- The bias row's block is the bias row at every point. -/
theorem bias_block (c : Dev nD) (t : Fin cfg2.N) (k : Fin 128) :
    iblk2 V c 3 t (ix2 (0 : Fin 1) k) = V c main_v35 (ix2 (0 : Fin 1) k) := by
  obtain ⟨-, -, -, -, -, -, e0, e1, -⟩ := block_indices t
  show V c main_v35 (((cfg2.win 3).blk t).view.emb (ix2 (0 : Fin 1) k)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * k.val = k.val; omega

/-- The weight matrix's block is the weight matrix at every point. -/
theorem weight_block (c : Dev nD) (t : Fin cfg2.N) (k q : Fin 128) :
    iblk2 V c 4 t (ix2 k q) = V c main_arg7 (ix2 k q) := by
  obtain ⟨-, -, -, -, -, -, -, -, e0, e1, -⟩ := block_indices t
  show V c main_arg7 (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- What point `t` writes back is row block `t` of the layer's epilogue followed by the scaled linear step, taken of
    the whole arrays the launch found. -/
theorem flushed_eq (c : Dev nD) (t : Fin cfg2.N) :
    (dat2 (F := Ideal) V c).flushed 5 t = ((cfg2.win 5).blk t).view.read (Elt Ideal)
      (KV.finLin (V c main_v34) (V c main_v24) (V c main_v11) (V c main_v35) (V c main_arg7)) := by
  show (cfg2.win 5).cut (grid2.coords t) ((dat2 V c).after 5 t) = _
  rw [after2_5]
  unfold out2_5
  rw [View.canon_unit_zero zero_offsets]
  simp only [View.ld_unit_zero (S := S4000x128) zero_offsets, View.ld_unit_zero (S := S4000x1) zero_offsets,
    View.ld_unit_zero (S := S1x128) zero_offsets, View.ld_unit_zero (S := S128x128) zero_offsets]
  funext j
  obtain ⟨p, q, rfl⟩ : ∃ (p : Fin 4000) (q : Fin 128), j = ix2 p q := ⟨j 0, j 1, eq_ix2 j⟩
  have ht : t.val < 25 := Nat.lt_of_lt_of_eq t.isLt (show cfg2.N = 25 from N_2)
  have hp : p.val < 4000 := p.isLt
  obtain ⟨r, hr⟩ : ∃ r : Fin 100000, r.val = t.val * 4000 + p.val := ⟨⟨t.val * 4000 + p.val, by omega⟩, rfl⟩
  refine (pay_apply _ _ _ _ _ p q).trans ?_
  have e5 : ((cfg2.win 5).blk t).view.emb (ix2 p q) = ix2 r q := by
    obtain ⟨-, -, -, -, -, -, -, -, -, -, e0, e1⟩ := block_indices t
    refine funext fun a => Fin.ext ?_
    match a with
    | ⟨0, _⟩ => show win2_5.index t (0 : Fin 2) * 4000 + 1 * p.val = r.val; omega
    | ⟨1, _⟩ => show win2_5.index t (1 : Fin 2) * 128 + 1 * q.val = q.val; omega
  show _ = KV.finLin (V c main_v34) (V c main_v24) (V c main_v11) (V c main_v35) (V c main_arg7) (((cfg2.win 5).blk t).view.emb (ix2 p q))
  rw [e5, scale_block V c t p r hr]
  show _ = (∑ k : Fin 128, KV.act (V c main_v34) (V c main_v24) (V c main_v11) (V c main_v35) r k * V c main_arg7 (ix2 k q)) * V c main_v11 (ix2 r 0)
  refine congrArg (· * V c main_v11 (ix2 r 0)) (Finset.sum_congr rfl fun k _ => ?_)
  rw [agg_block V c t p k r hr, table_block V c t p k r hr, bias_block V c t k, weight_block V c t k q]
  rfl

/-- An index of the output array is in point `t`'s block iff each coordinate is in the block's range on its axis. -/
theorem mem_block (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v36).slice (win2_5.rect t)).set ↔ _
  rw [View.set_slice_whole, Rect.mem_set_unit]
  exact Iff.rfl

/-- Row `r` of the output array is written back by point `r / 4000`. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, -, -, -, -, e0, e1⟩ := block_indices t
  refine ⟨t, flush2_5 t, ?_⟩
  rw [mem_block]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The output array of launch 2 after its last point, as one function of the arrays the launch found. -/
theorem final2 (c : Dev nD) :
    (dat2 (F := Ideal) V c).arrAt 5 cfg2.N
      = KV.finLin (V c main_v34) (V c main_v24) (V c main_v11) (V c main_v35) (V c main_arg7) :=
  (dat2 (F := Ideal) V c).arrAt_eq_of_cover 5 _ (fun t _ => flushed_eq V c t) covered

end Cert.KernelIdeal.Reg2

end
-- ==== Proof.KReg3.lean ====
/-
  Launch 3 over the whole arrays: twenty-five row blocks of 4000 rows; in block t the rows of the aggregate and of the
  scaled table are added, scaled by that row's entry of d, shifted by the bias row and clipped at 0. Read together, the
  output array is the last layer's epilogue.
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

/-- The origin of a rank-2 block, as the constant zero offset. -/
theorem origin2 : (![0, 0] : Fin 2 → Nat) = fun _ => 0 := funext fun a => by fin_cases a <;> rfl

/-- A column of shape [a, 1] broadcast to [a, b] reads, at (p, q), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at row p, column q of a block: the two 4000×128 operands added, scaled by the column
    operand's entry of row p, shifted by the row operand's entry of column q, clipped at 0. -/
theorem pay_apply (x0 x1 : Vec Ideal S4000x128 .f32) (x2 : Vec Ideal S4000x1 .f32) (x3 : Vec Ideal S1x128 .f32)
    (p : Fin 4000) (q : Fin 128) :
    k3_pay1 (F := Ideal) x0 x1 x2 x3 (ix2 p q)
      = max ((x0 (ix2 p q) + x1 (ix2 p q)) * x2 (ix2 p (0 : Fin 1)) + x3 (ix2 (0 : Fin 1) q)) 0 := by
  unfold k3_pay1
  simp only [shapeCast_self]
  rw [maximumf_apply, addf_apply, mulf_apply, addf_apply, broadcast_apply, broadcastTo_a1_ab_apply,
    broadcastTo_1b_ab_apply]
  exact congrArg (max _) Ideal.ofBits_zero_f32

variable (V : (c : Dev nD) → (b : Ref sig .tc) → Buf (Elt Ideal) ((c : Thread nD τ).loc b))

/-- The launch's index maps over the grid: the three row-blocked inputs move with the output's row block, the bias row
    stays at block (0, 0), and the output's block is (t, 0). -/
theorem index_facts : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of row block t of a 100000-row array cut in twenty-five blocks of 4000 rows. -/
def blockRow (t : Fin cfg3.N) (p : Fin 4000) : Fin 100000 :=
  ⟨t.val * 4000 + p.val, by have ht : t.val < 25 := t.isLt; have := p.isLt; omega⟩

/-- Block t of the aggregate is its rows 4000 t … 4000 t + 3999. -/
theorem agg_block (c : Dev nD) (t : Fin cfg3.N) (p : Fin 4000) (q : Fin 128) :
    (iblk3 (F := Ideal) V c 0 t : Vec Ideal S4000x128 .f32) (ix2 p q)
      = (V c main_v46 : S100000x128.Idx → EReal) (ix2 (blockRow t p) q) := by
  obtain ⟨e00, e01, -, -, -, -, -, -, e40, e41⟩ := index_facts t
  unfold iblk3
  rw [View.read_apply]
  show (V c main_v46 : S100000x128.Idx → EReal) _ = _
  refine congrArg (V c main_v46 : S100000x128.Idx → EReal) (funext fun a => Fin.ext ?_)
  match a with
  | ⟨0, _⟩ => show win3_0.index t (0 : Fin 2) * 4000 + 1 * p.val = t.val * 4000 + p.val; rw [e00, e40]; omega
  | ⟨1, _⟩ => show win3_0.index t (1 : Fin 2) * 128 + 1 * q.val = q.val; rw [e01, e41]; omega

/-- Block t of the scaled table is its rows 4000 t … 4000 t + 3999. -/
theorem table_block (c : Dev nD) (t : Fin cfg3.N) (p : Fin 4000) (q : Fin 128) :
    (iblk3 (F := Ideal) V c 1 t : Vec Ideal S4000x128 .f32) (ix2 p q)
      = (V c main_v36 : S100000x128.Idx → EReal) (ix2 (blockRow t p) q) := by
  obtain ⟨-, -, e10, e11, -, -, -, -, e40, e41⟩ := index_facts t
  unfold iblk3
  rw [View.read_apply]
  show (V c main_v36 : S100000x128.Idx → EReal) _ = _
  refine congrArg (V c main_v36 : S100000x128.Idx → EReal) (funext fun a => Fin.ext ?_)
  match a with
  | ⟨0, _⟩ => show win3_1.index t (0 : Fin 2) * 4000 + 1 * p.val = t.val * 4000 + p.val; rw [e10, e40]; omega
  | ⟨1, _⟩ => show win3_1.index t (1 : Fin 2) * 128 + 1 * q.val = q.val; rw [e11, e41]; omega

/-- Block t of the column d is its rows 4000 t … 4000 t + 3999. -/
theorem d_block (c : Dev nD) (t : Fin cfg3.N) (p : Fin 4000) :
    (iblk3 (F := Ideal) V c 2 t : Vec Ideal S4000x1 .f32) (ix2 p (0 : Fin 1))
      = (V c main_v11 : S100000x1.Idx → EReal) (ix2 (blockRow t p) (0 : Fin 1)) := by
  obtain ⟨-, -, -, -, e20, e21, -, -, e40, -⟩ := index_facts t
  unfold iblk3
  rw [View.read_apply]
  show (V c main_v11 : S100000x1.Idx → EReal) _ = _
  refine congrArg (V c main_v11 : S100000x1.Idx → EReal) (funext fun a => Fin.ext ?_)
  match a with
  | ⟨0, _⟩ => show win3_2.index t (0 : Fin 2) * 4000 + 1 * p.val = t.val * 4000 + p.val; rw [e20, e40]; omega
  | ⟨1, _⟩ => show win3_2.index t (1 : Fin 2) * 1 + 1 * 0 = 0; rw [e21]

/-- The bias row is read whole at every point. -/
theorem bias_block (c : Dev nD) (t : Fin cfg3.N) (q : Fin 128) :
    (iblk3 (F := Ideal) V c 3 t : Vec Ideal S1x128 .f32) (ix2 (0 : Fin 1) q)
      = (V c main_v47 : S1x128.Idx → EReal) (ix2 (0 : Fin 1) q) := by
  obtain ⟨-, -, -, -, -, -, e30, e31, -, -⟩ := index_facts t
  unfold iblk3
  rw [View.read_apply]
  show (V c main_v47 : S1x128.Idx → EReal) _ = _
  refine congrArg (V c main_v47 : S1x128.Idx → EReal) (funext fun a => Fin.ext ?_)
  match a with
  | ⟨0, _⟩ => show win3_3.index t (0 : Fin 2) * 1 + 1 * 0 = 0; rw [e30]
  | ⟨1, _⟩ => show win3_3.index t (1 : Fin 2) * 128 + 1 * q.val = q.val; rw [e31]; omega

/-- What point t writes back is block t of the epilogue of the arrays the launch found. -/
theorem flushed_eq (c : Dev nD) (t : Fin cfg3.N) :
    (dat3 (F := Ideal) V c).flushed 4 t
      = ((cfg3.win 4).blk t).view.read (Elt Ideal)
          (KV.fin (V c main_v46) (V c main_v36) (V c main_v11) (V c main_v47)) := by
  show (cfg3.win 4).cut (grid3.coords t) ((dat3 (F := Ideal) V c).after 4 t) = _
  rw [after3_4]
  unfold out3_4
  rw [View.canon_unit_zero origin2]
  simp only [View.ld_unit_zero (S := S4000x128) origin2, View.ld_unit_zero (S := S4000x1) origin2,
    View.ld_unit_zero (S := S1x128) origin2]
  obtain ⟨-, -, -, -, -, -, -, -, e40, e41⟩ := index_facts t
  funext j
  have hj0 : (j 0).val < 4000 := (j 0).isLt
  have hj1 : (j 1).val < 128 := (j 1).isLt
  have hx : (win3 4).xinj (grid3.coords t) j = ix2 (⟨(j 0).val, hj0⟩ : Fin 4000) (⟨(j 1).val, hj1⟩ : Fin 128) :=
    funext fun a => by match a with | ⟨0, _⟩ => rfl | ⟨1, _⟩ => rfl
  have hy : ((cfg3.win 4).blk t).view.emb j
      = ix2 (blockRow t ⟨(j 0).val, hj0⟩) (⟨(j 1).val, hj1⟩ : Fin 128) := by
    funext a; apply Fin.ext
    match a with
    | ⟨0, _⟩ => show win3_4.index t (0 : Fin 2) * 4000 + 1 * (j 0).val = t.val * 4000 + (j 0).val; rw [e40]; omega
    | ⟨1, _⟩ => show win3_4.index t (1 : Fin 2) * 128 + 1 * (j 1).val = (j 1).val; rw [e41]; omega
  refine (congrArg (k3_pay1 (F := Ideal) (iblk3 V c 0 t) (iblk3 V c 1 t) (iblk3 V c 2 t) (iblk3 V c 3 t)) hx).trans ?_
  refine (pay_apply _ _ _ _ _ _).trans ?_
  rw [agg_block, table_block, d_block, bias_block, View.read_apply]
  show _ = KV.fin (V c main_v46) (V c main_v36) (V c main_v11) (V c main_v47) (((cfg3.win 4).blk t).view.emb j)
  rw [hy]
  rfl

/-- An index of the output array is in point t's block iff each coordinate is in the block's range on its axis. -/
theorem mem_block (t : Fin cfg3.N) (i : S100000x128.Idx) :
    i ∈ ((cfg3.win 4).blk t).view.set
      ↔ ∀ a : Fin 2, win3_4.index t a * S4000x128.size a ≤ (i a).val
          ∧ (i a).val < win3_4.index t a * S4000x128.size a + S4000x128.size a := by
  show i ∈ ((View.whole main_v48).slice (win3_4.rect t)).set ↔ _
  rw [View.set_slice_whole, Rect.mem_set_unit]
  exact Iff.rfl

/-- Every index of the output array is written back by some point: row r by point r / 4000. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 4000 < 25 := by omega
  refine ⟨⟨(i 0).val / 4000, ht⟩, flush3_4 _, ?_⟩
  obtain ⟨-, -, -, -, -, -, -, -, e40, e41⟩ := index_facts ⟨(i 0).val / 4000, ht⟩
  have e40' : win3_4.index ⟨(i 0).val / 4000, ht⟩ (0 : Fin 2) = (i 0).val / 4000 := e40
  rw [mem_block]
  intro a
  match a with
  | ⟨0, _⟩ =>
    show win3_4.index ⟨(i 0).val / 4000, ht⟩ (0 : Fin 2) * 4000 ≤ (i 0).val
      ∧ (i 0).val < win3_4.index ⟨(i 0).val / 4000, ht⟩ (0 : Fin 2) * 4000 + 4000
    rw [e40']; omega
  | ⟨1, _⟩ =>
    show win3_4.index ⟨(i 0).val / 4000, ht⟩ (1 : Fin 2) * 128 ≤ (i 1).val
      ∧ (i 1).val < win3_4.index ⟨(i 0).val / 4000, ht⟩ (1 : Fin 2) * 128 + 128
    rw [e41]; omega

/-- The output array of launch 3 after its last point, as one function of the arrays the launch found. -/
theorem final3 (c : Dev nD) :
    (dat3 (F := Ideal) V c).arrAt 4 cfg3.N
      = KV.fin (V c main_v46) (V c main_v36) (V c main_v11) (V c main_v47) :=
  (dat3 (F := Ideal) V c).arrAt_eq_of_cover 4 _ (fun t _ => flushed_eq V c t) covered

end Cert.KernelIdeal.Reg3

end
-- ==== Proof.KReg4.lean ====
/-
  Launch 4 over the whole arrays: fifty row blocks of 2000 rows, both outputs resident across the points. The first
  point clears them; every point adds, per graph g, the sum over the block's rows of [graph id of the row = g] times the
  row (first output) and the number of such rows (second output). After the last point the outputs hold the sums over
  all fifty blocks.
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

/-! ## The body's arithmetic at an index -/

/-- A comparison word widened to 32 bits and read as a signed integer is 1 where the two words agree and 0 elsewhere. -/
theorem eqWord_toReal (a b : BitVec 32) :
    FloatOps.sitofp (F := Ideal) .f32 ((IntOp.cmpi .eq a b).setWidth 32) = if a = b then 1 else 0 := by
  by_cases h : a = b
  · subst h
    rw [if_pos rfl]
    have e : IntOp.cmpi .eq a a = 1#1 := by simp [IntOp.cmpi]
    rw [e]
    show (((((1#1 : BitVec 1).setWidth 32).toInt : ℤ) : ℝ) : EReal) = 1
    rw [show ((1#1 : BitVec 1).setWidth 32).toInt = 1 by decide]
    norm_num
  · rw [if_neg h]
    have e : IntOp.cmpi .eq a b = 0#1 := by
      show BitVec.ofBool (a == b) = 0#1
      rw [beq_eq_false_iff_ne.mpr h]; rfl
    rw [e]
    show (((((0#1 : BitVec 1).setWidth 32).toInt : ℤ) : ℝ) : EReal) = 0
    rw [show ((0#1 : BitVec 1).setWidth 32).toInt = 0 by decide]
    norm_num

/-- A column of 2000 words spread over 256 lanes reads, at (r, g), the column's entry r. -/
theorem spreadCol_apply (v : IVec S2000x1 32) (r : Fin 2000) (g : Fin 256) :
    broadcastTo S2000x256 v broadcasts_S2000x1_S2000x256 (ix2 r g) = v (ix2 r 0) := by
  refine broadcastTo_apply v broadcasts_S2000x1_S2000x256 (ix2 r g) (ix2 r 0) fun ax => ?_
  match ax with
  | ⟨0, _⟩ =>
    exact (if_neg (show ¬(2000 : ℕ) = 1 by decide)).symm
  | ⟨1, _⟩ => rfl

/-- The indicator matrix of a block of graph ids: entry (r, g) is 1 where row r belongs to graph g. -/
theorem indicator_apply (x1 : Vec Ideal S2000x1 .i32) (r : Fin 2000) (g : Fin 256) :
    k4_pay3 (F := Ideal) x1 (ix2 r g) = KV.ind (x1 (ix2 r 0)) g := by
  unfold k4_pay3
  simp only [shapeCast_self]
  show FloatOps.sitofp (F := Ideal) .f32 ((IntOp.cmpi .eq (iota .tc S2000x256 32 [1] iota_S2000x256_d1_w32 (ix2 r g))
    (broadcastTo S2000x256 x1 broadcasts_S2000x1_S2000x256 (ix2 r g))).setWidth 32) = _
  rw [eqWord_toReal, iota_single_apply, spreadCol_apply]
  rfl

/-! ## The two products contracted over the block's rows -/

theorem sumDot_lhs_0 (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q
theorem sumDot_lhs_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide), dif_pos (show (1 : Fin S2000x256.rank) ∈ dot_S2000x256_S2000x128_S256x128_0_0_1_1_n_n.lhsNonContracting by decide)]
  rfl
theorem sumDot_rhs_0 (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q
theorem sumDot_rhs_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide), dif_pos (show (1 : Fin S2000x128.rank) ∈ dot_S2000x256_S2000x128_S256x128_0_0_1_1_n_n.rhsNonContracting by decide)]
  rfl

/-- The product of a 2000×256 and a 2000×128 matrix contracted over their rows, into zero: entry (g, k) is the sum
    over the rows r of A (r, g) · B (r, k). -/
theorem sumDot_apply (A : FVec Ideal S2000x256 .bf16) (B : FVec Ideal S2000x128 .bf16) (g : Fin 256) (k : Fin 128) :
    matmul dot_S2000x256_S2000x128_S256x128_0_0_1_1_n_n none A B (constant (F := Ideal) S256x128 .f32 0x00000000#32) (ix2 g k)
      = ∑ r : Fin 2000, A (ix2 r g) * B (ix2 r k) := by
  simp only [matmul]
  rw [Ideal.matmul_constant_zero_apply, ← Equiv.sum_comp (contrEquiv1 dot_S2000x256_S2000x128_S256x128_0_0_1_1_n_n 2000 rfl rfl).symm]
  refine Finset.sum_congr rfl fun r _ => ?_
  have hk := contrEquiv1_symm_val dot_S2000x256_S2000x128_S256x128_0_0_1_1_n_n 2000 rfl rfl r
  have el : dot_S2000x256_S2000x128_S256x128_0_0_1_1_n_n.lhsIdx (ix2 g k) ((contrEquiv1 dot_S2000x256_S2000x128_S256x128_0_0_1_1_n_n 2000 rfl rfl).symm r) = ix2 r g := funext fun a => Fin.ext (by
    match a with
    | ⟨0, _⟩ => exact (sumDot_lhs_0 _ _).trans hk
    | ⟨1, _⟩ => exact sumDot_lhs_1 _ _)
  have er : dot_S2000x256_S2000x128_S256x128_0_0_1_1_n_n.rhsIdx (ix2 g k) ((contrEquiv1 dot_S2000x256_S2000x128_S256x128_0_0_1_1_n_n 2000 rfl rfl).symm r) = ix2 r k := funext fun a => Fin.ext (by
    match a with
    | ⟨0, _⟩ => exact (sumDot_rhs_0 _ _).trans hk
    | ⟨1, _⟩ => exact sumDot_rhs_1 _ _)
  rw [el, er]

theorem cntDot_lhs_0 (i : S256x1.Idx) (q : dot_S2000x256_S2000x1_S256x1_0_0_1_1_n_n.contr.Idx) :
    (dot_S2000x256_S2000x1_S256x1_0_0_1_1_n_n.lhsIdx i q 0).val = (q ⟨0, by decide⟩).val :=
  dot_S2000x256_S2000x1_S256x1_0_0_1_1_n_n.lhsIdx_val_of_single rfl i q
theorem cntDot_lhs_1 (i : S256x1.Idx) (q : dot_S2000x256_S2000x1_S256x1_0_0_1_1_n_n.contr.Idx) :
    (dot_S2000x256_S2000x1_S256x1_0_0_1_1_n_n.lhsIdx i q 1).val = (i 0).val := by
  unfold DotDims.lhsIdx
  rw [dif_neg (show ¬(1 : Fin S2000x256.rank) ∈ dot_S2000x256_S2000x1_S256x1_0_0_1_1_n_n.lhsBatch by decide), dif_pos (show (1 : Fin S2000x256.rank) ∈ dot_S2000x256_S2000x1_S256x1_0_0_1_1_n_n.lhsNonContracting by decide)]
  rfl
theorem cntDot_rhs_0 (i : S256x1.Idx) (q : dot_S2000x256_S2000x1_S256x1_0_0_1_1_n_n.contr.Idx) :
    (dot_S2000x256_S2000x1_S256x1_0_0_1_1_n_n.rhsIdx i q 0).val = (q ⟨0, by decide⟩).val :=
  dot_S2000x256_S2000x1_S256x1_0_0_1_1_n_n.rhsIdx_val_of_single rfl i q
theorem cntDot_rhs_1 (i : S256x1.Idx) (q : dot_S2000x256_S2000x1_S256x1_0_0_1_1_n_n.contr.Idx) :
    (dot_S2000x256_S2000x1_S256x1_0_0_1_1_n_n.rhsIdx i q 1).val = (i 1).val := by
  unfold DotDims.rhsIdx
  rw [dif_neg (show ¬(1 : Fin S2000x1.rank) ∈ dot_S2000x256_S2000x1_S256x1_0_0_1_1_n_n.rhsBatch by decide), dif_pos (show (1 : Fin S2000x1.rank) ∈ dot_S2000x256_S2000x1_S256x1_0_0_1_1_n_n.rhsNonContracting by decide)]
  rfl

/-- The product of a 2000×256 matrix and a 2000×1 column contracted over their rows, into zero: entry (g, 0) is the
    sum over the rows r of A (r, g) · B (r, 0). -/
theorem cntDot_apply (A : FVec Ideal S2000x256 .bf16) (B : FVec Ideal S2000x1 .bf16) (g : Fin 256) :
    matmul dot_S2000x256_S2000x1_S256x1_0_0_1_1_n_n none A B (constant (F := Ideal) S256x1 .f32 0x00000000#32) (ix2 g 0)
      = ∑ r : Fin 2000, A (ix2 r g) * B (ix2 r 0) := by
  simp only [matmul]
  rw [Ideal.matmul_constant_zero_apply, ← Equiv.sum_comp (contrEquiv1 dot_S2000x256_S2000x1_S256x1_0_0_1_1_n_n 2000 rfl rfl).symm]
  refine Finset.sum_congr rfl fun r _ => ?_
  have hk := contrEquiv1_symm_val dot_S2000x256_S2000x1_S256x1_0_0_1_1_n_n 2000 rfl rfl r
  have el : dot_S2000x256_S2000x1_S256x1_0_0_1_1_n_n.lhsIdx (ix2 g 0) ((contrEquiv1 dot_S2000x256_S2000x1_S256x1_0_0_1_1_n_n 2000 rfl rfl).symm r) = ix2 r g := funext fun a => Fin.ext (by
    match a with
    | ⟨0, _⟩ => exact (cntDot_lhs_0 _ _).trans hk
    | ⟨1, _⟩ => exact cntDot_lhs_1 _ _)
  have er : dot_S2000x256_S2000x1_S256x1_0_0_1_1_n_n.rhsIdx (ix2 g 0) ((contrEquiv1 dot_S2000x256_S2000x1_S256x1_0_0_1_1_n_n 2000 rfl rfl).symm r) = ix2 r 0 := funext fun a => Fin.ext (by
    match a with
    | ⟨0, _⟩ => exact (cntDot_rhs_0 _ _).trans hk
    | ⟨1, _⟩ => exact cntDot_rhs_1 _ _)
  rw [el, er]

/-- What a point adds into the sums: entry (g, k) of the body's first store is what the buffer held plus the sum over the
    block's rows of the indicator times the row. -/
theorem sumStep_apply (x0 : Vec Ideal S2000x128 .f32) (x1 : Vec Ideal S2000x1 .i32) (xo : Vec Ideal S256x128 .f32)
    (g : Fin 256) (k : Fin 128) :
    k4_pay4 (F := Ideal) x0 x1 xo (ix2 g k) = xo (ix2 g k) + ∑ r : Fin 2000, KV.ind (x1 (ix2 r 0)) g * x0 (ix2 r k) := by
  unfold k4_pay4
  simp only [shapeCast_self]
  refine (addf_apply _ _ _).trans ?_
  refine congrArg (xo (ix2 g k) + ·) ?_
  refine (sumDot_apply _ _ g k).trans ?_
  refine Finset.sum_congr rfl fun r _ => ?_
  rw [indicator_apply]
  rfl

/-- What a point adds into the counts: entry (g, 0) of the body's second store is what the buffer held plus the number
    of the block's rows in graph g. -/
theorem cntStep_apply (x1 : Vec Ideal S2000x1 .i32) (xo : Vec Ideal S256x1 .f32) (g : Fin 256) :
    k4_pay5 (F := Ideal) x1 xo (ix2 g 0) = xo (ix2 g 0) + ∑ r : Fin 2000, KV.ind (x1 (ix2 r 0)) g := by
  unfold k4_pay5
  simp only [shapeCast_self]
  refine (addf_apply _ _ _).trans ?_
  refine congrArg (xo (ix2 g 0) + ·) ?_
  refine (cntDot_apply _ _ g).trans ?_
  refine Finset.sum_congr rfl fun r _ => ?_
  rw [indicator_apply]
  show KV.ind (x1 (ix2 r 0)) g * Ideal.ofBits .bf16 0x3F80#16 = _
  rw [Ideal.ofBits_one_bf16, mul_one]

/-! ## What each case of the body leaves in the two resident buffers -/

theorem zeroOff : (![0, 0] : Fin 2 → Nat) = fun _ => 0 := funext fun a => by fin_cases a <;> rfl

/-- At a later point the first buffer holds the body's first store over what it held. -/
theorem laterSum (c : Dev nD) (i : grid4.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256x1 .f32) (h4 : a4.IsWhole) (hc : ¬cond4_0 i)
    (x0 : Vec Ideal S2000x128 .f32) (x1 : Vec Ideal S2000x1 .i32) (xo2 : Vec Ideal S256x128 .f32) (xo3 : Vec Ideal S256x1 .f32) :
    out4_B_2 (F := Ideal) c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero zeroOff]
  simp only [View.readAt_eq_ld, h1.read_unread, h2.read_unread, h3.read_unread, View.ld_unit_zero (S := S2000x128) zeroOff,
    View.ld_unit_zero (S := S2000x1) zeroOff, View.ld_unit_zero (S := S256x128) zeroOff]

/-- At a later point the second buffer holds the body's second store over what it held. -/
theorem laterCnt (c : Dev nD) (i : grid4.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256x1 .f32) (h4 : a4.IsWhole) (hc : ¬cond4_0 i)
    (x0 : Vec Ideal S2000x128 .f32) (x1 : Vec Ideal S2000x1 .i32) (xo2 : Vec Ideal S256x128 .f32) (xo3 : Vec Ideal S256x1 .f32) :
    out4_B_3 (F := Ideal) c i a1 h1 a2 h2 a3 h3 a4 h4 hc x0 x1 xo2 xo3 = k4_pay5 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero zeroOff]
  simp only [View.readAt_eq_ld, h2.read_unread, h4.read_unread, View.ld_unit_zero (S := S2000x1) zeroOff,
    View.ld_unit_zero (S := S256x1) zeroOff]

/-- At the first point the first buffer is cleared, read back, and holds the body's first store over zero. -/
theorem firstSum (c : Dev nD) (i : grid4.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256x1 .f32) (h4 : a4.IsWhole) (hc : cond4_0 i)
    (x0 : Vec Ideal S2000x128 .f32) (x1 : Vec Ideal S2000x1 .i32) :
    out4_A_2 (F := Ideal) c i a1 h1 a2 h2 a3 h3 a4 h4 hc x0 x1 = k4_pay4 x0 x1 (k4_pay1 (F := Ideal)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S256x128) zeroOff, View.readCov_unit_zero (S := S256x128) _ zeroOff]
  simp only [View.readAt_eq_ld, h1.read_unread, h2.read_unread, View.ld_unit_zero (S := S2000x128) zeroOff,
    View.ld_unit_zero (S := S2000x1) zeroOff]

/-- At the first point the second buffer is cleared, read back, and holds the body's second store over zero. -/
theorem firstCnt (c : Dev nD) (i : grid4.Coords) (a1 : Memref sig .tc .vmem S2000x128 .f32) (h1 : a1.IsWhole)
    (a2 : Memref sig .tc .vmem S2000x1 .i32) (h2 : a2.IsWhole) (a3 : Memref sig .tc .vmem S256x128 .f32) (h3 : a3.IsWhole)
    (a4 : Memref sig .tc .vmem S256x1 .f32) (h4 : a4.IsWhole) (hc : cond4_0 i)
    (x0 : Vec Ideal S2000x128 .f32) (x1 : Vec Ideal S2000x1 .i32) :
    out4_A_3 (F := Ideal) c i a1 h1 a2 h2 a3 h3 a4 h4 hc x0 x1 = k4_pay5 x1 (k4_pay2 (F := Ideal)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S256x1) zeroOff, View.readCov_unit_zero (S := S256x1) _ zeroOff]
  simp only [View.readAt_eq_ld, h2.read_unread, View.ld_unit_zero (S := S2000x1) zeroOff]

/-! ## The blocks as rows of the whole arrays -/

variable (V : (c : Dev nD) → (b : Ref sig .tc) → Buf (Elt Ideal) ((c : Thread nD τ).loc b))

/-- The two arrays the launch reads, whole: the rows, and the graph id of each row. -/
abbrev rowsArr (c : Dev nD) : KV.Arr S100000x128 := V c main_v48
abbrev idsArr (c : Dev nD) : IVec S100000x1 32 := V c main_v49
/-- Their blocks at a point: 2000 consecutive rows, and the ids of those rows. -/
abbrev rowsBlk (c : Dev nD) (t : Fin cfg4.N) : Vec Ideal S2000x128 .f32 := iblk4 V c 0 t
abbrev idsBlk (c : Dev nD) (t : Fin cfg4.N) : Vec Ideal S2000x1 .i32 := iblk4 V c 1 t

/-- The block indices over the grid: point t reads row block t of both inputs; both outputs stay at block (0, 0). -/
theorem blockIdx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Entry (r, k) of the rows' block at point t is row 2000·t + r of the array. -/
theorem rowsBlk_apply (c : Dev nD) (t : Fin cfg4.N) (ht : t.val < 50) (r : Fin 2000) (k : Fin 128) :
    rowsBlk V c t (ix2 r k) = rowsArr V c (ix2 (KV.rowOf ⟨t.val, ht⟩ r) k) := by
  obtain ⟨e0, e1, -⟩ := blockIdx t
  show V c main_v48 (((cfg4.win 0).blk t).view.emb (ix2 r k)) = V c main_v48 (ix2 (KV.rowOf ⟨t.val, ht⟩ r) k)
  congr 1
  funext a; apply Fin.ext
  match a with
  | ⟨0, _⟩ => show win4_0.index t (0 : Fin 2) * 2000 + 1 * r.val = t.val * 2000 + r.val; rw [e0]; omega
  | ⟨1, _⟩ => show win4_0.index t (1 : Fin 2) * 128 + 1 * k.val = k.val; rw [e1]; omega

/-- Entry (r, 0) of the ids' block at point t is the id of row 2000·t + r. -/
theorem idsBlk_apply (c : Dev nD) (t : Fin cfg4.N) (ht : t.val < 50) (r : Fin 2000) :
    idsBlk V c t (ix2 r 0) = idsArr V c (ix2 (KV.rowOf ⟨t.val, ht⟩ r) 0) := by
  obtain ⟨-, -, e2, e3, -⟩ := blockIdx t
  show V c main_v49 (((cfg4.win 1).blk t).view.emb (ix2 r 0)) = V c main_v49 (ix2 (KV.rowOf ⟨t.val, ht⟩ r) 0)
  congr 1
  funext a; apply Fin.ext
  match a with
  | ⟨0, _⟩ => show win4_1.index t (0 : Fin 2) * 2000 + 1 * r.val = t.val * 2000 + r.val; rw [e2]; omega
  | ⟨1, _⟩ => show win4_1.index t (1 : Fin 2) * 1 + 1 * 0 = 0; rw [e3]

/-! ## What a point adds, and the running totals -/

/-- What row block s adds to entry (g, k) of the sums: over its rows, the indicator of graph g times the row's entry k
    (nothing past the last block). -/
def sumAdd (h : KV.Arr S100000x128) (bt : IVec S100000x1 32) (g : Fin 256) (k : Fin 128) (s : ℕ) : EReal :=
  if hs : s < 50 then ∑ r : Fin 2000, KV.ind (bt (ix2 (KV.rowOf ⟨s, hs⟩ r) 0)) g * h (ix2 (KV.rowOf ⟨s, hs⟩ r) k) else 0

/-- What row block s adds to the count of graph g: the number of its rows in g (nothing past the last block). -/
def cntAdd (bt : IVec S100000x1 32) (g : Fin 256) (s : ℕ) : EReal :=
  if hs : s < 50 then ∑ r : Fin 2000, KV.ind (bt (ix2 (KV.rowOf ⟨s, hs⟩ r) 0)) g else 0

/-- The body's first store at point t, over a buffer holding xo: xo plus block t's addend. -/
theorem sumStep_blk (c : Dev nD) (t : Fin cfg4.N) (xo : Vec Ideal S256x128 .f32) (g : Fin 256) (k : Fin 128) :
    k4_pay4 (F := Ideal) (rowsBlk V c t) (idsBlk V c t) xo (ix2 g k)
      = xo (ix2 g k) + sumAdd (rowsArr V c) (idsArr V c) g k t.val := by
  have ht : t.val < 50 := lt_of_lt_of_eq t.isLt (show cfg4.N = 50 from N_4)
  refine (sumStep_apply (rowsBlk V c t) (idsBlk V c t) xo g k).trans ?_
  unfold sumAdd
  rw [dif_pos ht]
  refine congrArg (xo (ix2 g k) + ·) (Finset.sum_congr rfl fun r _ => ?_)
  rw [rowsBlk_apply V c t ht r k, idsBlk_apply V c t ht r]

/-- The body's second store at point t, over a buffer holding xo: xo plus block t's count. -/
theorem cntStep_blk (c : Dev nD) (t : Fin cfg4.N) (xo : Vec Ideal S256x1 .f32) (g : Fin 256) :
    k4_pay5 (F := Ideal) (idsBlk V c t) xo (ix2 g 0) = xo (ix2 g 0) + cntAdd (idsArr V c) g t.val := by
  have ht : t.val < 50 := lt_of_lt_of_eq t.isLt (show cfg4.N = 50 from N_4)
  refine (cntStep_apply (idsBlk V c t) xo g).trans ?_
  unfold cntAdd
  rw [dif_pos ht]
  refine congrArg (xo (ix2 g 0) + ·) (Finset.sum_congr rfl fun r _ => ?_)
  rw [idsBlk_apply V c t ht r]

/-- The two buffers after the first point: the body's stores over the cleared buffers. -/
theorem atFirst (c : Dev nD) (t : Fin cfg4.N) (h0 : t.val % 50 = 0) :
    (outsAt4 V c t.val t.isLt).1 = k4_pay4 (rowsBlk V c t) (idsBlk V c t) (k4_pay1 (F := Ideal))
      ∧ (outsAt4 V c t.val t.isLt).2 = k4_pay5 (idsBlk V c t) (k4_pay2 (F := Ideal)) := by
  rw [outsAt4_A V c t h0]
  dsimp only
  exact ⟨firstSum c (grid4.coords t) (ms4_0 t) (hs4_0 t) (ms4_1 t) (hs4_1 t) (ms4_2 t) (hs4_2 t) (ms4_3 t) (hs4_3 t) ((hcond4_0 t).mpr h0) (rowsBlk V c t) (idsBlk V c t),
    firstCnt c (grid4.coords t) (ms4_0 t) (hs4_0 t) (ms4_1 t) (hs4_1 t) (ms4_2 t) (hs4_2 t) (ms4_3 t) (hs4_3 t) ((hcond4_0 t).mpr h0) (rowsBlk V c t) (idsBlk V c t)⟩

/-- The two buffers after a later point: the body's stores over what the point before left. -/
theorem atLater (c : Dev nD) (t : Fin cfg4.N) (h0 : ¬t.val % 50 = 0) :
    (outsAt4 V c t.val t.isLt).1 = k4_pay4 (rowsBlk V c t) (idsBlk V c t)
        (outsAt4 V c (t.val - 1) (Nat.lt_of_le_of_lt (Nat.sub_le _ _) t.isLt)).1
      ∧ (outsAt4 V c t.val t.isLt).2 = k4_pay5 (idsBlk V c t)
        (outsAt4 V c (t.val - 1) (Nat.lt_of_le_of_lt (Nat.sub_le _ _) t.isLt)).2 := by
  rw [outsAt4_B V c t h0]
  dsimp only
  exact ⟨laterSum c (grid4.coords t) (ms4_0 t) (hs4_0 t) (ms4_1 t) (hs4_1 t) (ms4_2 t) (hs4_2 t) (ms4_3 t) (hs4_3 t) (fun h => h0 ((hcond4_0 t).mp h)) (rowsBlk V c t) (idsBlk V c t)
      (outsAt4 V c (t.val - 1) (Nat.lt_of_le_of_lt (Nat.sub_le _ _) t.isLt)).1
      (outsAt4 V c (t.val - 1) (Nat.lt_of_le_of_lt (Nat.sub_le _ _) t.isLt)).2,
    laterCnt c (grid4.coords t) (ms4_0 t) (hs4_0 t) (ms4_1 t) (hs4_1 t) (ms4_2 t) (hs4_2 t) (ms4_3 t) (hs4_3 t) (fun h => h0 ((hcond4_0 t).mp h)) (rowsBlk V c t) (idsBlk V c t)
      (outsAt4 V c (t.val - 1) (Nat.lt_of_le_of_lt (Nat.sub_le _ _) t.isLt)).1
      (outsAt4 V c (t.val - 1) (Nat.lt_of_le_of_lt (Nat.sub_le _ _) t.isLt)).2⟩

/-- THE RUNNING TOTALS. After point n the first buffer holds, at (g, k), the addends of blocks 0 … n, and the second, at
    (g, 0), their counts: the first point starts from zero, every later one adds its block to what the one before left. -/
theorem running (c : Dev nD) : ∀ (n : ℕ) (hn : n < cfg4.N),
    (∀ (g : Fin 256) (k : Fin 128), (outsAt4 V c n hn).1 (ix2 g k)
        = ∑ s ∈ Finset.range (n + 1), sumAdd (rowsArr V c) (idsArr V c) g k s)
      ∧ (∀ g : Fin 256, (outsAt4 V c n hn).2 (ix2 g 0) = ∑ s ∈ Finset.range (n + 1), cntAdd (idsArr V c) g s)
  | 0, hn => by
    obtain ⟨e1, e2⟩ := atFirst V c ⟨0, hn⟩ rfl
    refine ⟨fun g k => ?_, fun g => ?_⟩
    · refine (congrFun e1 (ix2 g k)).trans ?_
      refine (sumStep_blk V c ⟨0, hn⟩ (k4_pay1 (F := Ideal)) g k).trans ?_
      rw [Finset.sum_range_one]
      show Ideal.ofBits .f32 0x00000000#32 + _ = _
      rw [Ideal.ofBits_zero_f32, zero_add]
    · refine (congrFun e2 (ix2 g 0)).trans ?_
      refine (cntStep_blk V c ⟨0, hn⟩ (k4_pay2 (F := Ideal)) g).trans ?_
      rw [Finset.sum_range_one]
      show Ideal.ofBits .f32 0x00000000#32 + _ = _
      rw [Ideal.ofBits_zero_f32, zero_add]
  | n + 1, hn => by
    have hN : cfg4.N = 50 := N_4
    have hB : ¬(⟨n + 1, hn⟩ : Fin cfg4.N).val % 50 = 0 := by dsimp only; omega
    obtain ⟨e1, e2⟩ := atLater V c ⟨n + 1, hn⟩ hB
    obtain ⟨ih1, ih2⟩ := running c n (Nat.lt_of_succ_lt hn)
    refine ⟨fun g k => ?_, fun g => ?_⟩
    · refine (congrFun e1 (ix2 g k)).trans ?_
      refine (sumStep_blk V c ⟨n + 1, hn⟩ _ g k).trans ?_
      rw [Finset.sum_range_succ _ (n + 1)]
      exact congrArg (· + sumAdd (rowsArr V c) (idsArr V c) g k (n + 1)) (ih1 g k)
    · refine (congrFun e2 (ix2 g 0)).trans ?_
      refine (cntStep_blk V c ⟨n + 1, hn⟩ _ g).trans ?_
      rw [Finset.sum_range_succ _ (n + 1)]
      exact congrArg (· + cntAdd (idsArr V c) g (n + 1)) (ih2 g)

/-- All fifty addends are the sum over the fifty row blocks. -/
theorem sumAdd_total (h : KV.Arr S100000x128) (bt : IVec S100000x1 32) (g : Fin 256) (k : Fin 128) :
    ∑ s ∈ Finset.range 50, sumAdd h bt g k s
      = ∑ t : Fin 50, ∑ r : Fin 2000, KV.ind (bt (ix2 (KV.rowOf t r) 0)) g * h (ix2 (KV.rowOf t r) k) := by
  rw [Finset.sum_range]
  refine Finset.sum_congr rfl fun t _ => ?_
  unfold sumAdd
  rw [dif_pos t.isLt]

theorem cntAdd_total (bt : IVec S100000x1 32) (g : Fin 256) :
    ∑ s ∈ Finset.range 50, cntAdd bt g s = ∑ t : Fin 50, ∑ r : Fin 2000, KV.ind (bt (ix2 (KV.rowOf t r) 0)) g := by
  rw [Finset.sum_range]
  refine Finset.sum_congr rfl fun t _ => ?_
  unfold cntAdd
  rw [dif_pos t.isLt]

/-! ## The arrays after the last point -/

/-- After the last point the first buffer holds the per-graph sums over all rows. -/
theorem lastSum (c : Dev nD) (t : Fin cfg4.N) (h49 : t.val = 49) :
    (outsAt4 V c t.val t.isLt).1 = KV.poolSum (V c main_v48) (V c main_v49) := by
  funext j
  obtain ⟨g, k, rfl⟩ : ∃ (g : Fin 256) (k : Fin 128), j = ix2 g k := ⟨j 0, j 1, eq_ix2 j⟩
  refine ((running V c t.val t.isLt).1 g k).trans ?_
  rw [h49]
  exact sumAdd_total (rowsArr V c) (idsArr V c) g k

/-- After the last point the second buffer holds the per-graph row counts. -/
theorem lastCnt (c : Dev nD) (t : Fin cfg4.N) (h49 : t.val = 49) :
    (outsAt4 V c t.val t.isLt).2 = KV.poolCnt (V c main_v49) := by
  funext j
  obtain ⟨g, q, rfl⟩ : ∃ (g : Fin 256) (q : Fin 1), j = ix2 g q := ⟨j 0, j 1, eq_ix2 j⟩
  obtain rfl : q = 0 := Subsingleton.elim _ _
  refine ((running V c t.val t.isLt).2 g).trans ?_
  rw [h49]
  exact cntAdd_total (idsArr V c) g

/-- The last point of the grid, the only one that writes the resident blocks back. -/
abbrev lastPt : Fin cfg4.N := ⟨49, by rw [show cfg4.N = 50 from N_4]; decide⟩

/-- The one write-back of the sums: the block at (0, 0) of the 256×128 array is the whole array. -/
theorem flushedSum (c : Dev nD) (t : Fin cfg4.N) (hf : (cfg4.win 2).flush t = true) :
    (dat4 (F := Ideal) V c).flushed 2 t
      = ((cfg4.win 2).blk t).view.read (Elt Ideal) (KV.poolSum (V c main_v48) (V c main_v49)) := by
  have hN : cfg4.N = 50 := N_4
  have h49 : t.val = 49 := by have := (flush4_2 t).mp hf; have := t.isLt; omega
  obtain ⟨-, -, -, -, e4, e5, -⟩ := blockIdx t
  show (cfg4.win 2).cut (grid4.coords t) ((dat4 V c).after 2 t) = _
  rw [after4_2, lastSum V c t h49]
  have hz' : (fun a => win4_2.index t a * main_v50_0.ty.shape.size a) = fun _ => 0 := funext fun a => by
    match a with
    | ⟨0, _⟩ => show win4_2.index t (0 : Fin 2) * 256 = 0; rw [e4]
    | ⟨1, _⟩ => show win4_2.index t (1 : Fin 2) * 128 = 0; rw [e5]
  exact (Memref.read_access_unit_zero (Elt Ideal) main_v50_0 hz' (fun a => by rw [congrFun hz' a]; simp)
    (KV.poolSum (V c main_v48) (V c main_v49))).symm

/-- The one write-back of the counts: the block at (0, 0) of the 256×1 array is the whole array. -/
theorem flushedCnt (c : Dev nD) (t : Fin cfg4.N) (hf : (cfg4.win 3).flush t = true) :
    (dat4 (F := Ideal) V c).flushed 3 t
      = ((cfg4.win 3).blk t).view.read (Elt Ideal) (KV.poolCnt (V c main_v49)) := by
  have hN : cfg4.N = 50 := N_4
  have h49 : t.val = 49 := by have := (flush4_3 t).mp hf; have := t.isLt; omega
  obtain ⟨-, -, -, -, -, -, e6, e7⟩ := blockIdx t
  show (cfg4.win 3).cut (grid4.coords t) ((dat4 V c).after 3 t) = _
  rw [after4_3, lastCnt V c t h49]
  have hz' : (fun a => win4_3.index t a * main_v50_1.ty.shape.size a) = fun _ => 0 := funext fun a => by
    match a with
    | ⟨0, _⟩ => show win4_3.index t (0 : Fin 2) * 256 = 0; rw [e6]
    | ⟨1, _⟩ => show win4_3.index t (1 : Fin 2) * 1 = 0; rw [e7]
  exact (Memref.read_access_unit_zero (Elt Ideal) main_v50_1 hz' (fun a => by rw [congrFun hz' a]; simp)
    (KV.poolCnt (V c main_v49))).symm

/-- The first output array of launch 4 after its last point: the per-graph sums of rows. -/
theorem final4_sum (c : Dev nD) :
    (dat4 (F := Ideal) V c).arrAt 2 cfg4.N = KV.poolSum (V c main_v48) (V c main_v49) :=
  (dat4 (F := Ideal) V c).arrAt_eq_of_cover 2 (KV.poolSum (V c main_v48) (V c main_v49)) (flushedSum V c) fun i =>
    ⟨lastPt, (flush4_2 lastPt).mpr rfl, by
      obtain ⟨-, -, -, -, e4, e5, -⟩ := blockIdx lastPt
      show i ∈ ((View.whole main_v50_0).slice (win4_2.rect lastPt)).set
      rw [View.set_slice_whole, Rect.mem_set_unit]
      intro a
      have h0 : (i 0 : Nat) < 256 := (i 0).isLt
      have h1 : (i 1 : Nat) < 128 := (i 1).isLt
      match a with
      | ⟨0, _⟩ =>
        show win4_2.index lastPt (0 : Fin 2) * 256 ≤ (i 0 : Nat) ∧ (i 0 : Nat) < win4_2.index lastPt (0 : Fin 2) * 256 + 256
        rw [e4]; omega
      | ⟨1, _⟩ =>
        show win4_2.index lastPt (1 : Fin 2) * 128 ≤ (i 1 : Nat) ∧ (i 1 : Nat) < win4_2.index lastPt (1 : Fin 2) * 128 + 128
        rw [e5]; omega⟩

/-- The second output array of launch 4 after its last point: the per-graph row counts. -/
theorem final4_cnt (c : Dev nD) :
    (dat4 (F := Ideal) V c).arrAt 3 cfg4.N = KV.poolCnt (V c main_v49) :=
  (dat4 (F := Ideal) V c).arrAt_eq_of_cover 3 (KV.poolCnt (V c main_v49)) (flushedCnt V c) fun i =>
    ⟨lastPt, (flush4_3 lastPt).mpr rfl, by
      obtain ⟨-, -, -, -, -, -, e6, e7⟩ := blockIdx lastPt
      show i ∈ ((View.whole main_v50_1).slice (win4_3.rect lastPt)).set
      rw [View.set_slice_whole, Rect.mem_set_unit]
      intro a
      have h0 : (i 0 : Nat) < 256 := (i 0).isLt
      have h1 : (i 1 : Nat) < 1 := (i 1).isLt
      match a with
      | ⟨0, _⟩ =>
        show win4_3.index lastPt (0 : Fin 2) * 256 ≤ (i 0 : Nat) ∧ (i 0 : Nat) < win4_3.index lastPt (0 : Fin 2) * 256 + 256
        rw [e6]; omega
      | ⟨1, _⟩ =>
        show win4_3.index lastPt (1 : Fin 2) * 1 ≤ (i 1 : Nat) ∧ (i 1 : Nat) < win4_3.index lastPt (1 : Fin 2) * 1 + 1
        rw [e7]; omega⟩

end Cert.KernelIdeal.Reg4

end
-- ==== Proof.KReg5.lean ====
/-
  Launch 5 over the whole arrays: one point, every window the whole of its array. The output is the two-layer
  classifier on the per-graph mean features (sum over max(count, 1)).
-/
import proofs.«429220_j1795296329975_3_alg».proof.Proof.KernelIdealFrameP
import proofs.«429220_j1795296329975_3_alg».proof.Proof.KSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

/-! ## The two matrix products at an index

The first product contracts the 128 feature lanes of a 256×128 left operand against the rows of a 128×64 right
operand; the second contracts the 64 hidden lanes of a 256×64 left operand against the rows of a 64×8 right operand.
In both the left operand is read at (row of the output, contracted coordinate) and the right operand at
(contracted coordinate, column of the output). -/

/-- First product, left operand: its row is the output's row. -/
theorem lhsA_0 (j : S256x64.Idx) (k : dot_S256x128_S128x64_S256x64_1_0_0_1_n_n.contr.Idx) :
    (dot_S256x128_S128x64_S256x64_1_0_0_1_n_n.lhsIdx j k 0).val = (j 0).val := by
  unfold DotDims.lhsIdx
  rw [dif_neg (show ¬(0 : Fin S256x128.rank) ∈ dot_S256x128_S128x64_S256x64_1_0_0_1_n_n.lhsBatch by decide),
    dif_pos (show (0 : Fin S256x128.rank) ∈ dot_S256x128_S128x64_S256x64_1_0_0_1_n_n.lhsNonContracting by decide)]
  rfl
/-- First product, left operand: its lane is the contracted coordinate. -/
theorem lhsA_1 (j : S256x64.Idx) (k : dot_S256x128_S128x64_S256x64_1_0_0_1_n_n.contr.Idx) :
    (dot_S256x128_S128x64_S256x64_1_0_0_1_n_n.lhsIdx j k 1).val = (k ⟨0, by decide⟩).val :=
  dot_S256x128_S128x64_S256x64_1_0_0_1_n_n.lhsIdx_val_of_single rfl j k
/-- First product, right operand: its row is the contracted coordinate. -/
theorem rhsA_0 (j : S256x64.Idx) (k : dot_S256x128_S128x64_S256x64_1_0_0_1_n_n.contr.Idx) :
    (dot_S256x128_S128x64_S256x64_1_0_0_1_n_n.rhsIdx j k 0).val = (k ⟨0, by decide⟩).val :=
  dot_S256x128_S128x64_S256x64_1_0_0_1_n_n.rhsIdx_val_of_single rfl j k
/-- First product, right operand: its column is the output's column. -/
theorem rhsA_1 (j : S256x64.Idx) (k : dot_S256x128_S128x64_S256x64_1_0_0_1_n_n.contr.Idx) :
    (dot_S256x128_S128x64_S256x64_1_0_0_1_n_n.rhsIdx j k 1).val = (j 1).val := by
  unfold DotDims.rhsIdx
  rw [dif_neg (show ¬(1 : Fin S128x64.rank) ∈ dot_S256x128_S128x64_S256x64_1_0_0_1_n_n.rhsBatch by decide),
    dif_pos (show (1 : Fin S128x64.rank) ∈ dot_S256x128_S128x64_S256x64_1_0_0_1_n_n.rhsNonContracting by decide)]
  rfl

/-- The first product into the zero accumulator, at (p, r): the sum over the 128 lanes of left (p, k) times right (k, r). -/
theorem prodA_apply (A : FVec Ideal S256x128 .bf16) (B : FVec Ideal S128x64 .bf16) (p : Fin 256) (r : Fin 64) :
    matmul dot_S256x128_S128x64_S256x64_1_0_0_1_n_n none A B (constant (F := Ideal) S256x64 .f32 0x00000000#32) (ix2 p r)
      = ∑ k : Fin 128, A (ix2 p k) * B (ix2 k r) := by
  show FloatOps.matmul dot_S256x128_S128x64_S256x64_1_0_0_1_n_n none A B (constant (F := Ideal) S256x64 .f32 0x00000000#32) (ix2 p r) = _
  rw [Ideal.matmul_constant_zero_apply, ← Equiv.sum_comp (contrEquiv1 dot_S256x128_S128x64_S256x64_1_0_0_1_n_n 128 rfl rfl).symm]
  refine Finset.sum_congr rfl fun k _ => ?_
  have hk := contrEquiv1_symm_val dot_S256x128_S128x64_S256x64_1_0_0_1_n_n 128 rfl rfl k
  have el : dot_S256x128_S128x64_S256x64_1_0_0_1_n_n.lhsIdx (ix2 p r) ((contrEquiv1 dot_S256x128_S128x64_S256x64_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S256x128_S128x64_S256x64_1_0_0_1_n_n.rhsIdx (ix2 p r) ((contrEquiv1 dot_S256x128_S128x64_S256x64_1_0_0_1_n_n 128 rfl rfl).symm k) = ix2 k r :=
    funext fun a => Fin.ext (by
      match a with
      | ⟨0, _⟩ => exact (rhsA_0 _ _).trans hk
      | ⟨1, _⟩ => exact rhsA_1 _ _)
  rw [el, er]

/-- Second product, left operand: its row is the output's row. -/
theorem lhsB_0 (j : S256x8.Idx) (k : dot_S256x64_S64x8_S256x8_1_0_0_1_n_n.contr.Idx) :
    (dot_S256x64_S64x8_S256x8_1_0_0_1_n_n.lhsIdx j k 0).val = (j 0).val := by
  unfold DotDims.lhsIdx
  rw [dif_neg (show ¬(0 : Fin S256x64.rank) ∈ dot_S256x64_S64x8_S256x8_1_0_0_1_n_n.lhsBatch by decide),
    dif_pos (show (0 : Fin S256x64.rank) ∈ dot_S256x64_S64x8_S256x8_1_0_0_1_n_n.lhsNonContracting by decide)]
  rfl
/-- Second product, left operand: its lane is the contracted coordinate. -/
theorem lhsB_1 (j : S256x8.Idx) (k : dot_S256x64_S64x8_S256x8_1_0_0_1_n_n.contr.Idx) :
    (dot_S256x64_S64x8_S256x8_1_0_0_1_n_n.lhsIdx j k 1).val = (k ⟨0, by decide⟩).val :=
  dot_S256x64_S64x8_S256x8_1_0_0_1_n_n.lhsIdx_val_of_single rfl j k
/-- Second product, right operand: its row is the contracted coordinate. -/
theorem rhsB_0 (j : S256x8.Idx) (k : dot_S256x64_S64x8_S256x8_1_0_0_1_n_n.contr.Idx) :
    (dot_S256x64_S64x8_S256x8_1_0_0_1_n_n.rhsIdx j k 0).val = (k ⟨0, by decide⟩).val :=
  dot_S256x64_S64x8_S256x8_1_0_0_1_n_n.rhsIdx_val_of_single rfl j k
/-- Second product, right operand: its column is the output's column. -/
theorem rhsB_1 (j : S256x8.Idx) (k : dot_S256x64_S64x8_S256x8_1_0_0_1_n_n.contr.Idx) :
    (dot_S256x64_S64x8_S256x8_1_0_0_1_n_n.rhsIdx j k 1).val = (j 1).val := by
  unfold DotDims.rhsIdx
  rw [dif_neg (show ¬(1 : Fin S64x8.rank) ∈ dot_S256x64_S64x8_S256x8_1_0_0_1_n_n.rhsBatch by decide),
    dif_pos (show (1 : Fin S64x8.rank) ∈ dot_S256x64_S64x8_S256x8_1_0_0_1_n_n.rhsNonContracting by decide)]
  rfl

/-- The second product into the zero accumulator, at (p, q): the sum over the 64 lanes of left (p, r) times right (r, q). -/
theorem prodB_apply (A : FVec Ideal S256x64 .bf16) (B : FVec Ideal S64x8 .bf16) (p : Fin 256) (q : Fin 8) :
    matmul dot_S256x64_S64x8_S256x8_1_0_0_1_n_n none A B (constant (F := Ideal) S256x8 .f32 0x00000000#32) (ix2 p q)
      = ∑ r : Fin 64, A (ix2 p r) * B (ix2 r q) := by
  show FloatOps.matmul dot_S256x64_S64x8_S256x8_1_0_0_1_n_n none A B (constant (F := Ideal) S256x8 .f32 0x00000000#32) (ix2 p q) = _
  rw [Ideal.matmul_constant_zero_apply, ← Equiv.sum_comp (contrEquiv1 dot_S256x64_S64x8_S256x8_1_0_0_1_n_n 64 rfl rfl).symm]
  refine Finset.sum_congr rfl fun r _ => ?_
  have hr := contrEquiv1_symm_val dot_S256x64_S64x8_S256x8_1_0_0_1_n_n 64 rfl rfl r
  have el : dot_S256x64_S64x8_S256x8_1_0_0_1_n_n.lhsIdx (ix2 p q) ((contrEquiv1 dot_S256x64_S64x8_S256x8_1_0_0_1_n_n 64 rfl rfl).symm r) = ix2 p r :=
    funext fun a => Fin.ext (by
      match a with
      | ⟨0, _⟩ => exact lhsB_0 _ _
      | ⟨1, _⟩ => exact (lhsB_1 _ _).trans hr)
  have er : dot_S256x64_S64x8_S256x8_1_0_0_1_n_n.rhsIdx (ix2 p q) ((contrEquiv1 dot_S256x64_S64x8_S256x8_1_0_0_1_n_n 64 rfl rfl).symm r) = ix2 r q :=
    funext fun a => Fin.ext (by
      match a with
      | ⟨0, _⟩ => exact (rhsB_0 _ _).trans hr
      | ⟨1, _⟩ => exact rhsB_1 _ _)
  rw [el, er]

/-! ## The spreads: a column along the lanes, a row down the rows -/

/-- The 256×1 column spread along 128 lanes reads, at (p, k), the column's entry of row p. -/
theorem spreadCol_apply (x : S256x1.Idx → EReal) (h : S256x1.Broadcasts S256x128) (p : Fin 256) (k : Fin 128) :
    broadcastTo S256x128 x h (ix2 p k) = x (ix2 p 0) := by
  refine broadcastTo_apply x h (ix2 p k) (ix2 p 0) fun a => ?_
  match a with
  | ⟨0, _⟩ => rfl
  | ⟨1, _⟩ => rfl

/-- The 1×64 row spread down 256 rows reads, at (p, r), the row's entry of lane r. -/
theorem spreadRow64_apply (x : S1x64.Idx → EReal) (h : S1x64.Broadcasts S256x64) (p : Fin 256) (r : Fin 64) :
    broadcastTo S256x64 x h (ix2 p r) = x (ix2 0 r) := by
  refine broadcastTo_apply x h (ix2 p r) (ix2 0 r) fun a => ?_
  match a with
  | ⟨0, _⟩ => rfl
  | ⟨1, _⟩ => rfl

/-- The 1×8 row spread down 256 rows reads, at (p, q), the row's entry of lane q. -/
theorem spreadRow8_apply (x : S1x8.Idx → EReal) (h : S1x8.Broadcasts S256x8) (p : Fin 256) (q : Fin 8) :
    broadcastTo S256x8 x h (ix2 p q) = x (ix2 0 q) := by
  refine broadcastTo_apply x h (ix2 p q) (ix2 0 q) fun a => ?_
  match a with
  | ⟨0, _⟩ => rfl
  | ⟨1, _⟩ => rfl

/-! ## The body's value at an index -/

/-- The stored value at (p, q): the mean features of row p (sum over max(count, 1)) through the first product, the
    first bias row added and the result clipped at zero, through the second product, the second bias row added. Every
    change of format is the identity on the extended reals; the constant words are 1 and 0. -/
theorem pay_apply (x0 : Vec Ideal S256x128 .f32) (x1 : Vec Ideal S256x1 .f32) (x2 : Vec Ideal S128x64 .f32)
    (x3 : Vec Ideal S1x64 .f32) (x4 : Vec Ideal S64x8 .f32) (x5 : Vec Ideal S1x8 .f32) (p : Fin 256) (q : Fin 8) :
    k5_pay1 x0 x1 x2 x3 x4 x5 (ix2 p q) = KV.cls x0 x1 x2 x3 x4 x5 (ix2 p q) := by
  show k5_pay1 x0 x1 x2 x3 x4 x5 (ix2 p q)
    = (∑ r : Fin 64, max ((∑ k : Fin 128, Ideal.div (x0 (ix2 p k)) (max (x1 (ix2 p 0)) 1) * x2 (ix2 k r)) + x3 (ix2 0 r)) 0 * x4 (ix2 r q))
      + x5 (ix2 0 q)
  unfold k5_pay1
  rw [addf_apply, prodB_apply, spreadRow8_apply]
  simp only [shapeCast_self]
  refine congrArg (· + x5 (ix2 0 q)) (Finset.sum_congr rfl fun r _ => ?_)
  rw [truncf_apply, truncf_apply, maximumf_apply, addf_apply, prodA_apply, spreadRow64_apply, broadcast_apply,
    show FloatOps.ofBits (F := Ideal) .f32 0x00000000#32 = 0 from Ideal.ofBits_zero_f32]
  refine congrArg (fun s => max (s + x3 (ix2 0 r)) 0 * x4 (ix2 r q)) (Finset.sum_congr rfl fun k _ => ?_)
  rw [truncf_apply, truncf_apply, divf_apply, spreadCol_apply, maximumf_apply, broadcast_apply,
    show FloatOps.ofBits (F := Ideal) .f32 0x3F800000#32 = 1 from Ideal.ofBits_one_f32]

variable (V : (c : Dev nD) → (b : Ref sig .tc) → Buf (Elt Ideal) ((c : Thread nD τ).loc b))

/-! ## From the one block to the array

The launch has one point. There every window's block index is (0, 0) and its block has the array's own extents, so
an input's block is the whole input array, and the output's block, written back, is the whole output array. -/

theorem zero_off : (![0, 0] : Fin 2 → Nat) = fun _ => 0 := funext fun a => by fin_cases a <;> rfl

/-- At the launch's one point each window's block index is (0, 0): the printed index maps, decided over the grid. -/
theorem blockIdx_0 : ∀ t : Fin cfg5.N, win5_0.index t (0 : Fin 2) = 0 ∧ win5_0.index t (1 : Fin 2) = 0 :=
  (by decide +kernel : ∀ t : Fin grid5.N, _)
theorem blockIdx_1 : ∀ t : Fin cfg5.N, win5_1.index t (0 : Fin 2) = 0 ∧ win5_1.index t (1 : Fin 2) = 0 :=
  (by decide +kernel : ∀ t : Fin grid5.N, _)
theorem blockIdx_2 : ∀ t : Fin cfg5.N, win5_2.index t (0 : Fin 2) = 0 ∧ win5_2.index t (1 : Fin 2) = 0 :=
  (by decide +kernel : ∀ t : Fin grid5.N, _)
theorem blockIdx_3 : ∀ t : Fin cfg5.N, win5_3.index t (0 : Fin 2) = 0 ∧ win5_3.index t (1 : Fin 2) = 0 :=
  (by decide +kernel : ∀ t : Fin grid5.N, _)
theorem blockIdx_4 : ∀ t : Fin cfg5.N, win5_4.index t (0 : Fin 2) = 0 ∧ win5_4.index t (1 : Fin 2) = 0 :=
  (by decide +kernel : ∀ t : Fin grid5.N, _)
theorem blockIdx_5 : ∀ t : Fin cfg5.N, win5_5.index t (0 : Fin 2) = 0 ∧ win5_5.index t (1 : Fin 2) = 0 :=
  (by decide +kernel : ∀ t : Fin grid5.N, _)
theorem blockIdx_6 : ∀ t : Fin cfg5.N, win5_6.index t (0 : Fin 2) = 0 ∧ win5_6.index t (1 : Fin 2) = 0 :=
  (by decide +kernel : ∀ t : Fin grid5.N, _)

/-- The one block of window 0 is the whole of the 256×128 array of per-graph sums. -/
theorem blk0 (c : Dev nD) (t : Fin cfg5.N) : (iblk5 V c 0 t : Vec Ideal S256x128 .f32) = V c main_v50_0 := by
  obtain ⟨h0, h1⟩ := blockIdx_0 t
  funext y
  show V c main_v50_0 (((cfg5.win 0).blk t).view.emb y) = V c main_v50_0 y
  congr 1
  funext a
  apply Fin.ext
  match a with
  | ⟨0, _⟩ => show win5_0.index t (0 : Fin 2) * 256 + 1 * (y 0).val = (y 0).val; omega
  | ⟨1, _⟩ => show win5_0.index t (1 : Fin 2) * 128 + 1 * (y 1).val = (y 1).val; omega

/-- The one block of window 1 is the whole of the 256×1 column of per-graph counts. -/
theorem blk1 (c : Dev nD) (t : Fin cfg5.N) : (iblk5 V c 1 t : Vec Ideal S256x1 .f32) = V c main_v50_1 := by
  obtain ⟨h0, h1⟩ := blockIdx_1 t
  funext y
  show V c main_v50_1 (((cfg5.win 1).blk t).view.emb y) = V c main_v50_1 y
  congr 1
  funext a
  apply Fin.ext
  match a with
  | ⟨0, _⟩ => show win5_1.index t (0 : Fin 2) * 256 + 1 * (y 0).val = (y 0).val; omega
  | ⟨1, _⟩ => show win5_1.index t (1 : Fin 2) * 1 + 1 * (y 1).val = (y 1).val; omega

/-- The one block of window 2 is the whole of the 128×64 first weight matrix. -/
theorem blk2 (c : Dev nD) (t : Fin cfg5.N) : (iblk5 V c 2 t : Vec Ideal S128x64 .f32) = V c main_arg9 := by
  obtain ⟨h0, h1⟩ := blockIdx_2 t
  funext y
  show V c main_arg9 (((cfg5.win 2).blk t).view.emb y) = V c main_arg9 y
  congr 1
  funext a
  apply Fin.ext
  match a with
  | ⟨0, _⟩ => show win5_2.index t (0 : Fin 2) * 128 + 1 * (y 0).val = (y 0).val; omega
  | ⟨1, _⟩ => show win5_2.index t (1 : Fin 2) * 64 + 1 * (y 1).val = (y 1).val; omega

/-- The one block of window 3 is the whole of the 1×64 first bias row. -/
theorem blk3 (c : Dev nD) (t : Fin cfg5.N) : (iblk5 V c 3 t : Vec Ideal S1x64 .f32) = V c main_v51 := by
  obtain ⟨h0, h1⟩ := blockIdx_3 t
  funext y
  show V c main_v51 (((cfg5.win 3).blk t).view.emb y) = V c main_v51 y
  congr 1
  funext a
  apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- The one block of window 4 is the whole of the 64×8 second weight matrix. -/
theorem blk4 (c : Dev nD) (t : Fin cfg5.N) : (iblk5 V c 4 t : Vec Ideal S64x8 .f32) = V c main_arg11 := by
  obtain ⟨h0, h1⟩ := blockIdx_4 t
  funext y
  show V c main_arg11 (((cfg5.win 4).blk t).view.emb y) = V c main_arg11 y
  congr 1
  funext a
  apply Fin.ext
  match a with
  | ⟨0, _⟩ => show win5_4.index t (0 : Fin 2) * 64 + 1 * (y 0).val = (y 0).val; omega
  | ⟨1, _⟩ => show win5_4.index t (1 : Fin 2) * 8 + 1 * (y 1).val = (y 1).val; omega

/-- The one block of window 5 is the whole of the 1×8 second bias row. -/
theorem blk5 (c : Dev nD) (t : Fin cfg5.N) : (iblk5 V c 5 t : Vec Ideal S1x8 .f32) = V c main_v52 := by
  obtain ⟨h0, h1⟩ := blockIdx_5 t
  funext y
  show V c main_v52 (((cfg5.win 5).blk t).view.emb y) = V c main_v52 y
  congr 1
  funext a
  apply Fin.ext
  match a with
  | ⟨0, _⟩ => show win5_5.index t (0 : Fin 2) * 1 + 1 * (y 0).val = (y 0).val; omega
  | ⟨1, _⟩ => show win5_5.index t (1 : Fin 2) * 8 + 1 * (y 1).val = (y 1).val; omega

/-- What the one point writes back is the output window's block of the classifier of the whole input arrays. -/
theorem flushed_eq (c : Dev nD) (t : Fin cfg5.N) :
    (dat5 (F := Ideal) V c).flushed 6 t
      = ((cfg5.win 6).blk t).view.read (Elt Ideal)
          (KV.cls (V c main_v50_0) (V c main_v50_1) (V c main_arg9) (V c main_v51) (V c main_arg11) (V c main_v52)) := by
  show (cfg5.win 6).cut (grid5.coords t) ((dat5 V c).after 6 t) = _
  rw [after5_6]
  unfold out5_6
  rw [View.canon_unit_zero zero_off]
  simp only [View.ld_unit_zero (S := S256x128) zero_off, View.ld_unit_zero (S := S256x1) zero_off,
    View.ld_unit_zero (S := S128x64) zero_off, View.ld_unit_zero (S := S1x64) zero_off,
    View.ld_unit_zero (S := S64x8) zero_off, View.ld_unit_zero (S := S1x8) zero_off]
  obtain ⟨h0, h1⟩ := blockIdx_6 t
  funext j
  obtain ⟨p, q, rfl⟩ : ∃ (p : Fin 256) (q : Fin 8), j = ix2 p q := ⟨j 0, j 1, eq_ix2 j⟩
  have e6 : ((cfg5.win 6).blk t).view.emb (ix2 p q) = ix2 p q := by
    funext a
    apply Fin.ext
    match a with
    | ⟨0, _⟩ => show win5_6.index t (0 : Fin 2) * 256 + 1 * p.val = p.val; omega
    | ⟨1, _⟩ => show win5_6.index t (1 : Fin 2) * 8 + 1 * q.val = q.val; omega
  show k5_pay1 (iblk5 V c 0 t) (iblk5 V c 1 t) (iblk5 V c 2 t) (iblk5 V c 3 t) (iblk5 V c 4 t) (iblk5 V c 5 t) (ix2 p q)
    = KV.cls (V c main_v50_0) (V c main_v50_1) (V c main_arg9) (V c main_v51) (V c main_arg11) (V c main_v52)
        (((cfg5.win 6).blk t).view.emb (ix2 p q))
  rw [e6, blk0 V c t, blk1 V c t, blk2 V c t, blk3 V c t, blk4 V c t, blk5 V c t]
  exact pay_apply _ _ _ _ _ _ p q

/-- An index of the output array is in the point's block iff each coordinate is in the block's range on its axis. -/
theorem mem_blk (t : Fin cfg5.N) (i : S256x8.Idx) :
    i ∈ ((cfg5.win 6).blk t).view.set
      ↔ ∀ a : Fin 2, win5_6.index t a * S256x8.size a ≤ (i a).val ∧ (i a).val < win5_6.index t a * S256x8.size a + S256x8.size a := by
  show i ∈ ((View.whole main_v53).slice (win5_6.rect t)).set ↔ _
  rw [View.set_slice_whole, Rect.mem_set_unit]
  exact Iff.rfl

/-- Every index of the output array is in the one point's block, which is written back. -/
theorem covered (i : S256x8.Idx) :
    ∃ t : Fin cfg5.N, (cfg5.win 6).flush t = true ∧ i ∈ ((cfg5.win 6).blk t).view.set := by
  obtain ⟨t⟩ : Nonempty (Fin cfg5.N) := ⟨⟨0, by decide⟩⟩
  refine ⟨t, flush5_6 t, ?_⟩
  rw [mem_blk]
  obtain ⟨h0, h1⟩ := blockIdx_6 t
  have hi0 : (i 0).val < 256 := (i 0).isLt
  have hi1 : (i 1).val < 8 := (i 1).isLt
  intro a
  match a with
  | ⟨0, _⟩ => show win5_6.index t (0 : Fin 2) * 256 ≤ (i 0).val ∧ (i 0).val < win5_6.index t (0 : Fin 2) * 256 + 256; omega
  | ⟨1, _⟩ => show win5_6.index t (1 : Fin 2) * 8 ≤ (i 1).val ∧ (i 1).val < win5_6.index t (1 : Fin 2) * 8 + 8; omega

/-- The output array of launch 5 after its one point, as one function of the arrays the launch found. -/
theorem final5 (c : Dev nD) :
    (dat5 (F := Ideal) V c).arrAt 6 cfg5.N
      = KV.cls (V c main_v50_0) (V c main_v50_1) (V c main_arg9) (V c main_v51) (V c main_arg11) (V c main_v52) :=
  (dat5 (F := Ideal) V c).arrAt_eq_of_cover 6 _ (fun t _ => flushed_eq V c t) covered

end Cert.KernelIdeal.Reg5

end
-- ==== Proof.KChain.lean ====
/-
  The kernel program's result buffer read back through its segments. @main is six host stretches and six launches;
  the contents of the buffers at each of the twelve boundaries are a fold from the launch memory. A buffer that a
  stretch does not write, and that a launch does not own as an output, is what it was one boundary earlier; a buffer
  a stretch writes is its operation applied to the contents before; a launch's output array is the launch's function
  (the six region theorems) of the arrays it found. Walking this back from the last boundary gives the result as
  the one function KH.out of the thirteen argument arrays.
-/
import proofs.«429220_j1795296329975_3_alg».proof.Proof.KernelIdealFrameP
import proofs.«429220_j1795296329975_3_alg».proof.Proof.KHost
import proofs.«429220_j1795296329975_3_alg».proof.Proof.KReg0
import proofs.«429220_j1795296329975_3_alg».proof.Proof.KReg1
import proofs.«429220_j1795296329975_3_alg».proof.Proof.KReg2
import proofs.«429220_j1795296329975_3_alg».proof.Proof.KReg3
import proofs.«429220_j1795296329975_3_alg».proof.Proof.KReg4
import proofs.«429220_j1795296329975_3_alg».proof.Proof.KReg5
import Idealize.ShloMosaic.Lib.StableHlo.Run

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.KernelIdeal.GenP

/-- A host stretch leaves a buffer it does not write as it was: no operation of the stretch has it as its result. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Keep
variable {F : FTy → Type} [FloatOps F]

/-! ## What a host stretch leaves alone: every buffer outside the list of its operations' results -/

/-- The buffers stretch 0 writes. -/
abbrev L0 : List (Ref sig .tc) := [main_v0, main_v1, main_v2, main_v3, main_cst, main_v4, main_cst_0, main_v5, main_v6, main_v7, main_cst_1, main_v8, main_v9, main_v10, main_v11]
theorem hW0 : (hostOps0 : List (HloOp τ sig (Elt F))).Forall fun op => op.writes ⊆ (L0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 0 leaves a buffer outside that list as it was. -/
theorem keep0 (V : Valuation τ sig (Elt F)) (r : Ref sig .tc) (hr : r ∉ L0) :
    StableHlo.after hostOps0 V (Proc.devRef .tc r) = V (Proc.devRef .tc r) :=
  StableHlo.after_of_writes_sub hostOps0 V hW0 hr

/-- The buffers stretch 1 writes. -/
abbrev L1 : List (Ref sig .tc) := [main_c, main_v13, main_v14, main_c_2, main_v15, main_v16, main_v17, main_v18, main_v19, main_cst_3, main_v20, main_v21, main_v22, main_v23]
theorem hW1 : (hostOps1 : List (HloOp τ sig (Elt F))).Forall fun op => op.writes ⊆ (L1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 1 leaves a buffer outside that list as it was. -/
theorem keep1 (V : Valuation τ sig (Elt F)) (r : Ref sig .tc) (hr : r ∉ L1) :
    StableHlo.after hostOps1 V (Proc.devRef .tc r) = V (Proc.devRef .tc r) :=
  StableHlo.after_of_writes_sub hostOps1 V hW1 hr

/-- The buffers stretch 2 writes. -/
abbrev L2 : List (Ref sig .tc) := [main_c_4, main_v25, main_v26, main_c_5, main_v27, main_v28, main_v29, main_v30, main_v31, main_cst_6, main_v32, main_v33, main_v34, main_v35]
theorem hW2 : (hostOps2 : List (HloOp τ sig (Elt F))).Forall fun op => op.writes ⊆ (L2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 2 leaves a buffer outside that list as it was. -/
theorem keep2 (V : Valuation τ sig (Elt F)) (r : Ref sig .tc) (hr : r ∉ L2) :
    StableHlo.after hostOps2 V (Proc.devRef .tc r) = V (Proc.devRef .tc r) :=
  StableHlo.after_of_writes_sub hostOps2 V hW2 hr

/-- The buffers stretch 3 writes. -/
abbrev L3 : List (Ref sig .tc) := [main_c_7, main_v37, main_v38, main_c_8, main_v39, main_v40, main_v41, main_v42, main_v43, main_cst_9, main_v44, main_v45, main_v46, main_v47]
theorem hW3 : (hostOps3 : List (HloOp τ sig (Elt F))).Forall fun op => op.writes ⊆ (L3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 3 leaves a buffer outside that list as it was. -/
theorem keep3 (V : Valuation τ sig (Elt F)) (r : Ref sig .tc) (hr : r ∉ L3) :
    StableHlo.after hostOps3 V (Proc.devRef .tc r) = V (Proc.devRef .tc r) :=
  StableHlo.after_of_writes_sub hostOps3 V hW3 hr

/-- The buffers stretch 4 writes. -/
abbrev L4 : List (Ref sig .tc) := [main_v49]
theorem hW4 : (hostOps4 : List (HloOp τ sig (Elt F))).Forall fun op => op.writes ⊆ (L4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 4 leaves a buffer outside that list as it was. -/
theorem keep4 (V : Valuation τ sig (Elt F)) (r : Ref sig .tc) (hr : r ∉ L4) :
    StableHlo.after hostOps4 V (Proc.devRef .tc r) = V (Proc.devRef .tc r) :=
  StableHlo.after_of_writes_sub hostOps4 V hW4 hr

/-- The buffers stretch 5 writes. -/
abbrev L5 : List (Ref sig .tc) := [main_v51, main_v52]
theorem hW5 : (hostOps5 : List (HloOp τ sig (Elt F))).Forall fun op => op.writes ⊆ (L5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map.mpr ⟨_, by decide, rfl⟩)
/-- Stretch 5 leaves a buffer outside that list as it was. -/
theorem keep5 (V : Valuation τ sig (Elt F)) (r : Ref sig .tc) (hr : r ∉ L5) :
    StableHlo.after hostOps5 V (Proc.devRef .tc r) = V (Proc.devRef .tc r) :=
  StableHlo.after_of_writes_sub hostOps5 V hW5 hr

end Keep

section RegionKeep
variable {F : FTy → Type} [FloatOps F]
variable (m : (ℓ : Loc nD τ sig) → Buf (Elt F) ℓ) (ρ : Dev nD → PrngReg) (c : Dev nD)

/-! ## What a launch leaves alone: every buffer but its output arrays (a buffer that is none of its arrays is not
    touched; an input array is only read) -/

theorem reg0_keep (b : Ref sig .tc) (hb : b ≠ main_v12) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
  · exact W2_of_ne m ρ c b (fun w e => h ⟨w, e⟩)

theorem reg1_keep (b : Ref sig .tc) (hb : b ≠ main_v24) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact absurd rfl hb
  · exact W4_of_ne m ρ c b (fun w e => h ⟨w, e⟩)

theorem reg2_keep (b : Ref sig .tc) (hb : b ≠ main_v36) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact (W6_arr m ρ c 4).trans (((dat2 (V5 m ρ) c).arrAt_in 4 rfl _).trans (A_eq2 (V5 m ρ) c 4))
    | ⟨5, _⟩ => exact absurd rfl hb
  · exact W6_of_ne m ρ c b (fun w e => h ⟨w, e⟩)

theorem reg3_keep (b : Ref sig .tc) (hb : b ≠ main_v48) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact absurd rfl hb
  · exact W8_of_ne m ρ c b (fun w e => h ⟨w, e⟩)

theorem reg4_keep (b : Ref sig .tc) (hb : b ≠ main_v50_0 ∧ b ≠ main_v50_1) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact absurd rfl hb.1
    | ⟨3, _⟩ => exact absurd rfl hb.2
  · exact W10_of_ne m ρ c b (fun w e => h ⟨w, e⟩)

theorem reg5_keep (b : Ref sig .tc) (hb : b ≠ main_v53) :
    W12 m ρ c (Proc.devRef .tc b) = W11 m ρ c (Proc.devRef .tc b) := by
  by_cases h : ∃ w, Pipeline.arrRef spec5 w = b
  · obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (W12_arr m ρ c 3).trans (((dat5 (V11 m ρ) c).arrAt_in 3 rfl _).trans (A_eq5 (V11 m ρ) c 3))
    | ⟨4, _⟩ => exact (W12_arr m ρ c 4).trans (((dat5 (V11 m ρ) c).arrAt_in 4 rfl _).trans (A_eq5 (V11 m ρ) c 4))
    | ⟨5, _⟩ => exact (W12_arr m ρ c 5).trans (((dat5 (V11 m ρ) c).arrAt_in 5 rfl _).trans (A_eq5 (V11 m ρ) c 5))
    | ⟨6, _⟩ => exact absurd rfl hb
  · exact W12_of_ne m ρ c b (fun w e => h ⟨w, e⟩)

end RegionKeep

section First
variable {F : FTy → Type} [FloatOps F]
variable (m : (ℓ : Loc nD τ sig) → Buf (Elt F) ℓ) (ρ : Dev nD → PrngReg) (c : Dev nD)

/-! ## After the first stretch: the id arrays, d, and the arguments as launched -/

theorem W1_v1 : W1 m ρ c (Proc.devRef .tc main_v1) = KH.srcOf (m ((c : Thread nD τ).loc main_arg1)) := by
  show StableHlo.after hostOps0 (W0 m ρ c) (Proc.devRef .tc main_v1) = _
  after_results; rfl

theorem W1_v3 : W1 m ρ c (Proc.devRef .tc main_v3) = KH.dstOf (m ((c : Thread nD τ).loc main_arg1)) := by
  show StableHlo.after hostOps0 (W0 m ρ c) (Proc.devRef .tc main_v3) = _
  after_results; rfl

theorem W1_v11 : W1 m ρ c (Proc.devRef .tc main_v11) = KH.dcolOf (m ((c : Thread nD τ).loc main_arg1)) := by
  show StableHlo.after hostOps0 (W0 m ρ c) (Proc.devRef .tc main_v11) = _
  after_results; rfl

/-- An argument is not written by the first stretch. -/
theorem W1_arg (r : Ref sig .tc) (hr : r ∉ L0) :
    W1 m ρ c (Proc.devRef .tc r) = m ((c : Thread nD τ).loc r) :=
  keep0 (W0 m ρ c) r hr

end First

section Computed
variable {F : FTy → Type} [FloatOps F]
variable (V : Valuation τ sig (Elt F))

/-! ## What the later stretches compute, from the contents they start from -/

theorem host1_v22 : StableHlo.after hostOps1 V (Proc.devRef .tc main_v22)
    = KH.aggSD (V (Proc.devRef .tc main_v12)) (V (Proc.devRef .tc main_v1)) (V (Proc.devRef .tc main_v3)) := by
  after_results; rfl
theorem host1_v23 : StableHlo.after hostOps1 V (Proc.devRef .tc main_v23) = KH.row128 (V (Proc.devRef .tc main_arg4)) := by
  after_results; rfl
theorem host2_v34 : StableHlo.after hostOps2 V (Proc.devRef .tc main_v34)
    = KH.aggSD (V (Proc.devRef .tc main_v24)) (V (Proc.devRef .tc main_v1)) (V (Proc.devRef .tc main_v3)) := by
  after_results; rfl
theorem host2_v35 : StableHlo.after hostOps2 V (Proc.devRef .tc main_v35) = KH.row128 (V (Proc.devRef .tc main_arg6)) := by
  after_results; rfl
theorem host3_v46 : StableHlo.after hostOps3 V (Proc.devRef .tc main_v46)
    = KH.aggSD (V (Proc.devRef .tc main_v36)) (V (Proc.devRef .tc main_v1)) (V (Proc.devRef .tc main_v3)) := by
  after_results; rfl
theorem host3_v47 : StableHlo.after hostOps3 V (Proc.devRef .tc main_v47) = KH.row128 (V (Proc.devRef .tc main_arg8)) := by
  after_results; rfl
theorem host4_v49 : StableHlo.after hostOps4 V (Proc.devRef .tc main_v49) = KH.bcolOf (V (Proc.devRef .tc main_arg2)) := by
  after_results; rfl
theorem host5_v51 : StableHlo.after hostOps5 V (Proc.devRef .tc main_v51) = KH.row64 (V (Proc.devRef .tc main_arg10)) := by
  after_results; rfl
theorem host5_v52 : StableHlo.after hostOps5 V (Proc.devRef .tc main_v52) = KH.row8 (V (Proc.devRef .tc main_arg12)) := by
  after_results; rfl

end Computed

section Persist
variable {F : FTy → Type} [FloatOps F]
variable (m : (ℓ : Loc nD τ sig) → Buf (Elt F) ℓ) (ρ : Dev nD → PrngReg) (c : Dev nD)

/-! ## The buffers nothing writes after the first stretch: the arguments, the two id arrays and d -/

abbrev Pl : List (Ref sig .tc) :=
  [main_arg0, main_arg1, main_arg2, main_arg3, main_arg4, main_arg5, main_arg6, main_arg7, main_arg8, main_arg9,
   main_arg10, main_arg11, main_arg12, main_v1, main_v3, main_v11]

theorem Pl_L1 : ∀ r ∈ Pl, r ∉ L1 := by decide
theorem Pl_L2 : ∀ r ∈ Pl, r ∉ L2 := by decide
theorem Pl_L3 : ∀ r ∈ Pl, r ∉ L3 := by decide
theorem Pl_L4 : ∀ r ∈ Pl, r ∉ L4 := by decide
theorem Pl_L5 : ∀ r ∈ Pl, r ∉ L5 := by decide
theorem Pl_out : ∀ r ∈ Pl, r ≠ main_v12 ∧ r ≠ main_v24 ∧ r ≠ main_v36 ∧ r ≠ main_v48 ∧ r ≠ main_v50_0 ∧ r ≠ main_v50_1 := by
  decide

variable (r : Ref sig .tc) (hr : r ∈ Pl)
include hr

theorem persist2 : W2 m ρ c (Proc.devRef .tc r) = W1 m ρ c (Proc.devRef .tc r) :=
  reg0_keep m ρ c r (Pl_out r hr).1
theorem persist3 : W3 m ρ c (Proc.devRef .tc r) = W1 m ρ c (Proc.devRef .tc r) :=
  (keep1 (W2 m ρ c) r (Pl_L1 r hr)).trans (persist2 m ρ c r hr)
theorem persist4 : W4 m ρ c (Proc.devRef .tc r) = W1 m ρ c (Proc.devRef .tc r) :=
  (reg1_keep m ρ c r (Pl_out r hr).2.1).trans (persist3 m ρ c r hr)
theorem persist5 : W5 m ρ c (Proc.devRef .tc r) = W1 m ρ c (Proc.devRef .tc r) :=
  (keep2 (W4 m ρ c) r (Pl_L2 r hr)).trans (persist4 m ρ c r hr)
theorem persist6 : W6 m ρ c (Proc.devRef .tc r) = W1 m ρ c (Proc.devRef .tc r) :=
  (reg2_keep m ρ c r (Pl_out r hr).2.2.1).trans (persist5 m ρ c r hr)
theorem persist7 : W7 m ρ c (Proc.devRef .tc r) = W1 m ρ c (Proc.devRef .tc r) :=
  (keep3 (W6 m ρ c) r (Pl_L3 r hr)).trans (persist6 m ρ c r hr)
theorem persist8 : W8 m ρ c (Proc.devRef .tc r) = W1 m ρ c (Proc.devRef .tc r) :=
  (reg3_keep m ρ c r (Pl_out r hr).2.2.2.1).trans (persist7 m ρ c r hr)
theorem persist9 : W9 m ρ c (Proc.devRef .tc r) = W1 m ρ c (Proc.devRef .tc r) :=
  (keep4 (W8 m ρ c) r (Pl_L4 r hr)).trans (persist8 m ρ c r hr)
theorem persist10 : W10 m ρ c (Proc.devRef .tc r) = W1 m ρ c (Proc.devRef .tc r) :=
  (reg4_keep m ρ c r (Pl_out r hr).2.2.2.2).trans (persist9 m ρ c r hr)
theorem persist11 : W11 m ρ c (Proc.devRef .tc r) = W1 m ρ c (Proc.devRef .tc r) :=
  (keep5 (W10 m ρ c) r (Pl_L5 r hr)).trans (persist10 m ρ c r hr)

end Persist

section Walk
variable (m : (ℓ : Loc nD τ sig) → Buf (Elt Ideal) ℓ) (ρ : Dev nD → PrngReg) (c : Dev nD)

/-! ## From the last boundary back to the launch contents, on the extended reals -/

/-! ### Layer 1's scaled table: launch 0's output -/

theorem W2_main_v12 : (W2 m ρ c (Proc.devRef .tc main_v12)) = (KH.T1 (m ((c : Thread nD τ).loc main_arg0)) (m ((c : Thread nD τ).loc main_arg1)) (m ((c : Thread nD τ).loc main_arg3))) := by
  refine ((W2_arr m ρ c 3).trans (Reg0.final0 (V1 m ρ) c)).trans ?_
  show KV.lin (W1 m ρ c (Proc.devRef .tc main_arg0)) (W1 m ρ c (Proc.devRef .tc main_arg3)) (W1 m ρ c (Proc.devRef .tc main_v11)) = _
  rw [W1_arg m ρ c main_arg0 (by decide), W1_arg m ρ c main_arg3 (by decide), W1_v11 m ρ c]
  rfl

/-! ### Layer 1: the aggregate of the scaled table, the bias row, and launch 1's output -/

theorem W3_main_v12 : (W3 m ρ c (Proc.devRef .tc main_v12)) = (KH.T1 (m ((c : Thread nD τ).loc main_arg0)) (m ((c : Thread nD τ).loc main_arg1)) (m ((c : Thread nD τ).loc main_arg3))) :=
  (keep1 (W2 m ρ c) main_v12 (by decide)).trans (W2_main_v12 m ρ c)

theorem W3_main_v22 : (W3 m ρ c (Proc.devRef .tc main_v22)) = KH.aggOf (KH.T1 (m ((c : Thread nD τ).loc main_arg0)) (m ((c : Thread nD τ).loc main_arg1)) (m ((c : Thread nD τ).loc main_arg3))) (m ((c : Thread nD τ).loc main_arg1)) := by
  show StableHlo.after hostOps1 (W2 m ρ c) (Proc.devRef .tc main_v22) = _
  rw [host1_v22, W2_main_v12 m ρ c, persist2 m ρ c main_v1 (by decide), W1_v1 m ρ c, persist2 m ρ c main_v3 (by decide), W1_v3 m ρ c]
  rfl

theorem W3_main_v23 : (W3 m ρ c (Proc.devRef .tc main_v23)) = KH.row128 (m ((c : Thread nD τ).loc main_arg4)) := by
  show StableHlo.after hostOps1 (W2 m ρ c) (Proc.devRef .tc main_v23) = _
  rw [host1_v23, persist2 m ρ c main_arg4 (by decide), W1_arg m ρ c main_arg4 (by decide)]

theorem W4_main_v24 : (W4 m ρ c (Proc.devRef .tc main_v24)) = (KH.T2 (m ((c : Thread nD τ).loc main_arg0)) (m ((c : Thread nD τ).loc main_arg1)) (m ((c : Thread nD τ).loc main_arg3)) (m ((c : Thread nD τ).loc main_arg4)) (m ((c : Thread nD τ).loc main_arg5))) := by
  refine ((W4_arr m ρ c 5).trans (Reg1.final1 (V3 m ρ) c)).trans ?_
  show KV.finLin (W3 m ρ c (Proc.devRef .tc main_v22)) (W3 m ρ c (Proc.devRef .tc main_v12)) (W3 m ρ c (Proc.devRef .tc main_v11)) (W3 m ρ c (Proc.devRef .tc main_v23)) (W3 m ρ c (Proc.devRef .tc main_arg5)) = _
  rw [W3_main_v22 m ρ c, W3_main_v12 m ρ c, persist3 m ρ c main_v11 (by decide), W1_v11 m ρ c, W3_main_v23 m ρ c, persist3 m ρ c main_arg5 (by decide), W1_arg m ρ c main_arg5 (by decide)]
  rfl

/-! ### Layer 2: the aggregate of the scaled table, the bias row, and launch 2's output -/

theorem W5_main_v24 : (W5 m ρ c (Proc.devRef .tc main_v24)) = (KH.T2 (m ((c : Thread nD τ).loc main_arg0)) (m ((c : Thread nD τ).loc main_arg1)) (m ((c : Thread nD τ).loc main_arg3)) (m ((c : Thread nD τ).loc main_arg4)) (m ((c : Thread nD τ).loc main_arg5))) :=
  (keep2 (W4 m ρ c) main_v24 (by decide)).trans (W4_main_v24 m ρ c)

theorem W5_main_v34 : (W5 m ρ c (Proc.devRef .tc main_v34)) = KH.aggOf (KH.T2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps2 (W4 m ρ c) (Proc.devRef .tc main_v34) = _
  rw [host2_v34, W4_main_v24 m ρ c, persist4 m ρ c main_v1 (by decide), W1_v1 m ρ c, persist4 m ρ c main_v3 (by decide), W1_v3 m ρ c]
  rfl

theorem W5_main_v35 : (W5 m ρ c (Proc.devRef .tc main_v35)) = KH.row128 (m ((c : Thread nD τ).loc main_arg6)) := by
  show StableHlo.after hostOps2 (W4 m ρ c) (Proc.devRef .tc main_v35) = _
  rw [host2_v35, persist4 m ρ c main_arg6 (by decide), W1_arg m ρ c main_arg6 (by decide)]

theorem W6_main_v36 : (W6 m ρ c (Proc.devRef .tc main_v36)) = (KH.T3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine ((W6_arr m ρ c 5).trans (Reg2.final2 (V5 m ρ) c)).trans ?_
  show KV.finLin (W5 m ρ c (Proc.devRef .tc main_v34)) (W5 m ρ c (Proc.devRef .tc main_v24)) (W5 m ρ c (Proc.devRef .tc main_v11)) (W5 m ρ c (Proc.devRef .tc main_v35)) (W5 m ρ c (Proc.devRef .tc main_arg7)) = _
  rw [W5_main_v34 m ρ c, W5_main_v24 m ρ c, persist5 m ρ c main_v11 (by decide), W1_v11 m ρ c, W5_main_v35 m ρ c, persist5 m ρ c main_arg7 (by decide), W1_arg m ρ c main_arg7 (by decide)]
  rfl

/-! ### Layer 3: the aggregate of the scaled table, the bias row, and launch 3's output -/

theorem W7_main_v36 : (W7 m ρ c (Proc.devRef .tc main_v36)) = (KH.T3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (keep3 (W6 m ρ c) main_v36 (by decide)).trans (W6_main_v36 m ρ c)

theorem W7_main_v46 : (W7 m ρ c (Proc.devRef .tc main_v46)) = KH.aggOf (KH.T3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) := by
  show StableHlo.after hostOps3 (W6 m ρ c) (Proc.devRef .tc main_v46) = _
  rw [host3_v46, W6_main_v36 m ρ c, persist6 m ρ c main_v1 (by decide), W1_v1 m ρ c, persist6 m ρ c main_v3 (by decide), W1_v3 m ρ c]
  rfl

theorem W7_main_v47 : (W7 m ρ c (Proc.devRef .tc main_v47)) = KH.row128 (m ((c : Thread nD τ).loc main_arg8)) := by
  show StableHlo.after hostOps3 (W6 m ρ c) (Proc.devRef .tc main_v47) = _
  rw [host3_v47, persist6 m ρ c main_arg8 (by decide), W1_arg m ρ c main_arg8 (by decide)]

theorem W8_main_v48 : (W8 m ρ c (Proc.devRef .tc main_v48)) = (KH.feat (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine ((W8_arr m ρ c 4).trans (Reg3.final3 (V7 m ρ) c)).trans ?_
  show KV.fin (W7 m ρ c (Proc.devRef .tc main_v46)) (W7 m ρ c (Proc.devRef .tc main_v36)) (W7 m ρ c (Proc.devRef .tc main_v11)) (W7 m ρ c (Proc.devRef .tc main_v47)) = _
  rw [W7_main_v46 m ρ c, W7_main_v36 m ρ c, persist7 m ρ c main_v11 (by decide), W1_v11 m ρ c, W7_main_v47 m ρ c]
  rfl

/-! ### Pooling: launch 4's two outputs -/

theorem W9_main_v48 : (W9 m ρ c (Proc.devRef .tc main_v48)) = (KH.feat (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (keep4 (W8 m ρ c) main_v48 (by decide)).trans (W8_main_v48 m ρ c)

theorem W9_main_v49 : (W9 m ρ c (Proc.devRef .tc main_v49)) = KH.bcolOf (m ((c : Thread nD τ).loc main_arg2)) := by
  show StableHlo.after hostOps4 (W8 m ρ c) (Proc.devRef .tc main_v49) = _
  rw [host4_v49, persist8 m ρ c main_arg2 (by decide), W1_arg m ρ c main_arg2 (by decide)]

theorem W10_main_v50_0 : (W10 m ρ c (Proc.devRef .tc main_v50_0)) = KV.poolSum (KH.feat (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (KH.bcolOf (m ((c : Thread nD τ).loc main_arg2))) := by
  refine ((W10_arr m ρ c 2).trans (Reg4.final4_sum (V9 m ρ) c)).trans ?_
  show KV.poolSum (W9 m ρ c (Proc.devRef .tc main_v48)) (W9 m ρ c (Proc.devRef .tc main_v49)) = _
  rw [W9_main_v48 m ρ c, W9_main_v49 m ρ c]

theorem W10_main_v50_1 : (W10 m ρ c (Proc.devRef .tc main_v50_1)) = KV.poolCnt (KH.bcolOf (m ((c : Thread nD τ).loc main_arg2))) := by
  refine ((W10_arr m ρ c 3).trans (Reg4.final4_cnt (V9 m ρ) c)).trans ?_
  show KV.poolCnt (W9 m ρ c (Proc.devRef .tc main_v49)) = _
  rw [W9_main_v49 m ρ c]

/-! ### The classifier: launch 5's output, the program's result -/

theorem W11_main_v51 : (W11 m ρ c (Proc.devRef .tc main_v51)) = KH.row64 (m ((c : Thread nD τ).loc main_arg10)) := by
  show StableHlo.after hostOps5 (W10 m ρ c) (Proc.devRef .tc main_v51) = _
  rw [host5_v51, persist10 m ρ c main_arg10 (by decide), W1_arg m ρ c main_arg10 (by decide)]

theorem W11_main_v52 : (W11 m ρ c (Proc.devRef .tc main_v52)) = KH.row8 (m ((c : Thread nD τ).loc main_arg12)) := by
  show StableHlo.after hostOps5 (W10 m ρ c) (Proc.devRef .tc main_v52) = _
  rw [host5_v52, persist10 m ρ c main_arg12 (by decide), W1_arg m ρ c main_arg12 (by decide)]

theorem W11_main_v50_0 : (W11 m ρ c (Proc.devRef .tc main_v50_0)) = KV.poolSum (KH.feat (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (KH.bcolOf (m ((c : Thread nD τ).loc main_arg2))) :=
  (keep5 (W10 m ρ c) main_v50_0 (by decide)).trans (W10_main_v50_0 m ρ c)

theorem W11_main_v50_1 : (W11 m ρ c (Proc.devRef .tc main_v50_1)) = KV.poolCnt (KH.bcolOf (m ((c : Thread nD τ).loc main_arg2))) :=
  (keep5 (W10 m ρ c) main_v50_1 (by decide)).trans (W10_main_v50_1 m ρ c)

/-- The result buffer at the last boundary is the program's function of the thirteen argument arrays. -/
theorem W12_main_v53 : (W12 m ρ c (Proc.devRef .tc main_v53)) = (KH.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine ((W12_arr m ρ c 6).trans (Reg5.final5 (V11 m ρ) c)).trans ?_
  show KV.cls (W11 m ρ c (Proc.devRef .tc main_v50_0)) (W11 m ρ c (Proc.devRef .tc main_v50_1)) (W11 m ρ c (Proc.devRef .tc main_arg9)) (W11 m ρ c (Proc.devRef .tc main_v51)) (W11 m ρ c (Proc.devRef .tc main_arg11)) (W11 m ρ c (Proc.devRef .tc main_v52)) = _
  rw [W11_main_v50_0 m ρ c, W11_main_v50_1 m ρ c,
    persist11 m ρ c main_arg9 (by decide), W1_arg m ρ c main_arg9 (by decide), W11_main_v51 m ρ c, persist11 m ρ c main_arg11 (by decide), W1_arg m ρ c main_arg11 (by decide), W11_main_v52 m ρ c]
  rfl

end Walk

end Cert.KernelIdeal.KChain

end
-- ==== Proof.RefValue.lean ====
/-
  The reference program's stages, regrouped by what they are in a graph convolution network. One layer is the same
  function of its product H = X W in all three layers: the scatter-sum by destination of (the rows of H gathered by
  source, each scaled by the edge's normaliser deg_src^(-1/2) · deg_dst^(-1/2)), plus H scaled row by row by 1/deg,
  plus the bias. Between layers the result is clipped at 0 and multiplied by the next weight matrix. After the third
  layer the clipped features are summed per graph, divided by max(count, 1), and passed through the two-layer
  classifier. The generated stage-by-stage reading of the program is imported; each lemma here says which of those
  stages is which of these functions (the two sides are the same operations, so they are equal by definition).
-/
import proofs.«429220_j1795296329975_3_alg».proof.Proof.Gen.ReferenceIdeal.Run
import proofs.«429220_j1795296329975_3_alg».proof.Proof.Gen.ReferenceIdeal.Read

noncomputable section

namespace Cert.ReferenceIdeal.RefValue

open Idealize.ShloMosaic Cert.ReferenceIdeal Cert.ReferenceIdeal.Read Cert.ReferenceIdeal.Facts₀ Cert.ReferenceIdeal.Facts

variable {F : FTy → Type} [FloatOps F]

/-- An array of floats over a shape. -/
abbrev F32 (S : Shape) : Type := (⟨S, .f32⟩ : BufTy).Contents (Elt F)
/-- An array of 32-bit integers over a shape. -/
abbrev I32 (S : Shape) : Type := (⟨S, .i32⟩ : BufTy).Contents (Elt F)

/-- One layer before clipping, as a function of its product H. -/
def rLayer (H : F32 (F := F) S100000x128) (x1 : I32 (F := F) S2x1600000) (b : F32 (F := F) S128) : F32 (F := F) S100000x128 :=
  addf (addf
      (Host.scatterAdd scatter_S100000x128_S1600000x1_S1600000x128_1_0_0_1 (val_main_v39 (F := F)) (val_main_v40 (F := F) x1)
        (mulf (Host.gather gather_S100000x128_S1600000x1_S1600000x128_1_0_n_n_0_1_1128 H (val_main_v34 (F := F) x1))
          (val_main_v37 (F := F) x1)))
      (mulf H (val_main_v43 (F := F) x1)))
    (val_main_v47 (F := F) b)

/-- Clipping at 0. -/
def relu (Z : F32 (F := F) S100000x128) : F32 (F := F) S100000x128 := maximumf Z (val_main_call0_v0 (F := F))

/-- The product with a 128 × 128 weight matrix. -/
def prod128 (Y : F32 (F := F) S100000x128) (w : F32 (F := F) S128x128) : F32 (F := F) S100000x128 :=
  Host.dotGeneral dot_S100000x128_S128x128_S100000x128_1_0_0_1_n_n none Y w

/-- The per-graph sums of the rows of h. -/
def pool (h : F32 (F := F) S100000x128) (x2 : I32 (F := F) S100000) : F32 (F := F) S256x128 :=
  Host.scatterAdd scatter_S256x128_S100000x1_S100000x128_1_0_0_1 (val_main_v94 (F := F)) (val_main_v95 (F := F) x2) h

/-- The classifier on the per-graph sums: divide by max(count, 1), two layers. -/
def tail (S : F32 (F := F) S256x128) (x2 : I32 (F := F) S100000) (x9 : F32 (F := F) S128x64) (x10 : F32 (F := F) S64)
    (x11 : F32 (F := F) S64x8) (x12 : F32 (F := F) S8) : F32 (F := F) S256x8 :=
  addf (Host.dotGeneral dot_S256x64_S64x8_S256x8_1_0_0_1_n_n none
      (maximumf (addf (Host.dotGeneral dot_S256x128_S128x64_S256x64_1_0_0_1_n_n none (Host.divf S (val_main_v104 (F := F) x2)) x9)
          (val_main_v108 (F := F) x10)) (val_main_call3_v0 (F := F))) x11)
    (val_main_v113 (F := F) x12)

section Stages
variable (x0 : F32 (F := F) S100000x128) (x1 : I32 (F := F) S2x1600000) (x2 : I32 (F := F) S100000)
  (x3 : F32 (F := F) S128x128) (x4 : F32 (F := F) S128) (x5 : F32 (F := F) S128x128) (x6 : F32 (F := F) S128)
  (x7 : F32 (F := F) S128x128) (x8 : F32 (F := F) S128) (x9 : F32 (F := F) S128x64) (x10 : F32 (F := F) S64)
  (x11 : F32 (F := F) S64x8) (x12 : F32 (F := F) S8)

theorem v28_eq : val_main_v28 (F := F) x0 x3 = prod128 x0 x3 := rfl
theorem v48_eq : val_main_v48 (F := F) x0 x1 x3 x4 = rLayer (val_main_v28 (F := F) x0 x3) x1 x4 := rfl
theorem v50_eq : val_main_v50 (F := F) x0 x1 x3 x4 x5 = prod128 (relu (val_main_v48 (F := F) x0 x1 x3 x4)) x5 := rfl
theorem v70_eq : val_main_v70 (F := F) x0 x1 x3 x4 x5 x6 = rLayer (val_main_v50 (F := F) x0 x1 x3 x4 x5) x1 x6 := rfl
theorem v72_eq : val_main_v72 (F := F) x0 x1 x3 x4 x5 x6 x7 = prod128 (relu (val_main_v70 (F := F) x0 x1 x3 x4 x5 x6)) x7 := rfl
theorem v92_eq : val_main_v92 (F := F) x0 x1 x3 x4 x5 x6 x7 x8 = rLayer (val_main_v72 (F := F) x0 x1 x3 x4 x5 x6 x7) x1 x8 := rfl
theorem v93_eq : val_main_v93 (F := F) x0 x1 x3 x4 x5 x6 x7 x8 = relu (val_main_v92 (F := F) x0 x1 x3 x4 x5 x6 x7 x8) := rfl
theorem v96_eq : val_main_v96 (F := F) x0 x1 x2 x3 x4 x5 x6 x7 x8 = pool (val_main_v93 (F := F) x0 x1 x3 x4 x5 x6 x7 x8) x2 := rfl
theorem v114_eq : val_main_v114 (F := F) x0 x1 x2 x3 x4 x5 x6 x7 x8 x9 x10 x11 x12
    = tail (val_main_v96 (F := F) x0 x1 x2 x3 x4 x5 x6 x7 x8) x2 x9 x10 x11 x12 := rfl

end Stages

end Cert.ReferenceIdeal.RefValue

end
-- ==== Proof.LibRowScatter.lean ====
/-
  StableHLO's gather and scatter read at an index, for the three index patterns that a row lookup `table[rows]`, a
  segment sum and a histogram lower to: rows of a rank-2 operand selected by one column of start indices.
-/
import Idealize.ShloMosaic.PureOps.ShapeOps
import Idealize.ShloMosaic.Lib.ValueIdx
import Mathlib.Data.Fintype.Card
import Mathlib.Data.List.Count

namespace Cert.LibRowScatter

open Idealize.ShloMosaic Idealize.ShloMosaic.ValueIdx

/-! ## Row gather -/

/-- The dimension numbers of a row lookup: operand `[R, C]`, start indices `[N, 1]`, result `[N, C]`; the result's
    axis 1 is the offset axis, the operand's axis 0 is collapsed and is the one the start index names, slices are
    `[1, C]`. -/
abbrev rowGatherDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-- The row gather read at `(n, k)`: when the start index `idx[n, 0]`, read signed, is the row `r` of the operand, the
    result element is the operand's element `(r, k)`. -/
theorem rowGather_apply {R C N w : Nat}
    (wf : GatherDims.WF ⟨2, ![R, C]⟩ ⟨2, ![N, 1]⟩ ⟨2, ![N, C]⟩ [1] [0] [] [0] [] 1 ![1, C]) {α : Type}
    (x : (⟨2, ![R, C]⟩ : Shape).Idx → α) (idx : IVec ⟨2, ![N, 1]⟩ w) (n : Fin N) (k : Fin C) (r : Fin R)
    (hr : (idx (ix2 n 0)).toInt = (r.val : Int)) :
    Host.gather (rowGatherDims R C N wf) x idx (ix2 n k) = x (ix2 r k) := by
  unfold Host.gather
  congr 1
  -- the collapsed axis: the start index, inside the operand so not moved by the clamp, and no offset
  have h0 : (rowGatherDims R C N wf).start (ix2 n k) idx (0 : Fin 2) + (rowGatherDims R C N wf).batchCoord (ix2 n k) (0 : Fin 2)
      + (rowGatherDims R C N wf).offCoord (ix2 n k) (0 : Fin 2) = r.val := by
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims R C N wf).startIndexMap from List.mem_singleton.mpr rfl)]
    have hsi : (rowGatherDims R C N wf).siIdx (ix2 n k) ⟨List.idxOf (0 : Fin 2) (rowGatherDims R C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hr]
    show min (r.val : Int).toNat (R - 1) = r.val
    have := r.isLt
    rw [Int.toNat_natCast]; omega
  -- the offset axis: start 0, the offset is the result's column
  have h1 : (rowGatherDims R C N wf).start (ix2 n k) idx (1 : Fin 2) + (rowGatherDims R C N wf).batchCoord (ix2 n k) (1 : Fin 2)
      + (rowGatherDims R C N wf).offCoord (ix2 n k) (1 : Fin 2) = k.val := by
    rw [GatherDims.batchCoord_eq_zero _ _ _ List.not_mem_nil, Nat.add_zero]
    unfold GatherDims.start
    rw [dif_neg (show ¬ (1 : Fin 2) ∈ ([0] : List (Fin 2)) by decide), Nat.zero_add]
    unfold GatherDims.offCoord
    rw [dif_pos ((GatherDims.mem_sKept _ _).mpr
      ⟨(show (1 : Fin 2) ∉ ([0] : List (Fin 2)) by decide), List.not_mem_nil⟩)]
    rfl
  funext a
  refine Fin.ext ?_
  match a with
  | ⟨0, _⟩ => exact h0
  | ⟨1, _⟩ => exact h1

/-! ## Where an update lands, in general -/

/-- An update index lands at `i` exactly when, on every axis of the operand, the start read off the scatter indices
    plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := congrFun (Option.some.inj e) a
      have e'' := congrArg Fin.val e'
      simp only at e''
      have := h a
      omega
    · intro e
      congr 1
      funext a
      refine Fin.ext ?_
      have := e a
      show (d.start j idx a + (d.window j a : Int)).toNat = (i a).val
      omega
  · constructor
    · intro e; cases e
    · intro e
      refine absurd (fun a => ?_) h
      have := e a
      have := (i a).isLt
      constructor <;> omega

/-! ## Row scatter -/

/-- The dimension numbers of a segment sum of rows: operand `[R, C]`, scatter indices `[N, 1]`, updates `[N, C]`; the
    updates' axis 1 is the window axis, the operand's axis 0 is inserted and is the one the scatter index names. -/
abbrev rowScatterDims (R C N : Nat)
    (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ :=
  { updateWindowDims := [1], insertedWindowDims := [0], scatterDimsToOperandDims := [0], indexVectorDim := 1, wf := wf }

/-- Where update `(n, k)` of a row scatter lands: at `(r, k')` exactly when the scatter index `idx[n, 0]`, read signed,
    is the row `r` and the column is kept. -/
theorem rowScatter_resultIdx {R C N w : Nat}
    (wf : ScatterDims.WF ⟨2, ![R, C]⟩ ⟨2, ![N, 1]⟩ ⟨2, ![N, C]⟩ [1] [0] [0] 1)
    (idx : IVec ⟨2, ![N, 1]⟩ w) (n : Fin N) (k : Fin C) (r : Fin R) (k' : Fin C) :
    (rowScatterDims R C N wf).resultIdx? (ix2 n k) idx = some (ix2 r k')
      ↔ ((idx (ix2 n 0)).toInt = (r.val : Int) ∧ k = k') := by
  rw [resultIdx?_eq_some_iff]
  -- on the inserted axis the start is the scatter index and there is no window coordinate
  have hs0 : (rowScatterDims R C N wf).start (ix2 n k) idx (0 : Fin 2) = (idx (ix2 n 0)).toInt := by
    unfold ScatterDims.start
    rw [dif_pos (show (0 : Fin 2) ∈ (rowScatterDims R C N wf).scatterDimsToOperandDims from List.mem_singleton.mpr rfl)]
    have hsi : (rowScatterDims R C N wf).siIdx (ix2 n k)
        ⟨List.idxOf (0 : Fin 2) (rowScatterDims R C N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 2) ∉ (rowScatterDims R C N wf).sKept := by simp [ScatterDims.sKept, Shape.kept]
  have hw0 : (rowScatterDims R C N wf).window (ix2 n k) (0 : Fin 2) = 0 := by
    unfold ScatterDims.window
    rw [dif_neg hk0]
  -- on the window axis the start is 0 and the window coordinate is the update's column
  have hs1 : (rowScatterDims R C N wf).start (ix2 n k) idx (1 : Fin 2) = 0 := by
    unfold ScatterDims.start
    rw [dif_neg (show ¬ (1 : Fin 2) ∈ ([0] : List (Fin 2)) by decide)]
  have hk1 : (1 : Fin 2) ∈ (rowScatterDims R C N wf).sKept := by simp [ScatterDims.sKept, Shape.kept]
  have hw1 : (rowScatterDims R C N wf).window (ix2 n k) (1 : Fin 2) = k.val := by
    unfold ScatterDims.window
    rw [dif_pos hk1]
    rfl
  constructor
  · intro h
    have e0 := h (0 : Fin 2)
    have e1 := h (1 : Fin 2)
    rw [hs0, hw0] at e0
    rw [hs1, hw1] at e1
    change _ + ((0 : Nat) : Int) = (r.val : Int) at e0
    change (0 : Int) + (k.val : Int) = (k'.val : Int) at e1
    exact ⟨by omega, Fin.ext (by omega)⟩
  · rintro ⟨h1, rfl⟩
    have e0 : (rowScatterDims R C N wf).start (ix2 n k) idx (0 : Fin 2)
        + ((rowScatterDims R C N wf).window (ix2 n k) (0 : Fin 2) : Int) = (r.val : Int) := by
      rw [hs0, hw0, h1]; simp
    have e1 : (rowScatterDims R C N wf).start (ix2 n k) idx (1 : Fin 2)
        + ((rowScatterDims R C N wf).window (ix2 n k) (1 : Fin 2) : Int) = (k.val : Int) := by
      rw [hs1, hw1]; simp
    intro a
    match a with
    | ⟨0, _⟩ => exact e0
    | ⟨1, _⟩ => exact e1

/-! ## Cell scatter -/

/-- The dimension numbers of a histogram: operand `[R]`, scatter indices `[N, 1]`, updates `[N]`; no window axis, the
    operand's only axis is inserted and is the one the scatter index names. -/
abbrev cellScatterDims (R N : Nat)
    (wf : ScatterDims.WF ⟨1, ![R]⟩ ⟨2, ![N, 1]⟩ ⟨1, ![N]⟩ [] [0] [0] 1) :
    ScatterDims ⟨1, ![R]⟩ ⟨2, ![N, 1]⟩ ⟨1, ![N]⟩ :=
  { updateWindowDims := [], insertedWindowDims := [0], scatterDimsToOperandDims := [0], indexVectorDim := 1, wf := wf }

/-- Where update `n` of a cell scatter lands: at the cell `r` exactly when the scatter index `idx[n, 0]`, read signed,
    is `r`. -/
theorem cellScatter_resultIdx {R N w : Nat}
    (wf : ScatterDims.WF ⟨1, ![R]⟩ ⟨2, ![N, 1]⟩ ⟨1, ![N]⟩ [] [0] [0] 1)
    (idx : IVec ⟨2, ![N, 1]⟩ w) (n : Fin N) (r : Fin R) :
    (cellScatterDims R N wf).resultIdx? (ix1 n) idx = some (ix1 r) ↔ (idx (ix2 n 0)).toInt = (r.val : Int) := by
  rw [resultIdx?_eq_some_iff]
  -- the only axis is inserted: the start is the scatter index and there is no window coordinate
  have hs0 : (cellScatterDims R N wf).start (ix1 n) idx (0 : Fin 1) = (idx (ix2 n 0)).toInt := by
    unfold ScatterDims.start
    rw [dif_pos (show (0 : Fin 1) ∈ (cellScatterDims R N wf).scatterDimsToOperandDims from List.mem_singleton.mpr rfl)]
    have hsi : (cellScatterDims R N wf).siIdx (ix1 n)
        ⟨List.idxOf (0 : Fin 1) (cellScatterDims R N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 1) ∉ (cellScatterDims R N wf).sKept := by simp [ScatterDims.sKept, Shape.kept]
  have hw0 : (cellScatterDims R N wf).window (ix1 n) (0 : Fin 1) = 0 := by
    unfold ScatterDims.window
    rw [dif_neg hk0]
  constructor
  · intro h
    have e0 := h (0 : Fin 1)
    rw [hs0, hw0] at e0
    change _ + ((0 : Nat) : Int) = (r.val : Int) at e0
    omega
  · intro h1
    have e0 : (cellScatterDims R N wf).start (ix1 n) idx (0 : Fin 1)
        + ((cellScatterDims R N wf).window (ix1 n) (0 : Fin 1) : Int) = (r.val : Int) := by
      rw [hs0, hw0, h1]; simp
    intro a
    match a with
    | ⟨0, _⟩ => exact e0

/-! ## A scatter-add of ones counts -/

/-- A left fold whose every step adds, at the element `i`, one when the step's item satisfies `p` and nothing
    otherwise, adds at `i` the number of items of the list that satisfy `p`. -/
theorem foldl_count {β ι : Type} (i : β) (G : (β → BitVec 32) → ι → (β → BitVec 32)) (p : ι → Prop)
    [DecidablePred p] (hG : ∀ r n, G r n i = r i + BitVec.ofNat 32 (if p n then 1 else 0)) :
    ∀ (L : List ι) (r : β → BitVec 32),
      (L.foldl G r) i = r i + BitVec.ofNat 32 (L.countP (fun n => decide (p n))) := by
  intro L
  induction L with
  | nil => intro r; simp
  | cons a L ih =>
    intro r
    rw [List.foldl_cons, ih, hG, List.countP_cons]
    by_cases h : p a
    · simp only [h, if_true, decide_true, BitVec.ofNat_add]
      ac_rfl
    · simp [h]

/-- Counting the positions of the row-major enumeration whose index satisfies a property counts the indices that
    satisfy it. -/
theorem countP_finRange_rowMajor (u : Shape) (p : u.Idx → Prop) [DecidablePred p] :
    (List.finRange u.numel).countP (fun n => decide (p (u.rowMajor.symm n)))
      = (Finset.univ.filter fun j : u.Idx => p j).card := by
  have h1 : (List.finRange u.numel).countP (fun n => decide (p (u.rowMajor.symm n)))
      = (Finset.univ.filter fun n : Fin u.numel => p (u.rowMajor.symm n)).card := by
    rw [List.countP_eq_length_filter]
    rfl
  rw [h1]
  exact Finset.card_equiv u.rowMajor.symm (by simp)

/-- An integer scatter-add of ones into zeros, with any dimension numbers, holds at each element the number of update
    indices that land there (as a 32-bit word). -/
theorem scatter_addi_ones {s si u : Shape} (d : ScatterDims s si u) {w : Nat} (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  rw [foldl_count i _ (fun n => d.resultIdx? (u.rowMajor.symm n) idx = some i) ?_ (List.finRange u.numel)
    (fun _ => (0#32 : BitVec 32))]
  · rw [countP_finRange_rowMajor u (fun j => d.resultIdx? j idx = some i)]
    simp
  · intro r n
    cases hres : d.resultIdx? (u.rowMajor.symm n) idx with
    | none => simp
    | some i0 =>
      by_cases hi : i = i0
      · subst hi
        simp [IntOp.addi]
      · have : ¬ i0 = i := fun e => hi e.symm
        simp [hi, this]

end Cert.LibRowScatter
-- ==== Proof.LibGraphSum.lean ====
/-
  Sums over the rows that a scatter index selects, on the extended reals: StableHLO's float scatter-add of rows and of
  cells read at an index as "the operand's element plus the sum of the updates whose scatter index names this row"; a
  row gather and a cell gather read at an index for ANY start index (StableHLO clamps it into the operand); and the
  two laws that move a non-negative real factor across such sums, with the reciprocal square root of a positive real.
-/
import proofs.«429220_j1795296329975_3_alg».proof.Proof.LibRowScatter
import Idealize.ShloMosaic.PureOps.Ideal
import Idealize.ShloMosaic.PureOps.Contract
import Idealize.ShloMosaic.Lib.ValueIdxRank1
import Mathlib.Data.EReal.Operations
import Mathlib.Algebra.BigOperators.Group.Finset.Basic

noncomputable section

namespace Cert.LibGraphSum

open Idealize.ShloMosaic Idealize.ShloMosaic.ValueIdx Cert.LibRowScatter

/-! ## A start index clamped into the operand -/

/-- The row a start index names after StableHLO's clamp: its signed value, negative values at row 0, values past the
    last row at the last row. -/
def clampRow (R : Nat) (hR : 0 < R) {w : Nat} (b : BitVec w) : Fin R :=
  ⟨min b.toInt.toNat (R - 1), by omega⟩

/-- A start index that is a row of the operand is not moved by the clamp. -/
theorem clampRow_of_toInt {R : Nat} (hR : 0 < R) {w : Nat} (b : BitVec w) (r : Fin R) (h : b.toInt = (r.val : Int)) :
    clampRow R hR b = r := by
  apply Fin.ext
  show min b.toInt.toNat (R - 1) = r.val
  have := r.isLt
  rw [h, Int.toNat_natCast]
  omega

/-- The row gather read at (n, k), whatever the start index: the operand's element at the clamped row. -/
theorem rowGather_clamp_apply {R C N w : Nat} (hR : 0 < R)
    (wf : GatherDims.WF ⟨2, ![R, C]⟩ ⟨2, ![N, 1]⟩ ⟨2, ![N, C]⟩ [1] [0] [] [0] [] 1 ![1, C]) {α : Type}
    (x : (⟨2, ![R, C]⟩ : Shape).Idx → α) (idx : IVec ⟨2, ![N, 1]⟩ w) (n : Fin N) (k : Fin C) :
    Host.gather (rowGatherDims R C N wf) x idx (ix2 n k) = x (ix2 (clampRow R hR (idx (ix2 n 0))) k) := by
  unfold Host.gather
  congr 1
  -- the collapsed axis: the start index clamped into [0, R - 1], no batching coordinate and no offset
  have h0 : (rowGatherDims R C N wf).start (ix2 n k) idx (0 : Fin 2) + (rowGatherDims R C N wf).batchCoord (ix2 n k) (0 : Fin 2)
      + (rowGatherDims R C N wf).offCoord (ix2 n k) (0 : Fin 2) = (clampRow R hR (idx (ix2 n 0))).val := by
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims R C N wf).startIndexMap from List.mem_singleton.mpr rfl)]
    have hsi : (rowGatherDims R C N wf).siIdx (ix2 n k) ⟨List.idxOf (0 : Fin 2) (rowGatherDims R C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  -- the offset axis: start 0, the offset is the result's column
  have h1 : (rowGatherDims R C N wf).start (ix2 n k) idx (1 : Fin 2) + (rowGatherDims R C N wf).batchCoord (ix2 n k) (1 : Fin 2)
      + (rowGatherDims R C N wf).offCoord (ix2 n k) (1 : Fin 2) = k.val := by
    rw [GatherDims.batchCoord_eq_zero _ _ _ List.not_mem_nil, Nat.add_zero]
    unfold GatherDims.start
    rw [dif_neg (show ¬ (1 : Fin 2) ∈ ([0] : List (Fin 2)) by decide), Nat.zero_add]
    unfold GatherDims.offCoord
    rw [dif_pos ((GatherDims.mem_sKept _ _).mpr
      ⟨(show (1 : Fin 2) ∉ ([0] : List (Fin 2)) by decide), List.not_mem_nil⟩)]
    rfl
  funext a
  refine Fin.ext ?_
  match a with
  | ⟨0, _⟩ => exact h0
  | ⟨1, _⟩ => exact h1

/-- The dimension numbers of a lookup of cells: operand [R], start indices [N, 1], result [N]; no offset axis, the
    operand's only axis is collapsed and is the one the start index names, slices are [1]. -/
abbrev cellGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ :=
  { offsetDims := [], collapsedSliceDims := [0], operandBatchingDims := [], startIndicesBatchingDims := [],
    startIndexMap := [0], indexVectorDim := 1, sliceSizes := ![1], wf := wf }

/-- The cell gather read at n, whatever the start index: the operand's element at the clamped cell. -/
theorem cellGather_clamp_apply {R N w : Nat} (hR : 0 < R)
    (wf : GatherDims.WF ⟨1, ![R]⟩ ⟨2, ![N, 1]⟩ ⟨1, ![N]⟩ [] [0] [] [0] [] 1 ![1]) {α : Type}
    (x : (⟨1, ![R]⟩ : Shape).Idx → α) (idx : IVec ⟨2, ![N, 1]⟩ w) (n : Fin N) :
    Host.gather (cellGatherDims R N wf) x idx (ix1 n) = x (ix1 (clampRow R hR (idx (ix2 n 0)))) := by
  unfold Host.gather
  congr 1
  -- the only axis is collapsed: the start index clamped into [0, R - 1], no batching coordinate and no offset
  have h0 : (cellGatherDims R N wf).start (ix1 n) idx (0 : Fin 1) + (cellGatherDims R N wf).batchCoord (ix1 n) (0 : Fin 1)
      + (cellGatherDims R N wf).offCoord (ix1 n) (0 : Fin 1) = (clampRow R hR (idx (ix2 n 0))).val := by
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 1) ∈ (cellGatherDims R N wf).startIndexMap from List.mem_singleton.mpr rfl)]
    have hsi : (cellGatherDims R N wf).siIdx (ix1 n) ⟨List.idxOf (0 : Fin 1) (cellGatherDims R N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  funext a
  refine Fin.ext ?_
  match a with
  | ⟨0, _⟩ => exact h0

/-! ## The float scatter-add read at an index -/

/-- A float scatter-add of rows, on the extended reals, at (r, k): the operand's element plus the sum over the update
    rows whose scatter index, read signed, is r, of their element in column k. -/
theorem rowScatterAdd_apply {R C N w : Nat}
    (wf : ScatterDims.WF ⟨2, ![R, C]⟩ ⟨2, ![N, 1]⟩ ⟨2, ![N, C]⟩ [1] [0] [0] 1)
    (x : (⟨2, ![R, C]⟩ : Shape).Idx → EReal) (idx : IVec ⟨2, ![N, 1]⟩ w) (u : (⟨2, ![N, C]⟩ : Shape).Idx → EReal)
    (r : Fin R) (k : Fin C) :
    Host.scatterAdd (F := Ideal) (φ := .f32) (rowScatterDims R C N wf) x idx u (ix2 r k)
      = x (ix2 r k) + ∑ n ∈ Finset.univ.filter (fun n : Fin N => (idx (ix2 n 0)).toInt = (r.val : Int)), u (ix2 n k) := by
  unfold Host.scatterAdd
  rw [Ideal.hostScatterAdd_def]
  unfold Ideal.hostScatterAdd
  congr 1
  -- the updates that land at (r, k), summed row by row: in row n only column k can land there, and it does
  -- exactly when the row's scatter index is r
  rw [Finset.sum_filter, Finset.sum_filter, sum_idx2]
  refine Finset.sum_congr rfl (fun n _ => ?_)
  simp only [rowScatter_resultIdx]
  by_cases h : (idx (ix2 n 0)).toInt = (r.val : Int)
  · simp only [h, true_and, if_true]
    rw [Finset.sum_ite_eq' Finset.univ k (fun b => u (ix2 n b))]
    simp
  · simp [h]

/-- A float scatter-add of cells, on the extended reals, at r: the operand's element plus the sum of the updates whose
    scatter index, read signed, is r. -/
theorem cellScatterAdd_apply {R N w : Nat}
    (wf : ScatterDims.WF ⟨1, ![R]⟩ ⟨2, ![N, 1]⟩ ⟨1, ![N]⟩ [] [0] [0] 1)
    (x : (⟨1, ![R]⟩ : Shape).Idx → EReal) (idx : IVec ⟨2, ![N, 1]⟩ w) (u : (⟨1, ![N]⟩ : Shape).Idx → EReal)
    (r : Fin R) :
    Host.scatterAdd (F := Ideal) (φ := .f32) (cellScatterDims R N wf) x idx u (ix1 r)
      = x (ix1 r) + ∑ n ∈ Finset.univ.filter (fun n : Fin N => (idx (ix2 n 0)).toInt = (r.val : Int)), u (ix1 n) := by
  unfold Host.scatterAdd
  rw [Ideal.hostScatterAdd_def]
  unfold Ideal.hostScatterAdd
  congr 1
  -- an update index is its one coordinate, and update n lands at r exactly when its scatter index is r
  rw [Finset.sum_filter, Finset.sum_filter]
  rw [← Equiv.sum_comp (idxEquiv1 (n := N)).symm]
  refine Finset.sum_congr rfl (fun n _ => ?_)
  show (if (cellScatterDims R N wf).resultIdx? (ix1 n) idx = some (ix1 r) then u (ix1 n) else 0) = _
  simp only [cellScatter_resultIdx]

/-! ## A non-negative real factor across sums -/

/-- (a + b) · r = a · r + b · r for a real r ≥ 0, whatever a and b (an infinity times 0 is 0 on both sides). -/
theorem add_mul_coe_nonneg (a b : EReal) {r : ℝ} (hr : 0 ≤ r) : (a + b) * (r : EReal) = a * (r : EReal) + b * (r : EReal) := by
  exact EReal.right_distrib_of_nonneg_of_ne_top (EReal.coe_nonneg.mpr hr) (EReal.coe_ne_top r) a b

/-- (Σ f) · r = Σ (f · r) for a real r ≥ 0. -/
theorem sum_mul_coe_nonneg {ι : Type} (s : Finset ι) (f : ι → EReal) {r : ℝ} (hr : 0 ≤ r) :
    (∑ i ∈ s, f i) * (r : EReal) = ∑ i ∈ s, f i * (r : EReal) := by
  induction s using Finset.cons_induction with
  | empty => simp
  | cons a s ha ih => rw [Finset.sum_cons, Finset.sum_cons, add_mul_coe_nonneg _ _ hr, ih]

/-- Zero plus a sum of ones over a finite set is its number of elements. -/
theorem zero_add_sum_one {ι : Type} (s : Finset ι) : (0 : EReal) + ∑ _i ∈ s, (1 : EReal) = ((s.card : ℝ) : EReal) := by
  rw [zero_add]
  induction s using Finset.cons_induction with
  | empty => simp
  | cons a s ha ih =>
    rw [Finset.sum_cons, Finset.card_cons, ih, Nat.cast_add, Nat.cast_one, EReal.coe_add, EReal.coe_one, add_comm]

/-! ## The reciprocal square root of a positive real -/

/-- The reciprocal square root of a positive real is the real 1/√x. -/
theorem rsqrt_coe_pos {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- Its square is the quotient 1/x. -/
theorem rsqrt_mul_self {x : ℝ} (hx : 0 < x) :
    Ideal.rsqrt (x : EReal) * Ideal.rsqrt (x : EReal) = Ideal.div 1 (x : EReal) := by
  rw [rsqrt_coe_pos hx, Ideal.div_coe hx.ne', one_mul, ← EReal.coe_mul]
  congr 1
  rw [← mul_inv, Real.mul_self_sqrt hx.le, one_div]

end Cert.LibGraphSum

end
-- ==== Proof.LibGcnAlgebra.lean ====
/-
  The two regroupings a graph convolution's comparison needs, on the extended reals. (1) One entry of a layer: with
  r ≥ 0 real and per-edge factors δ e ≥ 0 real, ((0 + Σ h e · δ e) + x · r) · r + b = ((0 + Σ h e · (δ e · r)) + x · (r · r)) + b
  whatever the extended reals h e, x, b: a finite non-negative factor distributes over any sum. (2) Pooling: a sum
  over a·b rows taken block by block is the sum over all rows; a sum of indicator × value is the sum of the values
  over the rows the indicator selects; a 32-bit word is the id g < 2^31 exactly when its signed value is g.
-/
import Mathlib.Data.EReal.Operations
import Mathlib.Data.EReal.Inv
import Mathlib.Algebra.BigOperators.Group.Finset.Basic
import Mathlib.Algebra.BigOperators.Fin
import Mathlib.Data.Fintype.BigOperators
import Mathlib.Logic.Equiv.Fin.Basic

noncomputable section

namespace Cert.LibGcnAlgebra

/-! ## One entry of a layer -/

/-- (a + b) · r = a · r + b · r for a real r ≥ 0, whatever a and b: a finite non-negative factor distributes. -/
theorem add_mul_coe (a b : EReal) {r : ℝ} (hr : 0 ≤ r) : (a + b) * (r : EReal) = a * (r : EReal) + b * (r : EReal) :=
  EReal.right_distrib_of_nonneg_of_ne_top (EReal.coe_nonneg.mpr hr) (EReal.coe_ne_top r) a b

/-- (Σ f) · r = Σ (f · r) for a real r ≥ 0: the law above, one term at a time; the empty sum is 0 · r = 0. -/
theorem sum_mul_coe {ι : Type} (s : Finset ι) (f : ι → EReal) {r : ℝ} (hr : 0 ≤ r) :
    (∑ i ∈ s, f i) * (r : EReal) = ∑ i ∈ s, f i * (r : EReal) := by
  induction s using Finset.cons_induction with
  | empty => rw [Finset.sum_empty, Finset.sum_empty, zero_mul]
  | cons a s ha ih => rw [Finset.sum_cons, Finset.sum_cons, add_mul_coe _ _ hr, ih]

/-- Scaling (aggregate + own row) by r, against scaling each edge's term by r and the own row by r · r. -/
theorem layer_entry {ι : Type} (s : Finset ι) (h : ι → EReal) (δ : ι → ℝ) (x b : EReal) {r : ℝ} (hr : 0 ≤ r) :
    ((0 + ∑ e ∈ s, h e * (δ e : EReal)) + x * (r : EReal)) * (r : EReal) + b
      = ((0 + ∑ e ∈ s, h e * ((δ e : EReal) * (r : EReal))) + x * ((r : EReal) * (r : EReal))) + b := by
  simp only [zero_add, add_mul_coe _ _ hr, sum_mul_coe _ _ hr, mul_assoc]

/-! ## Pooling -/

/-- Row r of block t, of N = a · b rows cut into a blocks of b rows. -/
def blockRow {a b N : Nat} (hN : a * b = N) (t : Fin a) (r : Fin b) : Fin N :=
  ⟨t.val * b + r.val, by
    have ht := t.isLt; have hr := r.isLt
    calc t.val * b + r.val < t.val * b + b := by omega
      _ = (t.val + 1) * b := by ring
      _ ≤ a * b := Nat.mul_le_mul_right b ht
      _ = N := hN⟩

/-- A sum over all rows, taken block by block. -/
theorem sum_blocks {a b N : Nat} (hN : a * b = N) (f : Fin N → EReal) :
    ∑ t : Fin a, ∑ r : Fin b, f (blockRow hN t r) = ∑ n : Fin N, f n := by
  subst hN
  -- the pair (block, row in block) runs over the product, and the product is the range of all rows through
  -- (t, r) ↦ r + b · t, which is the row t · b + r
  calc ∑ t : Fin a, ∑ r : Fin b, f (blockRow rfl t r)
      = ∑ x : Fin a × Fin b, f (blockRow rfl x.1 x.2) :=
        (Fintype.sum_prod_type' (fun (t : Fin a) (r : Fin b) => f (blockRow rfl t r))).symm
    _ = ∑ x : Fin a × Fin b, f (finProdFinEquiv x) := by
        refine Finset.sum_congr rfl (fun x _ => ?_)
        congr 1
        apply Fin.ext
        show x.1.val * b + x.2.val = x.2.val + b * x.1.val
        rw [Nat.mul_comm, Nat.add_comm]
    _ = ∑ n : Fin (a * b), f n := Equiv.sum_comp finProdFinEquiv f

/-- A 32-bit word is the id g, for g below 2^31, exactly when its signed value is g. -/
theorem ofNat_eq_iff_toInt (b : BitVec 32) (g : Nat) (hg : g < 2147483648) :
    BitVec.ofNat 32 g = b ↔ b.toInt = (g : Int) := by
  have hb : b.toNat < 2 ^ 32 := b.isLt
  constructor
  · -- the word of g has unsigned value g, below 2^31, so its signed value is g too
    intro e
    subst e
    rw [BitVec.toInt_eq_toNat_cond, BitVec.toNat_ofNat, Nat.mod_eq_of_lt (by omega : g < 2 ^ 32)]
    split <;> omega
  · -- a non-negative signed value is the unsigned value
    intro e
    apply BitVec.eq_of_toNat_eq
    rw [BitVec.toNat_ofNat, Nat.mod_eq_of_lt (by omega : g < 2 ^ 32)]
    rw [BitVec.toInt_eq_toNat_cond] at e
    split at e <;> omega

/-- A sum of (1 if selected else 0) × value is the sum of the values over the selected rows. -/
theorem sum_ind_mul {N : Nat} (p : Fin N → Prop) [DecidablePred p] (f : Fin N → EReal) :
    ∑ n : Fin N, (if p n then (1 : EReal) else 0) * f n = ∑ n ∈ Finset.univ.filter p, f n := by
  rw [Finset.sum_filter]
  refine Finset.sum_congr rfl (fun n _ => ?_)
  rw [ite_mul, one_mul, zero_mul]

/-- A sum of (1 if selected else 0) is, with a leading zero, the sum of ones over the selected rows. -/
theorem sum_ind {N : Nat} (p : Fin N → Prop) [DecidablePred p] :
    ∑ n : Fin N, (if p n then (1 : EReal) else 0) = ∑ _n ∈ Finset.univ.filter p, (1 : EReal) := by
  rw [Finset.sum_filter]

end Cert.LibGcnAlgebra

end
-- ==== Proof.BridgeDefs.lean ====
/-
  The vocabulary in which the two programs' values are compared. d n = deg n^(-1/2) is the reference's own array; the
  edges into a node n are those whose destination id, read as a signed integer, is n; an edge's source row is its
  source id after the lookup's wrap of negative ids and clamp into the table; a table scaled by d is each row n times
  d n. Both programs compute these host values by the same operations, so the kernel's are the reference's.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.Bridge

open Idealize.ShloMosaic Idealize.ShloMosaic.ValueIdx
open Cert.ReferenceIdeal.Read Cert.ReferenceIdeal.RefValue

/-- The edge list. -/
abbrev Edges : Type := (⟨Cert.ReferenceIdeal.S2x1600000, .i32⟩ : BufTy).Contents (Elt Ideal)
/-- A node feature table. -/
abbrev Feat : Type := (⟨Cert.ReferenceIdeal.S100000x128, .f32⟩ : BufTy).Contents (Elt Ideal)
/-- A bias vector of a layer. -/
abbrev Bias : Type := (⟨Cert.ReferenceIdeal.S128, .f32⟩ : BufTy).Contents (Elt Ideal)
/-- The graph ids. -/
abbrev Gids : Type := (⟨Cert.ReferenceIdeal.S100000, .i32⟩ : BufTy).Contents (Elt Ideal)

variable (a1 : Edges)

/-- d n = deg n^(-1/2). -/
def dn (n : Fin 100000) : EReal := val_main_v10 (F := Ideal) a1 (ix1 n)

/-- The edges into node n. -/
def edgesInto (n : Fin 100000) : Finset (Fin 1600000) :=
  Finset.univ.filter fun e => (val_main_v40 (F := Ideal) a1 (ix2 e 0)).toInt = (n.val : Int)

/-- The row of a table that edge e reads: its wrapped source id clamped into the table. -/
def srcRow (e : Fin 1600000) : Fin 100000 :=
  Cert.LibGraphSum.clampRow 100000 (by decide) (val_main_v34 (F := Ideal) a1 (ix2 e 0))

/-- A table with each row n scaled by d n. -/
def scaled (H : Feat) : Feat := fun i => H i * dn a1 (i 0)

/-! ## The kernel's host values are the reference's -/

theorem srcOf_eq : Cert.KernelIdeal.KH.srcOf (F := Ideal) a1 = val_main_v1 (F := Ideal) a1 := rfl
theorem dstOf_eq : Cert.KernelIdeal.KH.dstOf (F := Ideal) a1 = val_main_v3 (F := Ideal) a1 := rfl
theorem dinvOf_eq : Cert.KernelIdeal.KH.dinvOf (F := Ideal) a1 = val_main_v10 (F := Ideal) a1 := rfl
theorem aggOf_eq (T : Feat) : (Cert.KernelIdeal.KH.aggOf (F := Ideal) T a1 : Feat)
    = Host.scatterAdd (F := Ideal) (φ := .f32) Cert.ReferenceIdeal.scatter_S100000x128_S1600000x1_S1600000x128_1_0_0_1
        (val_main_v39 (F := Ideal)) (val_main_v40 (F := Ideal) a1)
        (Host.gather Cert.ReferenceIdeal.gather_S100000x128_S1600000x1_S1600000x128_1_0_n_n_0_1_1128 (T : Feat)
          (val_main_v34 (F := Ideal) a1)) := rfl

end Cert.Bridge

end
-- ==== Proof.BridgeDeg.lean ====
/-
  The degree and what is made of it. deg n is one plus the number of edges into n (a scatter-sum of ones), a real
  that is at least 1; so d n = deg n^(-1/2) is a non-negative real r, and the reference's 1/deg n is r · r. An edge
  into n reads d at its source row and at n itself (its destination id is n: not negative, so not wrapped, and
  inside the table, so not clamped), so the edge's normaliser is d(source row) · d n. And the kernel's reshaped
  columns and rows read at an index.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«429220_j1795296329975_3_alg».proof.Proof.BridgeDefs

set_option maxRecDepth 16384

noncomputable section

namespace Cert.Bridge

open Idealize.ShloMosaic Idealize.ShloMosaic.ValueIdx
open Cert.ReferenceIdeal.Read Cert.ReferenceIdeal.RefValue
open Cert.KernelIdeal

/-! ## A vector reshaped into a column or a row -/

/-- A vector of length N reshaped into a column [N, 1], read at (n, 0): both indices have row-major position n. -/
theorem col_apply {N : Nat} {α : Type} (x : (⟨1, ![N]⟩ : Shape).Idx → α)
    (h : (⟨1, ![N]⟩ : Shape).ShapeCasts ⟨2, ![N, 1]⟩) (n : Fin N) :
    shapeCast ⟨2, ![N, 1]⟩ x h (ix2 n 0) = x (ix1 n) := by
  refine shapeCast_apply x h (ix2 n 0) (ix1 n) ?_
  rewrite [Shape.rowMajor_val_two, Shape.rowMajor_val_one]
  show n.val = n.val * 1 + 0
  omega

/-- A vector of length K reshaped into a row [1, K], read at (0, k): both indices have row-major position k. -/
theorem row_apply {K : Nat} {α : Type} (x : (⟨1, ![K]⟩ : Shape).Idx → α)
    (h : (⟨1, ![K]⟩ : Shape).ShapeCasts ⟨2, ![1, K]⟩) (k : Fin K) :
    shapeCast ⟨2, ![1, K]⟩ x h (ix2 0 k) = x (ix1 k) := by
  refine shapeCast_apply x h (ix2 0 k) (ix1 k) ?_
  rewrite [Shape.rowMajor_val_two, Shape.rowMajor_val_one]
  show k.val = 0 * K + k.val
  omega

variable (a1 : Edges)

/-! ## The degree -/

/-- deg n is the real (number of edges into n) + 1: the scatter-sum adds a one to the zero at n for every edge whose
    destination id is n, and the one added afterwards is a real one. -/
theorem deg_apply (n : Fin 100000) :
    val_main_v9 (F := Ideal) a1 (ix1 n) = ((((edgesInto a1 n).card : ℝ) + 1 : ℝ) : EReal) := by
  have h7 : val_main_v7 (F := Ideal) a1 (ix1 n) = (0 : EReal) + ∑ _e ∈ edgesInto a1 n, (1 : EReal) := by
    show Host.scatterAdd (F := Ideal) (φ := .f32)
      (Cert.LibRowScatter.cellScatterDims 100000 1600000
        Cert.ReferenceIdeal.Facts₀.scatter_S100000_S1600000x1_S1600000_n_0_0_1_wf)
      (val_main_v5 (F := Ideal)) (val_main_v40 (F := Ideal) a1) (val_main_v4 (F := Ideal)) (ix1 n) = _
    rw [Cert.LibGraphSum.cellScatterAdd_apply, val_main_v5_apply, val_main_cst_0_apply, Ideal.ofBits_def,
      Ideal.ofBits_zero_f32]
    refine congrArg (fun s => (0 : EReal) + s) (Finset.sum_congr rfl (fun e _ => ?_))
    rw [val_main_v4_apply, val_main_cst_apply, Ideal.ofBits_def, Ideal.ofBits_one_f32]
  rw [val_main_v9_apply, Ideal.addf_def, h7, Cert.LibGraphSum.zero_add_sum_one, val_main_v8_apply,
    val_main_cst_1_apply, Ideal.ofBits_def, Ideal.ofBits_one_f32, EReal.coe_add, EReal.coe_one]

/-- deg n is positive. -/
theorem deg_pos (n : Fin 100000) : (0 : ℝ) < ((edgesInto a1 n).card : ℝ) + 1 := by
  have : (0 : ℝ) ≤ ((edgesInto a1 n).card : ℝ) := Nat.cast_nonneg _
  linarith

/-- d n is a non-negative real r, and the reference's 1 / deg n is r · r. -/
theorem dn_real (n : Fin 100000) :
    ∃ r : ℝ, 0 ≤ r ∧ dn a1 n = (r : EReal) ∧ val_main_v27 (F := Ideal) a1 (ix1 n) = (r : EReal) * (r : EReal) := by
  -- r = 1 / √(deg n)
  refine ⟨(Real.sqrt (((edgesInto a1 n).card : ℝ) + 1))⁻¹, inv_nonneg.mpr (Real.sqrt_nonneg _), ?_, ?_⟩
  · unfold dn
    rw [val_main_v10_apply, Ideal.hostUnary_rsqrt_def, deg_apply, Cert.LibGraphSum.rsqrt_coe_pos (deg_pos a1 n)]
  · -- 1 / deg n is the square of the reciprocal square root
    rw [val_main_v27_apply, Ideal.hostDivf_def, val_main_v26_apply, val_main_cst_5_apply, Ideal.ofBits_def,
      Ideal.ofBits_one_f32, deg_apply, ← Cert.LibGraphSum.rsqrt_mul_self (deg_pos a1 n),
      Cert.LibGraphSum.rsqrt_coe_pos (deg_pos a1 n)]

/-! ## The normaliser of an edge -/

/-- A 32-bit id whose signed value is a natural number is not below zero, so the lookup's wrap leaves it alone. -/
theorem wrap_of_nonneg (b c : BitVec 32) (m : Nat) (hb : b.toInt = (m : Int)) :
    Scalar.select (IntOp.cmpi .slt b 0#32) c b = b := by
  have h : IntOp.cmpi .slt b 0#32 = 0#1 := by
    show BitVec.ofBool (b.slt 0#32) = 0#1
    have hs : b.slt 0#32 = false := by
      rw [BitVec.slt, hb, BitVec.toInt_zero]
      exact decide_eq_false (by omega)
    rw [hs]
    rfl
  rw [h]
  exact select_zero _ _

/-- The destination row an edge into n reads: its destination id is n, which the wrap and the clamp leave alone. -/
theorem dstRow_eq (n : Fin 100000) (e : Fin 1600000) (he : e ∈ edgesInto a1 n) :
    Cert.LibGraphSum.clampRow 100000 (by decide) (val_main_v23 (F := Ideal) a1 (ix2 e 0)) = n := by
  -- the edge's destination id, read signed, is n
  have hid : (val_main_v3 (F := Ideal) a1 (ix1 e)).toInt = (n.val : Int) := by
    have h := (Finset.mem_filter.mp he).2
    rw [val_main_v40_apply] at h
    have hi : idx_main_v40 (ix2 e 0) = ix1 e := funext fun a => by match a with | ⟨0, _⟩ => rfl
    rw [hi] at h
    exact h
  refine Cert.LibGraphSum.clampRow_of_toInt _ _ n ?_
  have hi : idx_main_v23 (ix2 e 0) = ix1 e := funext fun a => by match a with | ⟨0, _⟩ => rfl
  rw [val_main_v23_apply, hi, val_main_v22_apply, val_main_v19_apply, val_main_v18_apply, val_main_c_3_apply,
    wrap_of_nonneg _ _ n.val hid]
  exact hid

/-- The normaliser of an edge into n is d at the edge's source row times d n. -/
theorem nrm_apply (n : Fin 100000) (e : Fin 1600000) (he : e ∈ edgesInto a1 n) :
    val_main_v25 (F := Ideal) a1 (ix1 e) = dn a1 (srcRow a1 e) * dn a1 n := by
  -- d gathered at the edge's wrapped source id
  have h17 : val_main_v17 (F := Ideal) a1 (ix1 e) = dn a1 (srcRow a1 e) := by
    show Host.gather (Cert.LibGraphSum.cellGatherDims 100000 1600000
        Cert.ReferenceIdeal.Facts₀.gather_S100000_S1600000x1_S1600000_n_0_n_n_0_1_1_wf)
      (val_main_v10 (F := Ideal) a1) (val_main_v34 (F := Ideal) a1) (ix1 e) = _
    rw [Cert.LibGraphSum.cellGather_clamp_apply (by decide)]
    rfl
  -- d gathered at the edge's wrapped destination id, which is n
  have h24 : val_main_v24 (F := Ideal) a1 (ix1 e) = dn a1 n := by
    show Host.gather (Cert.LibGraphSum.cellGatherDims 100000 1600000
        Cert.ReferenceIdeal.Facts₀.gather_S100000_S1600000x1_S1600000_n_0_n_n_0_1_1_wf)
      (val_main_v10 (F := Ideal) a1) (val_main_v23 (F := Ideal) a1) (ix1 e) = _
    rw [Cert.LibGraphSum.cellGather_clamp_apply (by decide), dstRow_eq a1 n e he]
    rfl
  rw [val_main_v25_apply, Ideal.mulf_def, h17, h24]

/-- The kernel's column of d at row n is d n. -/
theorem dcol_apply (n : Fin 100000) : KH.dcolOf (F := Ideal) a1 (ix2 n 0) = dn a1 n := by
  unfold KH.dcolOf
  rw [dinvOf_eq]
  exact col_apply _ _ n

/-- A bias vector as a row, read at column k. -/
theorem row128_apply (b : Bias) (k : Fin 128) : KH.row128 (F := Ideal) b (ix2 0 k) = b (ix1 k) := by
  unfold KH.row128
  exact row_apply _ _ k

theorem row64_apply (b : (⟨Cert.ReferenceIdeal.S64, .f32⟩ : BufTy).Contents (Elt Ideal)) (k : Fin 64) :
    KH.row64 (F := Ideal) b (ix2 0 k) = b (ix1 k) := by
  unfold KH.row64
  exact row_apply _ _ k

theorem row8_apply (b : (⟨Cert.ReferenceIdeal.S8, .f32⟩ : BufTy).Contents (Elt Ideal)) (k : Fin 8) :
    KH.row8 (F := Ideal) b (ix2 0 k) = b (ix1 k) := by
  unfold KH.row8
  exact row_apply _ _ k

/-- The graph ids as a column, read at row n. -/
theorem bcol_apply (a2 : Gids) (n : Fin 100000) : KH.bcolOf (F := Ideal) a2 (ix2 n 0) = a2 (ix1 n) := by
  unfold KH.bcolOf
  exact col_apply _ _ n

end Cert.Bridge

end
-- ==== Proof.BridgeLayer.lean ====
/-
  One layer, entry by entry. The kernel aggregates the table T = H scaled by d: into (n, k) goes the sum over the
  edges into n of T at (the edge's source row, k); it adds T(n, k), scales by d n, adds the bias and clips. The
  reference aggregates H with each edge's term scaled by its normaliser d(source row) · d n, adds H(n, k) / deg n and
  the bias, and clips. With d n a non-negative real these are equal: a finite non-negative factor distributes over
  any sum of extended reals.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«429220_j1795296329975_3_alg».proof.Proof.BridgeDefs
import proofs.«429220_j1795296329975_3_alg».proof.Proof.BridgeDeg
set_option maxRecDepth 16384

noncomputable section

namespace Cert.Bridge

open Idealize.ShloMosaic Idealize.ShloMosaic.ValueIdx
open Cert.ReferenceIdeal.Read Cert.ReferenceIdeal.RefValue
open Cert.KernelIdeal

variable (a1 : Edges)

/-- The zero table read at an index. -/
theorem zeros_apply (i : Cert.ReferenceIdeal.S100000x128.Idx) : val_main_v39 (F := Ideal) i = 0 := by
  rw [val_main_v39_apply, val_main_cst_8_apply]
  exact Ideal.ofBits_zero_f32

/-- The scatter-sum by destination of any per-edge rows u, into the zero table, at (n, k). -/
theorem scatter_apply (u : (⟨Cert.ReferenceIdeal.S1600000x128, .f32⟩ : BufTy).Contents (Elt Ideal)) (n : Fin 100000)
    (k : Fin 128) :
    Host.scatterAdd (F := Ideal) (φ := .f32) Cert.ReferenceIdeal.scatter_S100000x128_S1600000x1_S1600000x128_1_0_0_1
        (val_main_v39 (F := Ideal)) (val_main_v40 (F := Ideal) a1) u (ix2 n k)
      = 0 + ∑ e ∈ edgesInto a1 n, u (ix2 e k) := by
  show Host.scatterAdd (F := Ideal) (φ := .f32)
      (Cert.LibRowScatter.rowScatterDims 100000 128 1600000
        Cert.ReferenceIdeal.Facts₀.scatter_S100000x128_S1600000x1_S1600000x128_1_0_0_1_wf) _ _ _ (ix2 n k) = _
  rw [Cert.LibGraphSum.rowScatterAdd_apply, zeros_apply]
  rfl

/-- The rows of a table gathered by source, at (e, k). -/
theorem gather_apply (T : Feat) (e : Fin 1600000) (k : Fin 128) :
    Host.gather Cert.ReferenceIdeal.gather_S100000x128_S1600000x1_S1600000x128_1_0_n_n_0_1_1128 (T : Feat)
        (val_main_v34 (F := Ideal) a1) (ix2 e k) = T (ix2 (srcRow a1 e) k) := by
  show Host.gather (Cert.LibRowScatter.rowGatherDims 100000 128 1600000
        Cert.ReferenceIdeal.Facts₀.gather_S100000x128_S1600000x1_S1600000x128_1_0_n_n_0_1_1128_wf) _ _ (ix2 e k) = _
  rw [Cert.LibGraphSum.rowGather_clamp_apply (by decide)]
  rfl

/-- The kernel's aggregate at (n, k): zero plus the sum over the edges into n of the table at the edge's source row. -/
theorem agg_apply (T : Feat) (n : Fin 100000) (k : Fin 128) :
    KH.aggOf (F := Ideal) T a1 (ix2 n k) = 0 + ∑ e ∈ edgesInto a1 n, T (ix2 (srcRow a1 e) k) := by
  rw [aggOf_eq, scatter_apply, Finset.sum_congr rfl (fun e _ => gather_apply a1 T e k)]

/-- An edge's normaliser, spread along the edge's row of 128 columns. -/
theorem nrmRow_apply (e : Fin 1600000) (k : Fin 128) :
    val_main_v37 (F := Ideal) a1 (ix2 e k) = val_main_v25 (F := Ideal) a1 (ix1 e) := by
  rw [val_main_v37_apply, val_main_v36_apply]
  congr 1
  funext a
  match a with
  | ⟨0, _⟩ => rfl

/-- 1 / deg n, spread along row n. -/
theorem invDegRow_apply (n : Fin 100000) (k : Fin 128) :
    val_main_v43 (F := Ideal) a1 (ix2 n k) = val_main_v27 (F := Ideal) a1 (ix1 n) := by
  rw [val_main_v43_apply, val_main_v42_apply]
  congr 1
  funext a
  match a with
  | ⟨0, _⟩ => rfl

/-- The bias vector, spread down the rows. -/
theorem biasRows_apply (b : Bias) (n : Fin 100000) (k : Fin 128) :
    val_main_v47 (F := Ideal) b (ix2 n k) = b (ix1 k) := by
  rw [val_main_v47_apply, val_main_v46_apply]
  congr 1
  funext a
  match a with
  | ⟨0, _⟩ => rfl

/-- The reference's per-edge rows at (e, k): H at the edge's source row times the edge's normaliser. -/
theorem edgeTerm_apply (H : Feat) (e : Fin 1600000) (k : Fin 128) :
    (mulf (Host.gather Cert.ReferenceIdeal.gather_S100000x128_S1600000x1_S1600000x128_1_0_n_n_0_1_1128 H
          (val_main_v34 (F := Ideal) a1)) (val_main_v37 (F := Ideal) a1)
        : FVec Ideal Cert.ReferenceIdeal.S1600000x128 .f32) (ix2 e k)
      = H (ix2 (srcRow a1 e) k) * val_main_v25 (F := Ideal) a1 (ix1 e) := by
  rw [mulf_apply, gather_apply, nrmRow_apply]

/-- The reference's layer at (n, k). -/
theorem rLayer_apply (H : Feat) (b : Bias) (n : Fin 100000) (k : Fin 128) :
    rLayer (F := Ideal) H a1 b (ix2 n k)
      = ((0 + ∑ e ∈ edgesInto a1 n, H (ix2 (srcRow a1 e) k) * val_main_v25 (F := Ideal) a1 (ix1 e))
          + H (ix2 n k) * val_main_v27 (F := Ideal) a1 (ix1 n)) + b (ix1 k) := by
  unfold rLayer
  rw [addf_apply, addf_apply, mulf_apply, scatter_apply, invDegRow_apply, biasRows_apply,
    Finset.sum_congr rfl (fun e _ => edgeTerm_apply a1 H e k)]

/-- One layer: the kernel's epilogue on the scaled table is the reference's layer, clipped. -/
theorem layer_bridge (H : Feat) (b : Bias) (n : Fin 100000) (k : Fin 128) :
    KV.act (KH.aggOf (F := Ideal) (scaled a1 H) a1) (scaled a1 H) (KH.dcolOf (F := Ideal) a1) (KH.row128 (F := Ideal) b) n k
      = max (rLayer (F := Ideal) H a1 b (ix2 n k)) 0 := by
  unfold KV.act
  rw [agg_apply, dcol_apply, row128_apply, rLayer_apply]
  -- d n is a real r ≥ 0 with 1 / deg n = r · r, and d at every row m is a real δ m
  obtain ⟨r, hr, hd, hI⟩ := dn_real a1 n
  choose δ _ hδ _ using dn_real a1
  -- the scaled table at (m, k) is H (m, k) · d m
  have hT : ∀ m : Fin 100000, scaled a1 H (ix2 m k) = H (ix2 m k) * dn a1 m := fun _ => rfl
  -- the kernel's edge terms: H at the source row times d at the source row
  have hK : ∑ e ∈ edgesInto a1 n, scaled a1 H (ix2 (srcRow a1 e) k)
      = ∑ e ∈ edgesInto a1 n, H (ix2 (srcRow a1 e) k) * ((δ (srcRow a1 e) : ℝ) : EReal) :=
    Finset.sum_congr rfl (fun e _ => by rw [hT, hδ (srcRow a1 e)])
  -- the reference's edge terms: the normaliser of an edge into n is d (source row) · d n
  have hR : ∑ e ∈ edgesInto a1 n, H (ix2 (srcRow a1 e) k) * val_main_v25 (F := Ideal) a1 (ix1 e)
      = ∑ e ∈ edgesInto a1 n, H (ix2 (srcRow a1 e) k) * (((δ (srcRow a1 e) : ℝ) : EReal) * (r : EReal)) :=
    Finset.sum_congr rfl (fun e he => by rw [nrm_apply a1 n e he, hδ (srcRow a1 e), hd])
  rw [hK, hR, hT n, hd, hI]
  exact congrArg (fun z => max z 0)
    (Cert.LibGcnAlgebra.layer_entry (edgesInto a1 n) (fun e => H (ix2 (srcRow a1 e) k)) (fun e => δ (srcRow a1 e))
      (H (ix2 n k)) (b (ix1 k)) hr)

end Cert.Bridge

end
-- ==== Proof.BridgeProd.lean ====
/-
  The matrix products. The kernel's scaled linear step is the reference's product scaled by d; where the kernel's
  epilogue at every (n, k) is a clipped array Z, the fused launch's output is (the product of clipped Z with the next
  weight matrix) scaled by d, and the last launch's output is clipped Z.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«429220_j1795296329975_3_alg».proof.Proof.BridgeDefs
import proofs.«429220_j1795296329975_3_alg».proof.Proof.BridgeDeg
set_option maxRecDepth 16384

noncomputable section

namespace Cert.Bridge

open Idealize.ShloMosaic Idealize.ShloMosaic.ValueIdx
open Cert.ReferenceIdeal.Read Cert.ReferenceIdeal.RefValue
open Cert.KernelIdeal

variable (a1 : Edges)

/-- The product at (n, j) is the sum over k of Y (n, k) · w (k, j). -/
theorem prod128_apply (Y : Feat) (w : (⟨Cert.ReferenceIdeal.S128x128, .f32⟩ : BufTy).Contents (Elt Ideal))
    (n : Fin 100000) (j : Fin 128) :
    prod128 (F := Ideal) Y w (ix2 n j) = ∑ k : Fin 128, Y (ix2 n k) * w (ix2 k j) := by
  show val_main_v28 (F := Ideal) Y w (ix2 n j) = _
  rw [val_main_v28_apply]
  refine Finset.sum_congr rfl fun k _ => ?_
  have el : lidx_main_v28 (ix2 n j) k = ix2 n k :=
    funext fun a => by match a with | ⟨0, _⟩ => rfl | ⟨1, _⟩ => rfl
  have er : ridx_main_v28 (ix2 n j) k = ix2 k j :=
    funext fun a => by match a with | ⟨0, _⟩ => rfl | ⟨1, _⟩ => rfl
  rw [el, er]

/-- Clipping reads entry by entry as the maximum with 0: the clip's second operand is the constant 0 everywhere. -/
theorem relu_apply (Z : Feat) (i : Cert.ReferenceIdeal.S100000x128.Idx) :
    relu (F := Ideal) Z i = max (Z i) 0 := by
  show max (Z i) (val_main_call0_v0 (F := Ideal) i) = _
  rw [val_main_call0_v0_apply, val_main_call0_cst_apply]
  exact congrArg (max (Z i)) Ideal.ofBits_zero_f32

/-- Launch 0's function is the reference's product, scaled by d. -/
theorem lin_eq (a0 : Feat) (a3 : (⟨Cert.ReferenceIdeal.S128x128, .f32⟩ : BufTy).Contents (Elt Ideal)) :
    KV.lin a0 a3 (KH.dcolOf (F := Ideal) a1) = scaled a1 (prod128 (F := Ideal) a0 a3) := by
  funext i
  obtain ⟨n, j, rfl⟩ : ∃ (n : Fin 100000) (j : Fin 128), i = ix2 n j := ⟨i 0, i 1, eq_ix2 i⟩
  show (∑ k : Fin 128, a0 (ix2 n k) * a3 (ix2 k j)) * KH.dcolOf (F := Ideal) a1 (ix2 n 0)
    = prod128 (F := Ideal) a0 a3 (ix2 n j) * dn a1 n
  rw [dcol_apply, prod128_apply]

/-- Launches 1 and 2: where the epilogue is clipped Z, the output is (clipped Z · w) scaled by d. -/
theorem finLin_eq (agg hs : Feat) (b : Bias) (w : (⟨Cert.ReferenceIdeal.S128x128, .f32⟩ : BufTy).Contents (Elt Ideal))
    (Z : Feat)
    (hact : ∀ (n : Fin 100000) (k : Fin 128),
      KV.act agg hs (KH.dcolOf (F := Ideal) a1) (KH.row128 (F := Ideal) b) n k = max (Z (ix2 n k)) 0) :
    KV.finLin agg hs (KH.dcolOf (F := Ideal) a1) (KH.row128 (F := Ideal) b) w = scaled a1 (prod128 (F := Ideal) (relu (F := Ideal) Z) w) := by
  funext i
  obtain ⟨n, j, rfl⟩ : ∃ (n : Fin 100000) (j : Fin 128), i = ix2 n j := ⟨i 0, i 1, eq_ix2 i⟩
  show (∑ k : Fin 128, KV.act agg hs (KH.dcolOf (F := Ideal) a1) (KH.row128 (F := Ideal) b) n k * w (ix2 k j))
      * KH.dcolOf (F := Ideal) a1 (ix2 n 0)
    = prod128 (F := Ideal) (relu (F := Ideal) Z) w (ix2 n j) * dn a1 n
  rw [dcol_apply, prod128_apply]
  congr 1
  refine Finset.sum_congr rfl fun k _ => ?_
  rw [hact, relu_apply]

/-- Launch 3: where the epilogue is clipped Z, the output is clipped Z. -/
theorem fin_eq (agg hs : Feat) (b : Bias) (Z : Feat)
    (hact : ∀ (n : Fin 100000) (k : Fin 128),
      KV.act agg hs (KH.dcolOf (F := Ideal) a1) (KH.row128 (F := Ideal) b) n k = max (Z (ix2 n k)) 0) :
    KV.fin agg hs (KH.dcolOf (F := Ideal) a1) (KH.row128 (F := Ideal) b) = relu (F := Ideal) Z := by
  funext i
  obtain ⟨n, j, rfl⟩ : ∃ (n : Fin 100000) (j : Fin 128), i = ix2 n j := ⟨i 0, i 1, eq_ix2 i⟩
  show KV.act agg hs (KH.dcolOf (F := Ideal) a1) (KH.row128 (F := Ideal) b) n j = relu (F := Ideal) Z (ix2 n j)
  rw [hact, relu_apply]

end Cert.Bridge

end
-- ==== Proof.BridgePool.lean ====
/-
  Pooling and the classifier. The kernel sums, per graph g and block by block, [graph id of the row = g] times the row;
  the reference scatter-sums the rows by graph id. A 32-bit id is g exactly when its signed value is g, fifty blocks of
  2000 rows are all 100000 rows, and an indicator product is the sum over the selected rows; so the two sums are one,
  and so are the counts. The classifier then is the same formula on both sides.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«429220_j1795296329975_3_alg».proof.Proof.BridgeDefs
import proofs.«429220_j1795296329975_3_alg».proof.Proof.BridgeDeg
set_option maxRecDepth 16384

noncomputable section

namespace Cert.Bridge

open Idealize.ShloMosaic Idealize.ShloMosaic.ValueIdx
open Cert.ReferenceIdeal.Read Cert.ReferenceIdeal.RefValue
open Cert.KernelIdeal

/-! ## Rows, ids and selected sums -/

/-- Row r of block t of the kernel's fifty blocks of 2000 rows is row t · 2000 + r of all 100000 rows. -/
theorem rowOf_eq (t : Fin 50) (r : Fin 2000) :
    KV.rowOf t r = Cert.LibGcnAlgebra.blockRow (by norm_num : 50 * 2000 = 100000) t r := Fin.ext rfl

/-- The reference's column of graph ids (the scatter index of the sums) at row n is the id of row n. -/
theorem v95_at (a2 : Gids) (n : Fin 100000) : val_main_v95 (F := Ideal) a2 (ix2 n 0) = a2 (ix1 n) := by
  rw [val_main_v95_apply]
  congr 1
  funext a
  match a with
  | ⟨0, _⟩ => rfl

/-- The reference's column of graph ids (the scatter index of the counts) at row n is the id of row n. -/
theorem v99_at (a2 : Gids) (n : Fin 100000) : val_main_v99 (F := Ideal) a2 (ix2 n 0) = a2 (ix1 n) := by
  rw [val_main_v99_apply]
  congr 1
  funext a
  match a with
  | ⟨0, _⟩ => rfl

/-- The rows whose id is the word of g are the rows whose id, read signed, is g: g < 256 < 2^31. -/
theorem rows_of_graph (a2 : Gids) (g : Fin 256) :
    Finset.univ.filter (fun n : Fin 100000 => BitVec.ofNat 32 g.val = a2 (ix1 n))
      = Finset.univ.filter (fun n : Fin 100000 => (a2 (ix1 n)).toInt = (g.val : Int)) :=
  Finset.filter_congr fun n _ =>
    Cert.LibGcnAlgebra.ofNat_eq_iff_toInt (a2 (ix1 n)) g.val (by have := g.isLt; omega)

/-- The kernel's per-graph sums are the reference's scatter-sum by graph id. -/
theorem poolSum_eq (h : Feat) (a2 : Gids) : KV.poolSum h (KH.bcolOf (F := Ideal) a2) = pool (F := Ideal) h a2 := by
  funext i
  obtain ⟨g, j, rfl⟩ : ∃ (g : Fin 256) (j : Fin 128), i = ix2 g j := ⟨i 0, i 1, eq_ix2 i⟩
  -- the kernel: fifty blocks of 2000 rows are all rows, and indicator × row summed is the row summed over the
  -- rows the indicator selects
  have hk : KV.poolSum h (KH.bcolOf (F := Ideal) a2) (ix2 g j)
      = ∑ n ∈ Finset.univ.filter (fun n : Fin 100000 => BitVec.ofNat 32 g.val = a2 (ix1 n)), h (ix2 n j) := by
    show ∑ t : Fin 50, ∑ r : Fin 2000,
        KV.ind (KH.bcolOf (F := Ideal) a2 (ix2 (KV.rowOf t r) 0)) g * h (ix2 (KV.rowOf t r) j) = _
    simp only [rowOf_eq]
    rw [Cert.LibGcnAlgebra.sum_blocks (by norm_num : 50 * 2000 = 100000)
      (fun n => KV.ind (KH.bcolOf (F := Ideal) a2 (ix2 n 0)) g * h (ix2 n j))]
    simp only [bcol_apply]
    unfold KV.ind
    exact Cert.LibGcnAlgebra.sum_ind_mul (fun n => BitVec.ofNat 32 g.val = a2 (ix1 n)) (fun n => h (ix2 n j))
  -- the reference: zero plus the rows whose scatter index, read signed, is g
  have hr : pool (F := Ideal) h a2 (ix2 g j)
      = ∑ n ∈ Finset.univ.filter (fun n : Fin 100000 => (a2 (ix1 n)).toInt = (g.val : Int)), h (ix2 n j) := by
    unfold Cert.ReferenceIdeal.RefValue.pool
    show Host.scatterAdd (F := Ideal) (φ := .f32) (Cert.LibRowScatter.rowScatterDims 256 128 100000
      Cert.ReferenceIdeal.Facts₀.scatter_S256x128_S100000x1_S100000x128_1_0_0_1_wf) _ _ _ (ix2 g j) = _
    rw [Cert.LibGraphSum.rowScatterAdd_apply, val_main_v94_apply, val_main_cst_15_apply]
    show Ideal.ofBits .f32 0x00000000#32 + _ = _
    rw [Ideal.ofBits_zero_f32, zero_add]
    simp only [v95_at]
  exact (hk.trans (by rw [rows_of_graph])).trans hr.symm

/-- The kernel's per-graph count is the reference's. -/
theorem poolCnt_apply (a2 : Gids) (g : Fin 256) :
    KV.poolCnt (KH.bcolOf (F := Ideal) a2) (ix2 g 0) = val_main_v100 (F := Ideal) a2 (ix1 g) := by
  -- the kernel: fifty blocks of 2000 rows are all rows, and the indicator summed is one per selected row
  have hk : KV.poolCnt (KH.bcolOf (F := Ideal) a2) (ix2 g 0)
      = ∑ _n ∈ Finset.univ.filter (fun n : Fin 100000 => BitVec.ofNat 32 g.val = a2 (ix1 n)), (1 : EReal) := by
    show ∑ t : Fin 50, ∑ r : Fin 2000, KV.ind (KH.bcolOf (F := Ideal) a2 (ix2 (KV.rowOf t r) 0)) g = _
    simp only [rowOf_eq]
    rw [Cert.LibGcnAlgebra.sum_blocks (by norm_num : 50 * 2000 = 100000)
      (fun n => KV.ind (KH.bcolOf (F := Ideal) a2 (ix2 n 0)) g)]
    simp only [bcol_apply]
    unfold KV.ind
    exact Cert.LibGcnAlgebra.sum_ind (fun n => BitVec.ofNat 32 g.val = a2 (ix1 n))
  -- the reference: zero plus a one for each row whose scatter index, read signed, is g
  have hr : val_main_v100 (F := Ideal) a2 (ix1 g)
      = ∑ _n ∈ Finset.univ.filter (fun n : Fin 100000 => (a2 (ix1 n)).toInt = (g.val : Int)), (1 : EReal) := by
    unfold val_main_v100
    show Host.scatterAdd (F := Ideal) (φ := .f32) (Cert.LibRowScatter.cellScatterDims 256 100000
      Cert.ReferenceIdeal.Facts₀.scatter_S256_S100000x1_S100000_n_0_0_1_wf) _ _ _ (ix1 g) = _
    rw [Cert.LibGraphSum.cellScatterAdd_apply, val_main_v98_apply, val_main_cst_17_apply]
    show Ideal.ofBits .f32 0x00000000#32 + _ = _
    rw [Ideal.ofBits_zero_f32, zero_add]
    simp only [v99_at, val_main_v97_apply, val_main_cst_16_apply]
    show ∑ _n ∈ _, Ideal.ofBits .f32 0x3F800000#32 = _
    rw [Ideal.ofBits_one_f32]
  exact (hk.trans (by rw [rows_of_graph])).trans hr.symm

/-! ## The classifier -/

/-- The reference's divisor at (g, k) is max(count of g, 1), whatever the column k. -/
theorem v104_at (a2 : Gids) (g : Fin 256) (k : Fin 128) :
    val_main_v104 (F := Ideal) a2 (ix2 g k) = max (val_main_v100 (F := Ideal) a2 (ix1 g)) 1 := by
  rw [val_main_v104_apply, val_main_v103_apply, val_main_v102_apply, val_main_v101_apply, val_main_cst_18_apply]
  show max (val_main_v100 (F := Ideal) a2 (idx_main_v103 (idx_main_v104 (ix2 g k)))) (Ideal.ofBits .f32 0x3F800000#32) = _
  rw [Ideal.ofBits_one_f32]
  congr 2
  funext a
  match a with
  | ⟨0, _⟩ => rfl

/-- The kernel's mean at (g, k), on its own counts, is the reference's quotient there. -/
theorem mean_eq (S : (⟨Cert.ReferenceIdeal.S256x128, .f32⟩ : BufTy).Contents (Elt Ideal)) (a2 : Gids)
    (g : Fin 256) (k : Fin 128) :
    KV.mean S (KV.poolCnt (KH.bcolOf (F := Ideal) a2)) g k
      = Host.divf (F := Ideal) (φ := .f32) S (val_main_v104 (F := Ideal) a2) (ix2 g k) := by
  unfold KV.mean
  rw [poolCnt_apply, ← v104_at a2 g k]
  -- the array quotient at an index is the quotient of the entries, whatever the divisor array is
  generalize val_main_v104 (F := Ideal) a2 = V
  rfl

/-- The first bias, spread over the graphs, at (g, q) is its entry q. -/
theorem v108_at (a10 : (⟨Cert.ReferenceIdeal.S64, .f32⟩ : BufTy).Contents (Elt Ideal)) (g : Fin 256) (q : Fin 64) :
    val_main_v108 (F := Ideal) a10 (ix2 g q) = a10 (ix1 q) := by
  rw [val_main_v108_apply, val_main_v107_apply]
  congr 1
  funext a
  match a with
  | ⟨0, _⟩ => rfl

/-- The second bias, spread over the graphs, at (g, c) is its entry c. -/
theorem v113_at (a12 : (⟨Cert.ReferenceIdeal.S8, .f32⟩ : BufTy).Contents (Elt Ideal)) (g : Fin 256) (c : Fin 8) :
    val_main_v113 (F := Ideal) a12 (ix2 g c) = a12 (ix1 c) := by
  rw [val_main_v113_apply, val_main_v112_apply]
  congr 1
  funext a
  match a with
  | ⟨0, _⟩ => rfl

/-- The clip's lower bound is 0 everywhere. -/
theorem clip0_at (i : Cert.ReferenceIdeal.S256x64.Idx) : val_main_call3_v0 (F := Ideal) i = 0 := by
  rw [val_main_call3_v0_apply, val_main_call3_cst_apply]
  exact Ideal.ofBits_zero_f32

/-- The 256 × 128 by 128 × 64 product at (g, q), for any operands: the sum over the one contracted axis. -/
theorem dot1_at (y : (⟨Cert.ReferenceIdeal.S256x128, .f32⟩ : BufTy).Contents (Elt Ideal))
    (w : (⟨Cert.ReferenceIdeal.S128x64, .f32⟩ : BufTy).Contents (Elt Ideal)) (g : Fin 256) (q : Fin 64) :
    Host.dotGeneral (F := Ideal) (φ₁ := .f32) (φ₂ := .f32) Cert.ReferenceIdeal.dot_S256x128_S128x64_S256x64_1_0_0_1_n_n none y w (ix2 g q)
      = ∑ k : Fin 128, y (ix2 g k) * w (ix2 k q) := by
  simp only [Host.dotGeneral]
  rw [Ideal.dotGeneral_apply, ← Equiv.sum_comp
    (ValueIdx.contrEquiv1 Cert.ReferenceIdeal.dot_S256x128_S128x64_S256x64_1_0_0_1_n_n 128 rfl rfl).symm]
  refine Finset.sum_congr rfl fun k _ => ?_
  have hk := ValueIdx.contrEquiv1_symm_val Cert.ReferenceIdeal.dot_S256x128_S128x64_S256x64_1_0_0_1_n_n 128 rfl rfl k
  -- the left operand is read at (g, k): its row is the result's, its column the contracted coordinate
  have el : Cert.ReferenceIdeal.dot_S256x128_S128x64_S256x64_1_0_0_1_n_n.lhsIdx (ix2 g q)
      ((ValueIdx.contrEquiv1 Cert.ReferenceIdeal.dot_S256x128_S128x64_S256x64_1_0_0_1_n_n 128 rfl rfl).symm k)
      = ix2 g k := funext fun a => Fin.ext (by
    match a with
    | ⟨0, _⟩ => exact lhs_main_v106_0 _ _
    | ⟨1, _⟩ => exact (lhs_main_v106_1 _ _).trans hk)
  -- the right operand at (k, q): its row is the contracted coordinate, its column the result's
  have er : Cert.ReferenceIdeal.dot_S256x128_S128x64_S256x64_1_0_0_1_n_n.rhsIdx (ix2 g q)
      ((ValueIdx.contrEquiv1 Cert.ReferenceIdeal.dot_S256x128_S128x64_S256x64_1_0_0_1_n_n 128 rfl rfl).symm k)
      = ix2 k q := funext fun a => Fin.ext (by
    match a with
    | ⟨0, _⟩ => exact (rhs_main_v106_0 _ _).trans hk
    | ⟨1, _⟩ => exact rhs_main_v106_1 _ _)
  rw [el, er]

/-- The 256 × 64 by 64 × 8 product at (g, c), for any operands. -/
theorem dot2_at (y : (⟨Cert.ReferenceIdeal.S256x64, .f32⟩ : BufTy).Contents (Elt Ideal))
    (w : (⟨Cert.ReferenceIdeal.S64x8, .f32⟩ : BufTy).Contents (Elt Ideal)) (g : Fin 256) (c : Fin 8) :
    Host.dotGeneral (F := Ideal) (φ₁ := .f32) (φ₂ := .f32) Cert.ReferenceIdeal.dot_S256x64_S64x8_S256x8_1_0_0_1_n_n none y w (ix2 g c)
      = ∑ q : Fin 64, y (ix2 g q) * w (ix2 q c) := by
  simp only [Host.dotGeneral]
  rw [Ideal.dotGeneral_apply, ← Equiv.sum_comp
    (ValueIdx.contrEquiv1 Cert.ReferenceIdeal.dot_S256x64_S64x8_S256x8_1_0_0_1_n_n 64 rfl rfl).symm]
  refine Finset.sum_congr rfl fun q _ => ?_
  have hq := ValueIdx.contrEquiv1_symm_val Cert.ReferenceIdeal.dot_S256x64_S64x8_S256x8_1_0_0_1_n_n 64 rfl rfl q
  have el : Cert.ReferenceIdeal.dot_S256x64_S64x8_S256x8_1_0_0_1_n_n.lhsIdx (ix2 g c)
      ((ValueIdx.contrEquiv1 Cert.ReferenceIdeal.dot_S256x64_S64x8_S256x8_1_0_0_1_n_n 64 rfl rfl).symm q)
      = ix2 g q := funext fun a => Fin.ext (by
    match a with
    | ⟨0, _⟩ => exact lhs_main_v111_0 _ _
    | ⟨1, _⟩ => exact (lhs_main_v111_1 _ _).trans hq)
  have er : Cert.ReferenceIdeal.dot_S256x64_S64x8_S256x8_1_0_0_1_n_n.rhsIdx (ix2 g c)
      ((ValueIdx.contrEquiv1 Cert.ReferenceIdeal.dot_S256x64_S64x8_S256x8_1_0_0_1_n_n 64 rfl rfl).symm q)
      = ix2 q c := funext fun a => Fin.ext (by
    match a with
    | ⟨0, _⟩ => exact (rhs_main_v111_0 _ _).trans hq
    | ⟨1, _⟩ => exact rhs_main_v111_1 _ _)
  rw [el, er]

/-- The kernel's classifier on per-graph sums and its own counts is the reference's tail on those sums. -/
theorem cls_eq (S : (⟨Cert.ReferenceIdeal.S256x128, .f32⟩ : BufTy).Contents (Elt Ideal)) (a2 : Gids)
    (a9 : (⟨Cert.ReferenceIdeal.S128x64, .f32⟩ : BufTy).Contents (Elt Ideal))
    (a10 : (⟨Cert.ReferenceIdeal.S64, .f32⟩ : BufTy).Contents (Elt Ideal))
    (a11 : (⟨Cert.ReferenceIdeal.S64x8, .f32⟩ : BufTy).Contents (Elt Ideal))
    (a12 : (⟨Cert.ReferenceIdeal.S8, .f32⟩ : BufTy).Contents (Elt Ideal)) :
    KV.cls S (KV.poolCnt (KH.bcolOf (F := Ideal) a2)) a9 (KH.row64 (F := Ideal) a10) a11 (KH.row8 (F := Ideal) a12)
      = tail (F := Ideal) S a2 a9 a10 a11 a12 := by
  funext i
  obtain ⟨g, c, rfl⟩ : ∃ (g : Fin 256) (c : Fin 8), i = ix2 g c := ⟨i 0, i 1, eq_ix2 i⟩
  unfold Cert.ReferenceIdeal.RefValue.tail
  rw [addf_apply, dot2_at, v113_at]
  show (∑ q : Fin 64, max ((∑ k : Fin 128, KV.mean S (KV.poolCnt (KH.bcolOf (F := Ideal) a2)) g k * a9 (ix2 k q))
      + KH.row64 (F := Ideal) a10 (ix2 0 q)) 0 * a11 (ix2 q c)) + KH.row8 (F := Ideal) a12 (ix2 0 c) = _
  rw [row8_apply]
  refine congrArg (fun z : EReal => z + a12 (ix1 c)) ?_
  refine Finset.sum_congr rfl fun q _ => ?_
  -- one hidden unit q: the same mean, weights, bias and clip on both sides
  rw [maximumf_apply, addf_apply, dot1_at, v108_at, clip0_at, row64_apply]
  simp only [mean_eq]

end Cert.Bridge

end
-- ==== Proof.Bridge.lean ====
/-
  The two programs compute one function. Layer by layer: the kernel's first table is the reference's first product
  scaled by d; if a table is a product H scaled by d, the kernel's epilogue on it is the reference's layer of H,
  clipped, so the next table is the reference's next product scaled by d, and after the third layer the features
  are the reference's. Then the per-graph sums and the classifier agree.
-/
import proofs.«429220_j1795296329975_3_alg».proof.Proof.RefValue
import proofs.«429220_j1795296329975_3_alg».proof.Proof.KHost
import proofs.«429220_j1795296329975_3_alg».proof.Proof.LibGraphSum
import proofs.«429220_j1795296329975_3_alg».proof.Proof.LibGcnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«429220_j1795296329975_3_alg».proof.Proof.BridgeDefs
import proofs.«429220_j1795296329975_3_alg».proof.Proof.BridgeLayer
import proofs.«429220_j1795296329975_3_alg».proof.Proof.BridgeProd
import proofs.«429220_j1795296329975_3_alg».proof.Proof.BridgePool
set_option maxRecDepth 16384

noncomputable section

namespace Cert.Bridge

open Idealize.ShloMosaic Idealize.ShloMosaic.ValueIdx
open Cert.ReferenceIdeal.Read Cert.ReferenceIdeal.RefValue
open Cert.KernelIdeal

/-- A 128 × 128 weight matrix. -/
abbrev W128 : Type := (⟨Cert.ReferenceIdeal.S128x128, .f32⟩ : BufTy).Contents (Elt Ideal)

variable (a0 : Feat) (a1 : Edges) (a2 : Gids) (a3 : W128) (a4 : Bias) (a5 : W128) (a6 : Bias) (a7 : W128) (a8 : Bias)
  (a9 : (⟨Cert.ReferenceIdeal.S128x64, .f32⟩ : BufTy).Contents (Elt Ideal))
  (a10 : (⟨Cert.ReferenceIdeal.S64, .f32⟩ : BufTy).Contents (Elt Ideal))
  (a11 : (⟨Cert.ReferenceIdeal.S64x8, .f32⟩ : BufTy).Contents (Elt Ideal))
  (a12 : (⟨Cert.ReferenceIdeal.S8, .f32⟩ : BufTy).Contents (Elt Ideal))

/-! ## Layer 1 -/

theorem T1_eq : KH.T1 a0 a1 a3 = scaled a1 (val_main_v28 (F := Ideal) a0 a3) := by
  unfold KH.T1
  rw [lin_eq a1 a0 a3]
  rfl

theorem act1 (n : Fin 100000) (k : Fin 128) :
    KV.act (KH.aggOf (F := Ideal) (KH.T1 a0 a1 a3) a1) (KH.T1 a0 a1 a3) (KH.dcolOf (F := Ideal) a1) (KH.row128 (F := Ideal) a4) n k
      = max (val_main_v48 (F := Ideal) a0 a1 a3 a4 (ix2 n k)) 0 := by
  rw [T1_eq, v48_eq]
  exact layer_bridge a1 (val_main_v28 (F := Ideal) a0 a3) a4 n k

/-! ## Layer 2 -/

theorem T2_eq : KH.T2 a0 a1 a3 a4 a5 = scaled a1 (val_main_v50 (F := Ideal) a0 a1 a3 a4 a5) := by
  unfold KH.T2
  rw [finLin_eq a1 _ _ a4 a5 (val_main_v48 (F := Ideal) a0 a1 a3 a4) (act1 a0 a1 a3 a4)]
  rfl

theorem act2 (n : Fin 100000) (k : Fin 128) :
    KV.act (KH.aggOf (F := Ideal) (KH.T2 a0 a1 a3 a4 a5) a1) (KH.T2 a0 a1 a3 a4 a5) (KH.dcolOf (F := Ideal) a1) (KH.row128 (F := Ideal) a6) n k
      = max (val_main_v70 (F := Ideal) a0 a1 a3 a4 a5 a6 (ix2 n k)) 0 := by
  rw [T2_eq, v70_eq]
  exact layer_bridge a1 (val_main_v50 (F := Ideal) a0 a1 a3 a4 a5) a6 n k

/-! ## Layer 3 -/

theorem T3_eq : KH.T3 a0 a1 a3 a4 a5 a6 a7 = scaled a1 (val_main_v72 (F := Ideal) a0 a1 a3 a4 a5 a6 a7) := by
  unfold KH.T3
  rw [finLin_eq a1 _ _ a6 a7 (val_main_v70 (F := Ideal) a0 a1 a3 a4 a5 a6) (act2 a0 a1 a3 a4 a5 a6)]
  rfl

theorem act3 (n : Fin 100000) (k : Fin 128) :
    KV.act (KH.aggOf (F := Ideal) (KH.T3 a0 a1 a3 a4 a5 a6 a7) a1) (KH.T3 a0 a1 a3 a4 a5 a6 a7) (KH.dcolOf (F := Ideal) a1)
        (KH.row128 (F := Ideal) a8) n k
      = max (val_main_v92 (F := Ideal) a0 a1 a3 a4 a5 a6 a7 a8 (ix2 n k)) 0 := by
  rw [T3_eq, v92_eq]
  exact layer_bridge a1 (val_main_v72 (F := Ideal) a0 a1 a3 a4 a5 a6 a7) a8 n k

/-- The kernel's node features after the third layer are the reference's. -/
theorem feat_eq : KH.feat a0 a1 a3 a4 a5 a6 a7 a8 = val_main_v93 (F := Ideal) a0 a1 a3 a4 a5 a6 a7 a8 := by
  unfold KH.feat
  rw [fin_eq a1 _ _ a8 (val_main_v92 (F := Ideal) a0 a1 a3 a4 a5 a6 a7 a8) (act3 a0 a1 a3 a4 a5 a6 a7 a8)]
  rfl

/-! ## The result -/

/-- The kernel program's result is the reference program's, as functions of the thirteen arguments. -/
theorem out_eq : KH.out a0 a1 a2 a3 a4 a5 a6 a7 a8 a9 a10 a11 a12
    = val_main_v114 (F := Ideal) a0 a1 a2 a3 a4 a5 a6 a7 a8 a9 a10 a11 a12 := by
  unfold KH.out
  rw [feat_eq, poolSum_eq, cls_eq]
  rfl

end Cert.Bridge

end
-- ==== Proof.lean ====
/-
  The certificate. Both programs are a three-layer graph convolution network with mean pooling and a two-layer
  classifier, read on the extended reals. The kernel program (six launches among host gathers and scatter-sums) keeps
  each layer's table as (X W) scaled row by row by d = deg^(-1/2), aggregates it along the edges, adds the table
  itself, scales by d again, adds the bias and clips; the reference aggregates X W with every edge scaled by
  d_src · d_dst and adds (X W) / deg. Since deg ≥ 1 is a real, d is a non-negative real, and a finite non-negative
  factor distributes over any sum of extended reals, so the two layers are equal entry by entry, whatever the inputs
  (the integer inputs included: an edge whose destination is not a node contributes to neither side, and a graph id
  that is not a graph is dropped by the scatter-sum and matched by no indicator). The frames of the two kernel
  programs are the generated ones; the reference's frame is its generated run with the result dropped; the idealized
  kernel is the kernel's own text, so nothing is to preserve.
-/
import proofs.«429220_j1795296329975_3_alg».proof.Defs
import proofs.«429220_j1795296329975_3_alg».proof.Proof.Gen.Kernel
import proofs.«429220_j1795296329975_3_alg».proof.Proof.Gen.KernelIdeal
import proofs.«429220_j1795296329975_3_alg».proof.Proof.Gen.ReferenceIdeal
import proofs.«429220_j1795296329975_3_alg».proof.Proof.Gen.Pre_finite_inputs
import proofs.«429220_j1795296329975_3_alg».proof.Proof.KernelFrameP
import proofs.«429220_j1795296329975_3_alg».proof.Proof.KernelIdealFrameP
import proofs.«429220_j1795296329975_3_alg».proof.Proof.KRun
import proofs.«429220_j1795296329975_3_alg».proof.Proof.KChain
import proofs.«429220_j1795296329975_3_alg».proof.Proof.RefValue
import proofs.«429220_j1795296329975_3_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.GenP.frame m ρ

/-- The idealized kernel program runs and leaves its arguments unchanged. -/
theorem frame_ki : Cert.frame_KernelIdeal := fun m ρ _ => Cert.KernelIdeal.GenP.frame m ρ

/-- The reference program runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories that agree on the thirteen arguments, both programs end with the same
    result: the kernel's result buffer holds its one function of the arguments, the reference's holds its own, and
    the two functions are equal. -/
theorem algebraic : Cert.algebraic_KernelIdeal_ReferenceIdeal := by
  intro m ρ m' ρ' _ hagree
  refine ⟨fun c => Cert.KernelIdeal.KH.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KChain.W12_main_v53 m ρ c), (h c).2⟩)
      (Cert.KernelIdeal.KRun.run_W12 (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v114_eq, e0, e1, e2, e3, e4, e5, e6, e7, e8, e9, e10, e11, e12]
    exact (Cert.Bridge.out_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
